-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S2x8192 : Shape := ⟨2, ![2, 8192]⟩
abbrev S8192x128 : Shape := ⟨2, ![8192, 128]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128x256 .f32) (main_arg12 : FVec F S128 .f32) (main_arg13 : FVec F S128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x256 .f32) (main_arg8 : FVec F S128 .f32) (main_arg9 : FVec F S128x128 .f32) (main_arg10 : FVec F S128 .f32) (main_arg11 : FVec F S128x256 .f32) (main_arg12 : FVec F S128 .f32) (main_arg13 : FVec F S128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S4096x256 .f32) (main_arg1 : IVec S2x8192 32) (main_arg2 : FVec F S8192x128 .f32) (main_arg3 : FVec F S128x256 .f32) (main_arg4 : FVec F S128 .f32) (main_arg5 : FVec F S128x128 .f32) (main_arg6 : FVec F S128 .f32) (main_arg7 : FVec F S128x256 .f32) (main_arg8 : FVec F S128 .f32) (main_arg9 : FVec F S128x128 .f32) (main_arg10 : FVec F S128 .f32) (main_arg11 : FVec F S128x256 .f32) (main_arg12 : FVec F S128 .f32) (main_arg13 : FVec F S128x128 .f32) (main_arg14 : FVec F S128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S4096x256 : Shape := ⟨2, ![4096, 256]⟩
abbrev S2x8192 : Shape := ⟨2, ![2, 8192]⟩
abbrev S8192x128 : Shape := ⟨2, ![8192, 128]⟩
abbrev S128x256 : Shape := ⟨2, ![128, 256]⟩
abbrev S128 : Shape := ⟨1, ![128]⟩
abbrev S128x128 : Shape := ⟨2, ![128, 128]⟩
abbrev S1x8192 : Shape := ⟨2, ![1, 8192]⟩
abbrev S8192 : Shape := ⟨1, ![8192]⟩
abbrev S384x256 : Shape := ⟨2, ![384, 256]⟩
abbrev S384 : Shape := ⟨1, ![384]⟩
abbrev S384x128 : Shape := ⟨2, ![384, 128]⟩
abbrev S256x384 : Shape := ⟨2, ![256, 384]⟩
abbrev S4096x384 : Shape := ⟨2, ![4096, 384]⟩
abbrev S1x384 : Shape := ⟨2, ![1, 384]⟩
abbrev S128x384 : Shape := ⟨2, ![128, 384]⟩
abbrev S8192x384 : Shape := ⟨2, ![8192, 384]⟩
abbrev S4096x128 : Shape := ⟨2, ![4096, 128]⟩
abbrev S_ : Shape := ⟨0, ![]⟩
abbrev S8192x1 : Shape := ⟨2, ![8192, 1]⟩
abbrev S256x128 : Shape := ⟨2, ![256, 128]⟩
abbrev S256x1 : Shape := ⟨2, ![256, 1]⟩
abbrev S2048x128 : Shape := ⟨2, ![2048, 128]⟩
abbrev S128x2048 : Shape := ⟨2, ![128, 2048]⟩
abbrev S256x2048 : Shape := ⟨2, ![256, 2048]⟩
abbrev S256 : Shape := ⟨1, ![256]⟩
abbrev S1x2048 : Shape := ⟨2, ![1, 2048]⟩
abbrev S512x128 : Shape := ⟨2, ![512, 128]⟩
abbrev S512x2048 : Shape := ⟨2, ![512, 2048]⟩

abbrev nBuf : Space → Nat
  | .hbm => 75
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S2x8192, .i32⟩
  | .hbm, ⟨2, _⟩ => ⟨S8192x128, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x256, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x8192, .i32⟩
  | .hbm, ⟨16, _⟩ => ⟨S8192, .i32⟩
  | .hbm, ⟨17, _⟩ => ⟨S1x8192, .i32⟩
  | .hbm, ⟨18, _⟩ => ⟨S8192, .i32⟩
  | .hbm, ⟨19, _⟩ => ⟨S384x256, .f32⟩
  | .hbm, ⟨20, _⟩ => ⟨S384, .f32⟩
  | .hbm, ⟨21, _⟩ => ⟨S384x128, .f32⟩
  | .hbm, ⟨22, _⟩ => ⟨S384, .f32⟩
  | .hbm, ⟨23, _⟩ => ⟨S256x384, .f32⟩
  | .hbm, ⟨24, _⟩ => ⟨S4096x384, .f32⟩
  | .hbm, ⟨25, _⟩ => ⟨S1x384, .f32⟩
  | .hbm, ⟨26, _⟩ => ⟨S4096x384, .f32⟩
  | .hbm, ⟨27, _⟩ => ⟨S4096x384, .f32⟩
  | .hbm, ⟨28, _⟩ => ⟨S128x384, .f32⟩
  | .hbm, ⟨29, _⟩ => ⟨S8192x384, .f32⟩
  | .hbm, ⟨30, _⟩ => ⟨S1x384, .f32⟩
  | .hbm, ⟨31, _⟩ => ⟨S8192x384, .f32⟩
  | .hbm, ⟨32, _⟩ => ⟨S8192x384, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192x1, .i32⟩
  | .hbm, ⟨47, _⟩ => ⟨S8192x128, .f32⟩
  | .hbm, ⟨48, _⟩ => ⟨S8192x128, .f32⟩
  | .hbm, ⟨49, _⟩ => ⟨S8192x128, .bf16⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S8192x1, .i32⟩
  | .hbm, ⟨58, _⟩ => ⟨S8192x128, .f32⟩
  | .hbm, ⟨59, _⟩ => ⟨S8192x128, .f32⟩
  | .hbm, ⟨60, _⟩ => ⟨S8192x128, .bf16⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192x128, .f32⟩
  | .hbm, ⟨70, _⟩ => ⟨S8192x128, .f32⟩
  | .hbm, ⟨71, _⟩ => ⟨S8192x128, .bf16⟩
  | .hbm, ⟨72, _⟩ => ⟨S8192x128, .f32⟩
  | .hbm, ⟨73, _⟩ => ⟨S1x8192, .i32⟩
  | .hbm, ⟨74, _⟩ => ⟨S4096x128, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S256x128, .f32⟩
  | .local _ .vmem, ⟨5, _⟩ => ⟨S256x128, .f32⟩
  | .local _ .vmem, ⟨6, _⟩ => ⟨S256x1, .f32⟩
  | .local _ .vmem, ⟨7, _⟩ => ⟨S256x1, .f32⟩
  | .local _ .vmem, ⟨8, _⟩ => ⟨S256x128, .f32⟩
  | .local _ .vmem, ⟨9, _⟩ => ⟨S1x2048, .i32⟩
  | .local _ .vmem, ⟨10, _⟩ => ⟨S1x2048, .i32⟩
  | .local _ .vmem, ⟨11, _⟩ => ⟨S2048x128, .f32⟩
  | .local _ .vmem, ⟨12, _⟩ => ⟨S2048x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_1 : Ref sig .tc := ⟨.hbm, 50, rfl⟩
abbrev main_v33 : Ref sig .tc := ⟨.hbm, 51, rfl⟩
abbrev main_v34 : Ref sig .tc := ⟨.hbm, 52, rfl⟩
abbrev main_c_2 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_3 : Ref sig .tc := ⟨.hbm, 61, rfl⟩
abbrev main_v42 : Ref sig .tc := ⟨.hbm, 62, rfl⟩
abbrev main_v43 : Ref sig .tc := ⟨.hbm, 63, rfl⟩
abbrev main_c_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v18 : BitVec 32 := Scalar.addi c0_i32 c4_i32
  let c1_i32 : BitVec 32 := 1#32
  ⟨c0_i32, v18, c1_i32⟩
def k0_mult1 (k0_t1 : Fin k0_t1_loop.trips) : BitVec 32 :=
  let c0_i32_18 : BitVec 32 := 0#32
  let c0_i32 : BitVec 32 := 0#32
  let c1_i32 : BitVec 32 := 1#32
  let arg8 : BitVec 32 := Scf.iv c0_i32 c1_i32 k0_t1
  let c1_i32_17 : BitVec 32 := 1#32
  let v24 : BitVec 32 := Scalar.muli arg8 c1_i32_17
  let v25 : BitVec 32 := Scalar.addi c0_i32_18 v24
  let c2048_i32 : BitVec 32 := 2048#32
  let v26 : BitVec 32 := Scalar.muli v25 c2048_i32
  v26
def k0_off1 (k0_t1 : Fin k0_t1_loop.trips) : Fin 2 → Nat :=
  let c0_i32_18 : BitVec 32 := 0#32
  let c0_i32 : BitVec 32 := 0#32
  let c1_i32 : BitVec 32 := 1#32
  let arg8 : BitVec 32 := Scf.iv c0_i32 c1_i32 k0_t1
  let c1_i32_17 : BitVec 32 := 1#32
  let v24 : BitVec 32 := Scalar.muli arg8 c1_i32_17
  let v25 : BitVec 32 := Scalar.addi c0_i32_18 v24
  let c2048_i32 : BitVec 32 := 2048#32
  let v26 : BitVec 32 := Scalar.muli v25 c2048_i32
  let v27 : BitVec 32 := v26
  let v28 : Index := Scalar.indexCast v27
  let c0_19 : Index := 0#32
  ![v28.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x8192_S1x8192_0_0 : S2x8192.Slices ![0, 0] S1x8192
  shapeCasts_S1x8192_S8192 : S1x8192.ShapeCasts S8192
  slices_S2x8192_S1x8192_1_0 : S2x8192.Slices ![1, 0] S1x8192
  concatenates_S128x256_S128x256_S128x256_S384x256_d0 : Shape.Concatenates [S128x256, S128x256, S128x256] S384x256 0
  concatenates_S128_S128_S128_S384_d0 : Shape.Concatenates [S128, S128, S128] S384 0
  concatenates_S128x128_S128x128_S128x128_S384x128_d0 : Shape.Concatenates [S128x128, S128x128, S128x128] S384x128 0
  transposes_S384x256_S256x384_1_0 : S384x256.Transposes [1, 0] S256x384
  bcast_S384_S1x384_1 : S384.BroadcastsInDim S1x384 (![1] : Fin 1 → Fin S1x384.rank)
  bcast_S1x384_S4096x384_0_1 : S1x384.BroadcastsInDim S4096x384 (![0, 1] : Fin 2 → Fin S4096x384.rank)
  transposes_S384x128_S128x384_1_0 : S384x128.Transposes [1, 0] S128x384
  bcast_S1x384_S8192x384_0_1 : S1x384.BroadcastsInDim S8192x384 (![0, 1] : Fin 2 → Fin S8192x384.rank)
  slices_S4096x384_S4096x128_0_0 : S4096x384.Slices ![0, 0] S4096x128
  slices_S4096x384_S4096x128_0_128 : S4096x384.Slices ![0, 128] S4096x128
  slices_S4096x384_S4096x128_0_256 : S4096x384.Slices ![0, 256] S4096x128
  slices_S8192x384_S8192x128_0_0 : S8192x384.Slices ![0, 0] S8192x128
  slices_S8192x384_S8192x128_0_128 : S8192x384.Slices ![0, 128] S8192x128
  slices_S8192x384_S8192x128_0_256 : S8192x384.Slices ![0, 256] S8192x128
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  h_S2048x128 : 0 < S2048x128.numel
  shapeCasts_S2048x128_S2048x128 : S2048x128.ShapeCasts S2048x128
  transposes_S2048x128_p1_0_S128x2048 : S2048x128.Transposes [1, 0] S128x2048
  reduces_S256x2048_S256 : S256x2048.Reduces [1] S256
  shapeCasts_S256_S256x1 : S256.ShapeCasts S256x1
  broadcasts_S256x1_S256x2048 : S256x1.Broadcasts S256x2048
  broadcasts_S256x1_S256x128 : S256x1.Broadcasts S256x128
  shapeCasts_S8192_S1x8192 : S8192.ShapeCasts S1x8192
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S512x2048_d0_w32 : S512x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  natLt_1_32 : 1 < 32
  inb_S2048x128_S2048x128_0_0 : ∀ a, (![0, 0] : Fin 2 → Nat) a + S2048x128.size a ≤ S2048x128.size a
  dot_S4096x256_S256x384_S4096x384_1_0_0_1_n_n_wf : DotDims.WF S4096x256 S256x384 S4096x384 [1] [0] [0] [1] [] []
  dot_S8192x128_S128x384_S8192x384_1_0_0_1_n_n_wf : DotDims.WF S8192x128 S128x384 S8192x384 [1] [0] [0] [1] [] []
  gather_S4096x128_S8192x1_S8192x128_1_0_n_n_0_1_1128_wf : GatherDims.WF S4096x128 S8192x1 S8192x128 [1] [0] [] [0] [] 1 ![1, 128]
  dot_S256x128_S128x2048_S256x2048_1_0_0_1_n_n_wf : DotDims.WF S256x128 S128x2048 S256x2048 [1] [0] [0] [1] [] []
  dot_S256x2048_S2048x128_S256x128_1_0_0_1_n_n_wf : DotDims.WF S256x2048 S2048x128 S256x128 [1] [0] [0] [1] [] []
  dot_S512x2048_S2048x128_S512x128_1_0_0_1_n_n_wf : DotDims.WF S512x2048 S2048x128 S512x128 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .bf16 = 32 ∨ (Rect.block (s := S8192x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .bf16 = 32 ∨ (Rect.block (s := S8192x128) S8192x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S8192x128.size a
  hwx0_3 : ∀ i : grid0.Coords, EltTy.bits .f32 = 32 ∨ (Rect.block (s := S8192x128) S256x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x8192.size a
  hwx1_0 : ∀ i : grid1.Coords, EltTy.bits .i32 = 32 ∨ (Rect.block (s := S1x8192) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)

variable [Facts₀]

def dot_S4096x256_S256x384_S4096x384_1_0_0_1_n_n : DotDims S4096x256 S256x384 S4096x384 where
  lhsContracting := [1]
  rhsContracting := [0]
  lhsNonContracting := [0]
  rhsNonContracting := [1]
  lhsBatch := []
  rhsBatch := []
  wf := dot_S4096x256_S256x384_S4096x384_1_0_0_1_n_n_wf
def dot_S8192x128_S128x384_S8192x384_1_0_0_1_n_n : DotDims S8192x128 S128x384 S8192x384 where
  lhsContracting := [1]
  rhsContracting := [0]
  lhsNonContracting := [0]
  rhsNonContracting := [1]
  lhsBatch := []
  rhsBatch := []
  wf := dot_S8192x128_S128x384_S8192x384_1_0_0_1_n_n_wf
def gather_S4096x128_S8192x1_S8192x128_1_0_n_n_0_1_1128 : GatherDims S4096x128 S8192x1 S8192x128 where
  offsetDims := [1]
  collapsedSliceDims := [0]
  operandBatchingDims := []
  startIndicesBatchingDims := []
  startIndexMap := [0]
  indexVectorDim := 1
  sliceSizes := ![1, 128]
  wf := gather_S4096x128_S8192x1_S8192x128_1_0_n_n_0_1_1128_wf
def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v32) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x256 : Shape := ⟨2, ![4096, 256]⟩
abbrev S2x8192 : Shape := ⟨2, ![2, 8192]⟩
abbrev S8192x128 : Shape := ⟨2, ![8192, 128]⟩
abbrev S128x256 : Shape := ⟨2, ![128, 256]⟩
abbrev S128 : Shape := ⟨1, ![128]⟩
abbrev S128x128 : Shape := ⟨2, ![128, 128]⟩
abbrev S1x8192 : Shape := ⟨2, ![1, 8192]⟩
abbrev S8192 : Shape := ⟨1, ![8192]⟩
abbrev S256x128 : Shape := ⟨2, ![256, 128]⟩
abbrev S4096x128 : Shape := ⟨2, ![4096, 128]⟩
abbrev S1x128 : Shape := ⟨2, ![1, 128]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩

abbrev nBuf : Space → Nat
  | .hbm => 103
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S2x8192, .i32⟩
  | .hbm, ⟨2, _⟩ => ⟨S8192x128, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x256, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x8192, .i32⟩
  | .hbm, ⟨16, _⟩ => ⟨S8192, .i32⟩
  | .hbm, ⟨17, _⟩ => ⟨S1x8192, .i32⟩
  | .hbm, ⟨18, _⟩ => ⟨S8192, .i32⟩
  | .hbm, ⟨19, _⟩ => ⟨S256x128, .f32⟩
  | .hbm, ⟨20, _⟩ => ⟨S4096x128, .f32⟩
  | .hbm, ⟨21, _⟩ => ⟨S1x128, .f32⟩
  | .hbm, ⟨22, _⟩ => ⟨S4096x128, .f32⟩
  | .hbm, ⟨23, _⟩ => ⟨S4096x128, .f32⟩
  | .hbm, ⟨24, _⟩ => ⟨S256x128, .f32⟩
  | .hbm, ⟨25, _⟩ => ⟨S4096x128, .f32⟩
  | .hbm, ⟨26, _⟩ => ⟨S1x128, .f32⟩
  | .hbm, ⟨27, _⟩ => ⟨S4096x128, .f32⟩
  | .hbm, ⟨28, _⟩ => ⟨S4096x128, .f32⟩
  | .hbm, ⟨29, _⟩ => ⟨S256x128, .f32⟩
  | .hbm, ⟨30, _⟩ => ⟨S4096x128, .f32⟩
  | .hbm, ⟨31, _⟩ => ⟨S1x128, .f32⟩
  | .hbm, ⟨32, _⟩ => ⟨S4096x128, .f32⟩
  | .hbm, ⟨33, _⟩ => ⟨S4096x128, .f32⟩
  | .hbm, ⟨34, _⟩ => ⟨S128x128, .f32⟩
  | .hbm, ⟨35, _⟩ => ⟨S8192x128, .f32⟩
  | .hbm, ⟨36, _⟩ => ⟨S1x128, .f32⟩
  | .hbm, ⟨37, _⟩ => ⟨S8192x128, .f32⟩
  | .hbm, ⟨38, _⟩ => ⟨S8192x128, .f32⟩
  | .hbm, ⟨39, _⟩ => ⟨S128x128, .f32⟩
  | .hbm, ⟨40, _⟩ => ⟨S8192x128, .f32⟩
  | .hbm, ⟨41, _⟩ => ⟨S1x128, .f32⟩
  | .hbm, ⟨42, _⟩ => ⟨S8192x128, .f32⟩
  | .hbm, ⟨43, _⟩ => ⟨S8192x128, .f32⟩
  | .hbm, ⟨44, _⟩ => ⟨S128x128, .f32⟩
  | .hbm, ⟨45, _⟩ => ⟨S8192x128, .f32⟩
  | .hbm, ⟨46, _⟩ => ⟨S1x128, .f32⟩
  | .hbm, ⟨47, _⟩ => ⟨S8192x128, .f32⟩
  | .hbm, ⟨48, _⟩ => ⟨S8192x128, .f32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S8192x1, .i32⟩
  | .hbm, ⟨57, _⟩ => ⟨S8192x128, .f32⟩
  | .hbm, ⟨58, _⟩ => ⟨S8192x128, .f32⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .i32⟩
  | .hbm, ⟨66, _⟩ => ⟨S8192x1, .i32⟩
  | .hbm, ⟨67, _⟩ => ⟨S8192x128, .f32⟩
  | .hbm, ⟨68, _⟩ => ⟨S8192x128, .f32⟩
  | .hbm, ⟨69, _⟩ => ⟨S_, .i32⟩
  | .hbm, ⟨70, _⟩ => ⟨S8192, .i32⟩
  | .hbm, ⟨71, _⟩ => ⟨S8192, .i1⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S8192, .i32⟩
  | .hbm, ⟨76, _⟩ => ⟨S8192x1, .i32⟩
  | .hbm, ⟨77, _⟩ => ⟨S8192x128, .f32⟩
  | .hbm, ⟨78, _⟩ => ⟨S8192x128, .f32⟩
  | .hbm, ⟨79, _⟩ => ⟨S128x8192, .f32⟩
  | .hbm, ⟨80, _⟩ => ⟨S8192x8192, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S_, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S8192x1, .f32⟩
  | .hbm, ⟨90, _⟩ => ⟨S8192x8192, .f32⟩
  | .hbm, ⟨91, _⟩ => ⟨S8192x8192, .f32⟩
  | .hbm, ⟨92, _⟩ => ⟨S8192x8192, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x8192, .f32⟩
  | .hbm, ⟨97, _⟩ => ⟨S8192x8192, .f32⟩
  | .hbm, ⟨98, _⟩ => ⟨S8192x128, .f32⟩
  | .hbm, ⟨99, _⟩ => ⟨S_, .f32⟩
  | .hbm, ⟨100, _⟩ => ⟨S4096x128, .f32⟩
  | .hbm, ⟨101, _⟩ => ⟨S8192x1, .i32⟩
  | .hbm, ⟨102, _⟩ => ⟨S4096x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c : Ref sig .tc := ⟨.hbm, 49, rfl⟩
abbrev main_v34 : Ref sig .tc := ⟨.hbm, 50, rfl⟩
abbrev main_v35 : Ref sig .tc := ⟨.hbm, 51, rfl⟩
abbrev main_c_0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_1 : Ref sig .tc := ⟨.hbm, 59, rfl⟩
abbrev main_v42 : Ref sig .tc := ⟨.hbm, 60, rfl⟩
abbrev main_v43 : Ref sig .tc := ⟨.hbm, 61, rfl⟩
abbrev main_c_2 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_3 : Ref sig .tc := ⟨.hbm, 69, rfl⟩
abbrev main_v50 : Ref sig .tc := ⟨.hbm, 70, rfl⟩
abbrev main_v51 : Ref sig .tc := ⟨.hbm, 71, rfl⟩
abbrev main_c_4 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst : Ref sig .tc := ⟨.hbm, 81, rfl⟩
abbrev main_v60 : Ref sig .tc := ⟨.hbm, 82, rfl⟩
abbrev main_v61 : Ref sig .tc := ⟨.hbm, 83, rfl⟩
abbrev main_cst_5 : Ref sig .tc := ⟨.hbm, 84, rfl⟩
abbrev main_v62 : Ref sig .tc := ⟨.hbm, 85, rfl⟩
abbrev main_cst_6 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_7 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_8 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]

class Facts₀ : Prop where
  slices_S2x8192_S1x8192_0_0 : S2x8192.Slices ![0, 0] S1x8192
  shapeCasts_S1x8192_S8192 : S1x8192.ShapeCasts S8192
  slices_S2x8192_S1x8192_1_0 : S2x8192.Slices ![1, 0] S1x8192
  transposes_S128x256_S256x128_1_0 : S128x256.Transposes [1, 0] S256x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  transposes_S128x128_S128x128_1_0 : S128x128.Transposes [1, 0] S128x128
  bcast_S1x128_S8192x128_0_1 : S1x128.BroadcastsInDim S8192x128 (![0, 1] : Fin 2 → Fin S8192x128.rank)
  bcast_S_S8192 : S_.BroadcastsInDim S8192 (![] : Fin 0 → Fin S8192.rank)
  bcast_S8192_S8192x1_0 : S8192.BroadcastsInDim S8192x1 (![0] : Fin 1 → Fin S8192x1.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S_S4096x128 : S_.BroadcastsInDim S4096x128 (![] : Fin 0 → Fin S4096x128.rank)
  dot_S4096x256_S256x128_S4096x128_1_0_0_1_n_n_wf : DotDims.WF S4096x256 S256x128 S4096x128 [1] [0] [0] [1] [] []
  dot_S8192x128_S128x128_S8192x128_1_0_0_1_n_n_wf : DotDims.WF S8192x128 S128x128 S8192x128 [1] [0] [0] [1] [] []
  gather_S4096x128_S8192x1_S8192x128_1_0_n_n_0_1_1128_wf : GatherDims.WF S4096x128 S8192x1 S8192x128 [1] [0] [] [0] [] 1 ![1, 128]
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []
  scatter_S4096x128_S8192x1_S8192x128_1_0_0_1_wf : ScatterDims.WF S4096x128 S8192x1 S8192x128 [1] [0] [0] 1

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S4096x128_S8192x1_S8192x128_1_0_n_n_0_1_1128 : GatherDims S4096x128 S8192x1 S8192x128 where
  offsetDims := [1]
  collapsedSliceDims := [0]
  operandBatchingDims := []
  startIndicesBatchingDims := []
  startIndexMap := [0]
  indexVectorDim := 1
  sliceSizes := ![1, 128]
  wf := gather_S4096x128_S8192x1_S8192x128_1_0_n_n_0_1_1128_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def scatter_S4096x128_S8192x1_S8192x128_1_0_0_1 : ScatterDims S4096x128 S8192x1 S8192x128 where
  updateWindowDims := [1]
  insertedWindowDims := [0]
  scatterDimsToOperandDims := [0]
  indexVectorDim := 1
  wf := scatter_S4096x128_S8192x1_S8192x128_1_0_0_1_wf

class Facts : Prop extends Facts₀ where

variable [Facts]
-- ==== Proof.Kernel.Fn.lean ====
/-
  The two kernels' arithmetic as pure functions of what their bodies load, over the payload terms of the
  printed bodies, at any float instance.

  ATTENTION, one tile of 256 query rows against all 8192 key / value rows. The body keeps, per query row, a running
  maximum `m`, a running denominator `l` and a running numerator row `acc`. They start at (-inf, 0, 0). Chunk `k`
  (key rows 2048k … 2048k + 2047) replaces them by

      m'   = max m (max_j s_j)                    s_j = <scaled query row, key row j>
      l'   = exp (m - m') * l   + sum_j exp (s_j - m')
      acc' = exp (m - m') * acc + sum_j exp (s_j - m') * (value row j)

  and after the four chunks the tile is `acc / l`, row by row.

  SCATTER, one tile of 512 node rows against one chunk of 2048 edges: the accumulator plus the product of the 0/1 matrix
  "edge e's destination is node n" with the chunk's edge rows.
-/
import proofs.«421498_j43611097924270_2_alg».proof.Proof.Gen.Kernel.Skeleton
import Idealize.ShloMosaic.Lib.Pipeline.FrameBody

noncomputable section

namespace Cert.Kernel.Blocks

open Idealize.ShloMosaic Idealize.ShloMosaic.TcCoe
open Cert.Kernel Cert.Kernel.Gen

variable {F : FTy → Type} [FloatOps F]

/-- Key / value rows 2048k … 2048k + 2047 of the resident 8192-row buffer: the rows chunk `k` of the loop reads. -/
abbrev chunk (k : Fin k0_t1_loop.trips) : Rect S8192x128 :=
  Rect.unit (s := S8192x128) (k0_off1 k) S2048x128.size (k0_off1_inb k)

/-- Per query row of a tile: the running maximum, the running denominator, the running numerator row. -/
abbrev St (F : FTy → Type) : Type := Vec F S256x1 .f32 × Vec F S256x1 .f32 × Vec F S256x128 .f32

/-- The state before any chunk: maximum -inf, denominator 0, numerator 0. -/
def attnInit : St F := (k0_pay2, k0_pay3, k0_pay4)

/-- One chunk's update of the running state, from the scaled query tile `q` and the whole key and value buffers. -/
def attnStep (q : FVec F S256x128 .bf16) (K V : Vec F S8192x128 .bf16) (k : Fin k0_t1_loop.trips) (s : St F) : St F :=
  (k0_pay5 (k0_pay8 q (View.ld K (chunk k)) s.1),
   k0_pay11 q (View.ld K (chunk k)) s.1 s.2.1,
   k0_pay12 q (View.ld K (chunk k)) (View.ld V (chunk k)) s.1 s.2.2)

/-- The running state after the first `n` chunks (past the last chunk nothing changes). -/
def attnState (q : FVec F S256x128 .bf16) (K V : Vec F S8192x128 .bf16) : ℕ → St F
  | 0 => attnInit
  | n + 1 => if h : n < k0_t1_loop.trips then attnStep q K V ⟨n, h⟩ (attnState q K V n) else attnState q K V n

/-- What the attention body leaves in its output tile: numerator over denominator after all the chunks, from the query
    tile `x` as loaded (before scaling) and the whole key and value buffers. -/
def attnBlock (x : Vec F S256x128 .bf16) (K V : Vec F S8192x128 .bf16) : Vec F S256x128 .f32 :=
  k0_pay6 (attnState (k0_pay1 x) K V k0_t1_loop.trips).2.2 (attnState (k0_pay1 x) K V k0_t1_loop.trips).2.1

/-- What the scatter body leaves in its accumulator (and copies to its output tile) at grid coordinates `i`: the
    accumulator it found plus this chunk's contribution, from the chunk's destination ids `d` and edge rows `e`. -/
def scatStep (i : grid1.Coords) (d : Vec F S1x2048 .i32) (e : Vec F S2048x128 .f32) (acc : Vec F S512x128 .f32) :
    Vec F S512x128 .f32 :=
  k1_pay2 i d e acc

/-- The accumulator as the first chunk of a node tile finds it after the reset: zero. -/
def scatZero : Vec F S512x128 .f32 := k1_pay1

end Cert.Kernel.Blocks

end
-- ==== Proof.Kernel.Dat.lean ====
/-
  The proof data of the two kernel regions, at any float instance, over the contents `V` the region finds in the
  TensorCore's buffers.

  Region 0 (attention, 32 tiles of 256 query rows): every input tile stays in place; the output tile ends at
  `attnBlock` of the query tile and the whole key and value buffers. Its scratch buffers are rewritten from nothing at
  every tile, so the region's invariant says nothing of them.

  Region 1 (scatter, 8 node tiles × 4 edge chunks, the chunk index fastest): the accumulator is CARRIED from one chunk to
  the next of a node tile and reset at a tile's first chunk, so the invariant names its contents: after grid position `n`
  it holds `scatAcc n`, the sum over the chunks of this node tile so far; the output tile is a copy of it.
-/
import proofs.«421498_j43611097924270_2_alg».proof.Proof.Gen.Kernel.Launch
import proofs.«421498_j43611097924270_2_alg».proof.Proof.Gen.Kernel.Skeleton
import proofs.«421498_j43611097924270_2_alg».proof.Proof.Gen.Kernel.Points
import proofs.«421498_j43611097924270_2_alg».proof.Proof.Kernel.Fn
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Blocks

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: attention -/

/-- Window `w`'s block at grid position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => attnBlock (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = attnBlock (iblk0 V c 0 t) (iblk0 V c 1 t) (iblk0 V c 2 t) := by dsimp only [dat0]

/-! # Region 1: scatter -/

/-- Window `w`'s block at grid position `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after grid position `n`: at a node tile's first chunk (position ≡ 0 mod 4) the chunk's
    contribution over zero, otherwise over what the position before left. -/
def scatAcc (c : Dev nD) : (n : ℕ) → n < cfg1.N → Vec F S512x128 .f32
  | 0, hn => scatStep (grid1.coords ⟨0, hn⟩) (iblk1 V c 0 ⟨0, hn⟩) (iblk1 V c 1 ⟨0, hn⟩) scatZero
  | n + 1, hn =>
    if (n + 1) % 4 = 0 then
      scatStep (grid1.coords ⟨n + 1, hn⟩) (iblk1 V c 0 ⟨n + 1, hn⟩) (iblk1 V c 1 ⟨n + 1, hn⟩) scatZero
    else
      scatStep (grid1.coords ⟨n + 1, hn⟩) (iblk1 V c 0 ⟨n + 1, hn⟩) (iblk1 V c 1 ⟨n + 1, hn⟩) (scatAcc c n (Nat.lt_of_succ_lt hn))

/-- At a node tile's first chunk. -/
theorem scatAcc_first (c : Dev nD) (t : Fin cfg1.N) (h0 : t.val % 4 = 0) :
    scatAcc V c t.val t.isLt = scatStep (grid1.coords t) (iblk1 V c 0 t) (iblk1 V c 1 t) scatZero := by
  obtain ⟨n, hn⟩ := t
  cases n with
  | zero => rfl
  | succ n => exact if_pos h0

/-- At a later chunk of a node tile. -/
theorem scatAcc_next (c : Dev nD) (t : Fin cfg1.N) (h0 : ¬ t.val % 4 = 0) :
    scatAcc V c t.val t.isLt = scatStep (grid1.coords t) (iblk1 V c 0 t) (iblk1 V c 1 t)
      (scatAcc V c (t.val - 1) (Nat.lt_of_le_of_lt (Nat.sub_le _ _) t.isLt)) := by
  obtain ⟨n, hn⟩ := t
  cases n with
  | zero => exact absurd (Nat.zero_mod _) h0
  | succ n => exact if_neg h0

/-- The scatter kernel's accumulator, a whole scoped buffer of its own. -/
abbrev scM1 : Memref sig .tc .vmem S512x128 .f32 := Memref.whole cc1_scratch0

/-- The region's invariant before grid position `n`: before the first, nothing is known of the accumulator;
    afterwards it holds what the position before left, the core's other scoped buffers beside it at some contents. -/
def PhiS1 (c : Dev nD) : (n : ℕ) → n ≤ cfg1.N → sProp 𝕄
  | 0, _ => Pipeline.ΦA spec1 c
  | n + 1, hn => iprop(iprop(owns (c : Thread nD τ) scM1 fullShare (scatAcc V c n hn) ∗ Pipeline.scopedRestBut (Ix := Unit) (Name := ℕ) (U := UR sig nD τ) (Lvl := ℕ) (Val := Elt F) spec1 c [cc1_scratch0]) ∗ (∃ r, prngReg c r))

theorem PhiS1_succ (c : Dev nD) (n : ℕ) (hn : n < cfg1.N) :
    PhiS1 V c (n + 1) hn = iprop(iprop(owns (c : Thread nD τ) scM1 fullShare (scatAcc V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (scatAcc V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scatAcc V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scatAcc V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Frame

end
-- ==== Proof.Kernel.AttnKernel.lean ====
/-
  The attention body on any whole staging memrefs: from the query tile, the whole key and value buffers and the three
  scratch buffers at any contents it runs to the end, leaves the inputs as they were and the output tile at
  `attnBlock` of them: three resets, the four chunks of the loop (each replacing the running maximum, denominator and
  numerator), then numerator over denominator.
-/
import proofs.«421498_j43611097924270_2_alg».proof.Proof.Kernel.Dat
import proofs.«421498_j43611097924270_2_alg».proof.Proof.Gen.Kernel.Loops
import Idealize.ShloMosaic.Lib.Pipeline.Value

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Blocks

variable {F : FTy → Type} [FloatOps F]

local notation "𝕄" => MT nD τ sig Unit (Elt F) ℕ (UR sig nD τ) ℕ

/-- The attention kernel's scratch buffers: the running maximum, the running denominator, the running numerator. -/
abbrev scM0_0 : Memref sig .tc .vmem S256x1 .f32 := Memref.whole cc0_scratch0
abbrev scM0_1 : Memref sig .tc .vmem S256x1 .f32 := Memref.whole cc0_scratch1
abbrev scM0_2 : Memref sig .tc .vmem S256x128 .f32 := Memref.whole cc0_scratch2

/-- The offsets of a whole-buffer rectangle of rank two are zero on both axes. -/
theorem attn_off00 : (![0, 0] : Fin 2 → Nat) = fun _ => 0 := funext fun a => by fin_cases a <;> rfl

/-- One store through the whole-buffer rectangle, read back through the same view, is the stored payload, whatever
    the buffer held before: the one piece covers every index. -/
theorem attn_read_writes_one {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-- ONE TRIP, read back. Whatever the three scratch buffers hold when chunk `k` begins, after the trip's three stores
    they read as `attnStep` of what they read before: the trip loads key and value rows at `chunk k`, the running
    maximum, denominator and numerator through the whole-buffer rectangle, and stores the new maximum, denominator and
    numerator through it. -/
theorem attn_trip_reads (𝒱 : Variants) (c : Dev nD) (bd : Option 𝒱.V) (i : grid0.Coords)
    (arg1 : Memref sig .tc .vmem S256x128 .bf16) (harg1 : arg1.IsWhole) (arg2 : Memref sig .tc .vmem S8192x128 .bf16) (harg2 : arg2.IsWhole)
    (arg3 : Memref sig .tc .vmem S8192x128 .bf16) (harg3 : arg3.IsWhole) (arg4 : Memref sig .tc .vmem S256x128 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x128 .f32) (harg7 : arg7.IsWhole)
    (v0 : Vec F S256x128 .bf16) (X2 : BufTy.Contents (Elt F) arg2.view.ty) (X3 : BufTy.Contents (Elt F) arg3.view.ty)
    (k : Fin k0_t1_loop.trips)
    (f5 : BufTy.Contents (Elt F) arg5.view.ty) (f6 : BufTy.Contents (Elt F) arg6.view.ty) (f7 : BufTy.Contents (Elt F) arg7.view.ty) :
    (arg5.view.read (Elt F) (arg5.view.writes (Elt F) f5 (tripL_k0_t1 (F := F) 𝒱 c bd i arg1 harg1 arg2 harg2 arg3 harg3 arg4 harg4 arg5 harg5 arg6 harg6 arg7 harg7 v0 X2 X3 k f5 f6 f7).1),
     arg6.view.read (Elt F) (arg6.view.writes (Elt F) f6 (tripL_k0_t1 (F := F) 𝒱 c bd i arg1 harg1 arg2 harg2 arg3 harg3 arg4 harg4 arg5 harg5 arg6 harg6 arg7 harg7 v0 X2 X3 k f5 f6 f7).2.1),
     arg7.view.read (Elt F) (arg7.view.writes (Elt F) f7 (tripL_k0_t1 (F := F) 𝒱 c bd i arg1 harg1 arg2 harg2 arg3 harg3 arg4 harg4 arg5 harg5 arg6 harg6 arg7 harg7 v0 X2 X3 k f5 f6 f7).2.2))
      = attnStep (k0_pay1 v0) (arg2.view.read (Elt F) X2) (arg3.view.read (Elt F) X3) k
          (arg5.view.read (Elt F) f5, arg6.view.read (Elt F) f6, arg7.view.read (Elt F) f7) := by
  unfold tripL_k0_t1
  unfold trip_k0_t1
  dsimp only
  sl_unfold_run_names
  rw [attn_read_writes_one _ _ attn_off00, attn_read_writes_one _ _ attn_off00, attn_read_writes_one _ _ attn_off00]
  simp only [View.readAt_eq_ld, View.ld_unit_zero (S := S256x1) attn_off00, View.ld_unit_zero (S := S256x128) attn_off00]
  rfl

/-- THE TRIPS BEFORE `n`, read back. Over buffers that read as the initial state (maximum -inf, denominator 0,
    numerator 0) at loop entry, the pieces of the first `n` trips leave the three scratch buffers reading as
    `attnState n`: by induction on `n`, the pieces of trip `n` written over what the earlier trips left, each trip one
    `attnStep`. -/
theorem attn_pb_reads (𝒱 : Variants) (c : Dev nD) (bd : Option 𝒱.V) (i : grid0.Coords)
    (arg1 : Memref sig .tc .vmem S256x128 .bf16) (harg1 : arg1.IsWhole) (arg2 : Memref sig .tc .vmem S8192x128 .bf16) (harg2 : arg2.IsWhole)
    (arg3 : Memref sig .tc .vmem S8192x128 .bf16) (harg3 : arg3.IsWhole) (arg4 : Memref sig .tc .vmem S256x128 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x128 .f32) (harg7 : arg7.IsWhole)
    (v0 : Vec F S256x128 .bf16) (X2 : BufTy.Contents (Elt F) arg2.view.ty) (X3 : BufTy.Contents (Elt F) arg3.view.ty)
    (G5 : BufTy.Contents (Elt F) arg5.view.ty) (G6 : BufTy.Contents (Elt F) arg6.view.ty) (G7 : BufTy.Contents (Elt F) arg7.view.ty)
    (h5 : arg5.view.read (Elt F) G5 = k0_pay2) (h6 : arg6.view.read (Elt F) G6 = k0_pay3) (h7 : arg7.view.read (Elt F) G7 = k0_pay4) :
    ∀ n : ℕ, n ≤ k0_t1_loop.trips →
      (arg5.view.read (Elt F) (arg5.view.writes (Elt F) G5 (pb_k0_t1 (F := F) 𝒱 c bd i arg1 harg1 arg2 harg2 arg3 harg3 arg4 harg4 arg5 harg5 arg6 harg6 arg7 harg7 v0 X2 X3 G5 G6 G7 n).1),
       arg6.view.read (Elt F) (arg6.view.writes (Elt F) G6 (pb_k0_t1 (F := F) 𝒱 c bd i arg1 harg1 arg2 harg2 arg3 harg3 arg4 harg4 arg5 harg5 arg6 harg6 arg7 harg7 v0 X2 X3 G5 G6 G7 n).2.1),
       arg7.view.read (Elt F) (arg7.view.writes (Elt F) G7 (pb_k0_t1 (F := F) 𝒱 c bd i arg1 harg1 arg2 harg2 arg3 harg3 arg4 harg4 arg5 harg5 arg6 harg6 arg7 harg7 v0 X2 X3 G5 G6 G7 n).2.2))
        = attnState (k0_pay1 v0) (arg2.view.read (Elt F) X2) (arg3.view.read (Elt F) X3) n
  | 0, _ => by
    rw [pb_k0_t1.eq_1]
    simp only [View.writes_nil, h5, h6, h7]
    rfl
  | n + 1, hn => by
    have hlt : n < k0_t1_loop.trips := hn
    have ih := attn_pb_reads 𝒱 c bd i arg1 harg1 arg2 harg2 arg3 harg3 arg4 harg4 arg5 harg5 arg6 harg6 arg7 harg7 v0 X2 X3 G5 G6 G7 h5 h6 h7 n (Nat.le_of_lt hlt)
    have e := pb_k0_t1_succ (F := F) 𝒱 c bd i arg1 harg1 arg2 harg2 arg3 harg3 arg4 harg4 arg5 harg5 arg6 harg6 arg7 harg7 v0 X2 X3 G5 G6 G7 ⟨n, hlt⟩
    rw [show ((⟨n, hlt⟩ : Fin k0_t1_loop.trips).val + 1) = n + 1 from rfl] at e
    rw [e]
    dsimp only
    rw [View.writes_append, View.writes_append, View.writes_append, attn_trip_reads, ih]
    show _ = (if h : n < k0_t1_loop.trips then _ else _)
    rw [dif_pos hlt]

set_option maxHeartbeats 4000000 in
/-- The attention body on whole staging memrefs. The printed function is its skeleton, which the run goes through: the
    three resets, the loop by its invariant (each scratch buffer ends holding the trips' pieces written over the reset),
    the two loads after the loop and the store of numerator over denominator into the output tile. What that store's
    payload reads is `attnState` after all the chunks (`attn_pb_reads`, from buffers that read as the initial state because
    each reset covers its buffer), so the output tile reads `attnBlock`. -/
theorem sound_kernel0 (c : Dev nD) (E : Set ℕ) (i : grid0.Coords)
    (arg1 : Memref sig .tc .vmem S256x128 .bf16) (harg1 : arg1.IsWhole) (arg2 : Memref sig .tc .vmem S8192x128 .bf16) (harg2 : arg2.IsWhole)
    (arg3 : Memref sig .tc .vmem S8192x128 .bf16) (harg3 : arg3.IsWhole) (arg4 : Memref sig .tc .vmem S256x128 .f32) (harg4 : arg4.IsWhole)
    (x0 : Vec F S256x128 .bf16) (X2 X3 : Vec F S8192x128 .bf16) (K : PUnit → sProp 𝕄) :
    iprop(owns (c : Thread nD τ) arg1 fullShare x0 ∗ owns (c : Thread nD τ) arg2 fullShare X2 ∗ owns (c : Thread nD τ) arg3 fullShare X3
        ∗ (∃ d, owns (c : Thread nD τ) arg4 fullShare d)
        ∗ (∃ d, owns (c : Thread nD τ) scM0_0 fullShare d) ∗ (∃ d, owns (c : Thread nD τ) scM0_1 fullShare d) ∗ (∃ d, owns (c : Thread nD τ) scM0_2 fullShare d)
        ∗ (iprop(owns (c : Thread nD τ) arg1 fullShare x0 ∗ owns (c : Thread nD τ) arg2 fullShare X2 ∗ owns (c : Thread nD τ) arg3 fullShare X3
              ∗ owns (c : Thread nD τ) arg4 fullShare (attnBlock x0 X2 X3)
              ∗ (∃ d, owns (c : Thread nD τ) scM0_0 fullShare d) ∗ (∃ d, owns (c : Thread nD τ) scM0_1 fullShare d) ∗ (∃ d, owns (c : Thread nD τ) scM0_2 fullShare d)) -∗ K ⟨⟩))
      ⊢ wp frame (wpE (defs₀ (F := F)) Variants.none c none) E
          (cc0__attn_kernel i arg1 harg1 arg2 harg2 arg3 harg3 arg4 harg4 scM0_0 (Memref.isWhole_whole _) scM0_1 (Memref.isWhole_whole _) scM0_2 (Memref.isWhole_whole _)) K := by
  simp only [cc0__attn_kernel_eq_skeleton]; unfold cc0__attn_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [attn_read_writes_one _ _ attn_off00]
    simp only [View.readAt_eq_ld, View.ld_unit_zero (S := S256x1) attn_off00, View.ld_unit_zero (S := S256x128) attn_off00,
      View.writes_append]
    have hp := attn_pb_reads (F := F) Variants.none c none i arg1 harg1 arg2 harg2 arg3 harg3 arg4 harg4
      scM0_0 (Memref.isWhole_whole _) scM0_1 (Memref.isWhole_whole _) scM0_2 (Memref.isWhole_whole _) (arg1.view.read (Elt F) f1) f2 f3 _ _ _
      (attn_read_writes_one scM0_0.view scM0_0.view.junk attn_off00 inb_S256x1_S256x1_0_0 k0_pay2)
      (attn_read_writes_one scM0_1.view scM0_1.view.junk attn_off00 inb_S256x1_S256x1_0_0 k0_pay3)
      (attn_read_writes_one scM0_2.view scM0_2.view.junk attn_off00 inb_S256x128_S256x128_0_0 k0_pay4)
      k0_t1_loop.trips (Nat.le_refl _)
    unfold attnBlock
    rw [← hp]
  isplitl [H5]
  · iexists _, _; isplitr
    swap; · iexact H5
    ipureintro; rfl
  isplitl [H6]
  · iexists _, _; isplitr
    swap; · iexact H6
    ipureintro; rfl
  iexists _, _; isplitr
  swap; · iexact H7
  ipureintro; rfl

end Cert.Kernel.Frame

end
-- ==== Proof.Kernel.AttnBody.lean ====
/-
  Region 0's body obligation: at every grid position the three input windows' staging buffers hold their blocks
  (fetched there or kept from the first position), so the body's run applies, the region's invariant and the core's
  dues passing through unread.
-/
import proofs.«421498_j43611097924270_2_alg».proof.Proof.Kernel.AttnKernel

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Blocks

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # What the body finds in the input windows -/

/-- The query tile's current staging buffer holds its block at every position (it is fetched at each). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The key array's staging buffer holds the whole array at every position: fetched at the first, and the block
    index never moves afterwards, so what the first fetch put there is still this position's block. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The value array's staging buffer, likewise. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! # The region's invariant, opened -/

/-- The core's scoped buffers of the other region (its staging buffers and its accumulator), each whole at some
    contents: the part of the invariant the attention body never touches. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The invariant is: the three scratch buffers of the attention body, each owned whole at some contents, the other
    region's scoped buffers, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ rest0 (F := F) c) ∗ (∃ r, prngReg c r)) := by
  unfold Pipeline.ΦA rest0; rw [scopedRest0_eq]; simp only [scM0_0, scM0_1, scM0_2, owns_whole]; try rfl

/-! # The body obligation, at a generic position -/

/-- What the body is called with at position `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any position: the three inputs' memrefs hold their blocks, the output's and the scratch buffers' hold
    anything, so the body's run applies; it hands back the inputs as they were, the output at `attnBlock` of them and
    the scratch buffers at some contents, which close the invariant again. The core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3,
    show (dat0 V c).Φ t.castSucc = Pipeline.ΦA spec0 c from rfl, PhiA0_eq]
  iintro ⟨⟨⟨S0, S1, S2, HR⟩, Hr⟩, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  iintro ⟨H0, H1, H2, H3, S0, S1, S2⟩
  isplitl [S0 S1 S2 HR Hr]
  · isplitr [Hr]
    · isplitl [S0]; · iexact S0
      isplitl [S1]; · iexact S1
      isplitl [S2]; · iexact S2
      iexact HR
    · iexact Hr
  isplitl [Ho]; · iexact Ho
  isplitl [H0]; · iexact H0
  isplitl [H1]; · iexact H1
  isplitl [H2]; · iexact H2
  iexact H3

/-- The library's body obligation, at every position. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Kernel.ScatBody.lean ====
/-
  Region 1's body on any whole staging memrefs, in its two control cases (a node tile's first chunk resets the
  accumulator, a later chunk does not), and its body obligation: the accumulator is handed from one grid position to
  the next inside the region's invariant.
-/
import proofs.«421498_j43611097924270_2_alg».proof.Proof.Kernel.Dat
import Idealize.ShloMosaic.Lib.Pipeline.Value

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Blocks

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body's two control cases -/

/-- The condition of the body's one conditional, from the grid coordinates: the chunk coordinate is zero. -/
abbrev cond1 (i : grid1.Coords) : Prop :=
  (Scalar.cmpi .ne (Scalar.extui (Scalar.cmpi .eq (BitVec.ofNat 32 (i 1).val) 0#32)) 0#32) = 1#1

/-- It holds at the positions ≡ 0 (mod 4): the chunk coordinate runs fastest. -/
theorem hcond1 : ∀ t : Fin cfg1.N, cond1 (grid1.coords t) ↔ t.val % 4 = 0 :=
  (by decide +kernel : ∀ t : Fin grid1.N, cond1 (grid1.coords t) ↔ t.val % 4 = 0)

/-- The offsets of every access of the body: zero on both axes. -/
theorem off2 : (![0, 0] : Fin 2 → Nat) = fun _ => 0 := funext fun a => by fin_cases a <;> rfl

/-- The one rectangle the body reads and writes the accumulator and the output tile through holds every index. -/
theorem whole512 (p : Vec F S512x128 .f32) (L : List (View.Piece (Elt F) S512x128 .f32)) (y : S512x128.Idx) :
    ∃ pc ∈ ((⟨Rect.unit (s := S512x128) ![0, 0] S512x128.size inb_S512x128_S512x128_0_0, p⟩ : View.Piece (Elt F) S512x128 .f32) :: L),
      y ∈ pc.1.set :=
  ⟨_, List.mem_cons_self, View.mem_set_unit_zero off2 inb_S512x128_S512x128_0_0 y⟩

set_option maxHeartbeats 1000000 in
/-- A LATER CHUNK of a node tile (the conditional not taken): on whole memrefs, the ids at `ids`, the edge rows at `rows`,
    the output tile at anything and the accumulator at `acc`, the body runs to the continuation holding the inputs as
    they were and both the accumulator and the output tile at `scatStep i ids rows acc`: its one store into the
    accumulator covers it, and the output tile is stored a whole read of that. -/
theorem scat_run_next (c : Dev nD) (E : Set ℕ) (i : grid1.Coords)
    (arg2 : Memref sig .tc .vmem S1x2048 .i32) (h2 : arg2.IsWhole)
    (arg3 : Memref sig .tc .vmem S2048x128 .f32) (h3 : arg3.IsWhole)
    (arg4 : Memref sig .tc .vmem S512x128 .f32) (h4 : arg4.IsWhole)
    (hc : ¬ cond1 i)
    (ids : Vec F S1x2048 .i32) (rows : Vec F S2048x128 .f32) (acc : Vec F S512x128 .f32) (K : PUnit → sProp 𝕄) :
    iprop(owns (c : Thread nD τ) arg2 fullShare ids ∗ owns (c : Thread nD τ) arg3 fullShare rows
        ∗ (∃ d, owns (c : Thread nD τ) arg4 fullShare d) ∗ owns (c : Thread nD τ) scM1 fullShare acc
        ∗ (iprop(owns (c : Thread nD τ) arg2 fullShare ids ∗ owns (c : Thread nD τ) arg3 fullShare rows
            ∗ owns (c : Thread nD τ) arg4 fullShare (scatStep i ids rows acc)
            ∗ owns (c : Thread nD τ) scM1 fullShare (scatStep i ids rows acc)) -∗ K ⟨⟩))
      ⊢ wp frame (wpE (defs₀ (F := F)) Variants.none c none) E
          (cc1__scatter_kernel i arg2 h2 arg3 h3 arg4 h4 scM1 (Memref.isWhole_whole _)) K := by
  simp only [cc1__scatter_kernel_eq_skeleton]; unfold cc1__scatter_kernel_skel
  unfold owns
  iintro ⟨⟨%f2, %hf2, H2⟩, ⟨%f3, %hf3, H3⟩, ⟨%d4, %f4, -, H4⟩, ⟨%fs, %hfs, HS⟩, Hk⟩
  subst hf2; subst hf3; subst hfs
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (whole512 _ _), View.canon_unit_zero off2,
      View.readCov_unit_zero (S := S512x128) _ off2]
    simp only [View.readAt_eq_ld, View.ld_unit_zero (S := S1x2048) off2, View.ld_unit_zero (S := S2048x128) off2,
      View.ld_unit_zero (S := S512x128) off2]
    rfl
  iexists _; isplitr
  swap; · iexact HS
  ipureintro
  sl_unfold_run_names
  rw [View.read_writes_eq_canon _ _ _ (whole512 _ _), View.canon_unit_zero off2]
  simp only [View.readAt_eq_ld, View.ld_unit_zero (S := S1x2048) off2, View.ld_unit_zero (S := S2048x128) off2,
    View.ld_unit_zero (S := S512x128) off2]
  rfl

set_option maxHeartbeats 1000000 in
/-- THE FIRST CHUNK of a node tile (the conditional taken): the accumulator, at anything, is first stored the zero tile
    whole; the rest runs as at a later chunk over that, so both the accumulator and the output tile end at
    `scatStep i ids rows scatZero`. -/
theorem scat_run_first (c : Dev nD) (E : Set ℕ) (i : grid1.Coords)
    (arg2 : Memref sig .tc .vmem S1x2048 .i32) (h2 : arg2.IsWhole)
    (arg3 : Memref sig .tc .vmem S2048x128 .f32) (h3 : arg3.IsWhole)
    (arg4 : Memref sig .tc .vmem S512x128 .f32) (h4 : arg4.IsWhole)
    (hc : cond1 i)
    (ids : Vec F S1x2048 .i32) (rows : Vec F S2048x128 .f32) (K : PUnit → sProp 𝕄) :
    iprop(owns (c : Thread nD τ) arg2 fullShare ids ∗ owns (c : Thread nD τ) arg3 fullShare rows
        ∗ (∃ d, owns (c : Thread nD τ) arg4 fullShare d) ∗ (∃ d, owns (c : Thread nD τ) scM1 fullShare d)
        ∗ (iprop(owns (c : Thread nD τ) arg2 fullShare ids ∗ owns (c : Thread nD τ) arg3 fullShare rows
            ∗ owns (c : Thread nD τ) arg4 fullShare (scatStep i ids rows scatZero)
            ∗ owns (c : Thread nD τ) scM1 fullShare (scatStep i ids rows scatZero)) -∗ K ⟨⟩))
      ⊢ wp frame (wpE (defs₀ (F := F)) Variants.none c none) E
          (cc1__scatter_kernel i arg2 h2 arg3 h3 arg4 h4 scM1 (Memref.isWhole_whole _)) K := by
  simp only [cc1__scatter_kernel_eq_skeleton]; unfold cc1__scatter_kernel_skel
  unfold owns
  iintro ⟨⟨%f2, %hf2, H2⟩, ⟨%f3, %hf3, H3⟩, ⟨%d4, %f4, -, H4⟩, ⟨%ds, %fs, -, HS⟩, Hk⟩
  subst hf2; subst hf3
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (whole512 _ _), View.canon_unit_zero off2,
      View.readCov_eq_canon_ld _ _ _ (whole512 _ _), View.canon_cons_unit_zero (S := S512x128) off2,
      View.readCov_unit_zero (S := S512x128) _ off2]
    simp only [View.readAt_eq_ld, View.ld_unit_zero (S := S1x2048) off2, View.ld_unit_zero (S := S2048x128) off2,
      View.ld_unit_zero (S := S512x128) off2]
    rfl
  iexists _; isplitr
  swap; · iexact HS
  ipureintro
  sl_unfold_run_names
  rw [View.read_writes_eq_canon _ _ _ (whole512 _ _), View.canon_cons_unit_zero (S := S512x128) off2,
    View.readCov_unit_zero (S := S512x128) _ off2]
  simp only [View.readAt_eq_ld, View.ld_unit_zero (S := S1x2048) off2, View.ld_unit_zero (S := S2048x128) off2]
  rfl

/-! # The region's invariant opened -/

/-- The core's scoped buffers that are no staging buffer of this call, split at the call's own accumulator: the
    accumulator whole at some contents, the others unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the launch hands the region, with the accumulator as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-- Before the first position the invariant is what the launch hands over. -/
theorem PhiS1_zero (c : Dev nD) (n : ℕ) (h : n ≤ cfg1.N) (hz : n = 0) : PhiS1 V c n h = Pipeline.ΦA spec1 c := by
  subst hz; rfl

/-! # The input windows' buffers before the body -/

/-- The ids' window is fetched at every position: its buffer holds the position's block. -/
theorem before1_0 (c : Dev nD) (t : Fin cfg1.N) (d) : (dat1 V c).before 0 t d = iblk1 V c 0 t := by
  rw [(dat1 V c).before_fetched 0 t (fetch1_0 t) d]
  unfold Dat.fetched Dat.blockOf iblk1; rw [A_eq1]; try rfl

/-- So is the edge rows' window. -/
theorem before1_1 (c : Dev nD) (t : Fin cfg1.N) (d) : (dat1 V c).before 1 t d = iblk1 V c 1 t := by
  rw [(dat1 V c).before_fetched 1 t (fetch1_1 t) d]
  unfold Dat.fetched Dat.blockOf iblk1; rw [A_eq1]; try rfl

/-! # The body obligation -/

set_option maxHeartbeats 1600000 in
/-- The body at any position. Both inputs' buffers hold their blocks; the output tile's buffer holds anything the body
    need not know. At a node tile's first chunk the conditional is taken: the accumulator — at anything before the very
    first position, at what the tile before left otherwise — is reset, and the position leaves `scatStep … scatZero`,
    which is `scatAcc` there. At a later chunk the invariant hands the accumulator at `scatAcc` of the position
    before, and the position leaves `scatStep` over it: `scatAcc` again. The other scoped buffers, the generator
    register and what the core owes pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, after1_0, after1_1, after1_2]
  by_cases h0 : t.val % 4 = 0
  · rw [scatAcc_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩⟩
      iapply (scat_run_first c Set.univ (grid1.coords t) _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS1_castSucc V c t, PhiS1_pos V c _ _ hz]
      iintro ⟨⟨⟨HS, HR⟩, Hg⟩, Ho, ⟨%d0, H0⟩, ⟨%d1, H1⟩, ⟨%d2, H2⟩⟩
      iapply (scat_run_first c Set.univ (grid1.coords t) _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun h => h0 (by rw [h])
    rw [scatAcc_next V c t h0, PhiS1_castSucc V c t, PhiS1_pos V c _ _ hz]
    iintro ⟨⟨⟨HS, HR⟩, Hg⟩, Ho, ⟨%d0, H0⟩, ⟨%d1, H1⟩, ⟨%d2, H2⟩⟩
    iapply (scat_run_next c Set.univ (grid1.coords t) _ _ _ _ _ _ (fun h => h0 ((hcond1 t).mp h)) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every position: the windows conjoined one by one. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last position the invariant gives the launch's back: the accumulator's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, HR⟩, Hg⟩
  isplitl [HS HR]
  · isplitl [HS]
    · iexists _; iexact HS
    iexact HR
  iexact Hg

end Cert.Kernel.Frame

end
-- ==== Proof.Kernel.Run.lean ====
/-
  The run of the whole program, at any float instance: @main is a host stretch, the attention region, a host stretch
  (one reshape) and the scatter region. Between two items the core holds every unscoped buffer at a valuation: the
  launch memory, then the first stretch's results, then region 0's arrays at what its proof data leave, then the
  reshape's result, then region 1's arrays at what its proof data leave. Every weakly fair execution terminates, and
  the final memory holds every unscoped buffer at the last valuation; in particular no argument changes, the edge
  result is region 0's output array and the node result region 1's.
-/
import proofs.«421498_j43611097924270_2_alg».proof.Proof.Kernel.AttnBody
import proofs.«421498_j43611097924270_2_alg».proof.Proof.Kernel.ScatBody
import proofs.«421498_j43611097924270_2_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Blocks

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; its invariant names the
    accumulator between positions and forgets it at the two ends. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
          ∗ Pipeline.scopedRest (Pipeline.pin (pcfgs (F := F)) adm 1).spec c) : sProp 𝕄) ⊢ (Pipeline.ΦA spec1 c : sProp 𝕄) := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄) ⊢ (iprop((∃ r, prngReg c r) ∗ emp
          ∗ Pipeline.scopedRest (Pipeline.pin (pcfgs (F := F)) adm 1).spec c) : sProp 𝕄) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting, and
    the final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the last valuation holds -/

/-- A buffer that no host operation writes and that is no array of either region ends as launched. -/
theorem W4_keep (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m ρ c (Proc.devRef .tc r) = m ((c : Thread nD τ).loc r) :=
  (W4_of_ne m ρ c r ha1).trans <| (StableHlo.after_of_writes_sub hostOps1 _ hostOps1_writes h1).trans <|
    (W2_of_ne m ρ c r ha0).trans <| (StableHlo.after_of_writes_sub hostOps0 _ hostOps0_writes h0).trans rfl

/-- The edge rows region 1 is entered with are region 0's output array: the reshape between the regions does not write them. -/
theorem V3_edges (c : Dev nD) : V3 m ρ c main_v51 = (dat0 (V1 m ρ) c).arrAt 3 cfg0.N :=
  (StableHlo.after_of_writes_sub hostOps1 _ hostOps1_writes (by decide : main_v51 ∉ hostOps1_W)).trans (W2_arr m ρ c 3)

/-- The edge result at the end is region 0's output array: region 1 only reads it. -/
theorem W4_edges (c : Dev nD) : W4 m ρ c (Proc.devRef .tc main_v51) = (dat0 (V1 m ρ) c).arrAt 3 cfg0.N :=
  (W4_arr m ρ c 1).trans (((dat1 (V3 m ρ) c).arrAt_in 1 rfl _).trans ((A_eq1 (V3 m ρ) c 1).trans (V3_edges m ρ c)))

/-- The node result at the end is region 1's output array. -/
theorem W4_nodes (c : Dev nD) : W4 m ρ c (Proc.devRef .tc main_v53) = (dat1 (V3 m ρ) c).arrAt 2 cfg1.N :=
  W4_arr m ρ c 2

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W4_keep m ρ c main_arg0 (by decide) (by decide) (by decide) (by decide)),
      (h c _ (mem_uc main_arg1 (by decide))).trans (W4_keep m ρ c main_arg1 (by decide) (by decide) (by decide) (by decide)),
      (h c _ (mem_uc main_arg2 (by decide))).trans (W4_keep m ρ c main_arg2 (by decide) (by decide) (by decide) (by decide)),
      (h c _ (mem_uc main_arg3 (by decide))).trans (W4_keep m ρ c main_arg3 (by decide) (by decide) (by decide) (by decide)),
      (h c _ (mem_uc main_arg4 (by decide))).trans (W4_keep m ρ c main_arg4 (by decide) (by decide) (by decide) (by decide)),
      (h c _ (mem_uc main_arg5 (by decide))).trans (W4_keep m ρ c main_arg5 (by decide) (by decide) (by decide) (by decide)),
      (h c _ (mem_uc main_arg6 (by decide))).trans (W4_keep m ρ c main_arg6 (by decide) (by decide) (by decide) (by decide)),
      (h c _ (mem_uc main_arg7 (by decide))).trans (W4_keep m ρ c main_arg7 (by decide) (by decide) (by decide) (by decide)),
      (h c _ (mem_uc main_arg8 (by decide))).trans (W4_keep m ρ c main_arg8 (by decide) (by decide) (by decide) (by decide)),
      (h c _ (mem_uc main_arg9 (by decide))).trans (W4_keep m ρ c main_arg9 (by decide) (by decide) (by decide) (by decide)),
      (h c _ (mem_uc main_arg10 (by decide))).trans (W4_keep m ρ c main_arg10 (by decide) (by decide) (by decide) (by decide)),
      (h c _ (mem_uc main_arg11 (by decide))).trans (W4_keep m ρ c main_arg11 (by decide) (by decide) (by decide) (by decide)),
      (h c _ (mem_uc main_arg12 (by decide))).trans (W4_keep m ρ c main_arg12 (by decide) (by decide) (by decide) (by decide)),
      (h c _ (mem_uc main_arg13 (by decide))).trans (W4_keep m ρ c main_arg13 (by decide) (by decide) (by decide) (by decide)),
      (h c _ (mem_uc main_arg14 (by decide))).trans (W4_keep m ρ c main_arg14 (by decide) (by decide) (by decide) (by decide))⟩) (run_all m ρ)

/-- THE RUN WITH ITS RESULTS: as `frame`, and the node result and the edge result end at the two regions' output arrays. -/
theorem run_results : θ_run defs (onTc (τ := τ) (main (F := F))) ⟨m, fun _ => 0, ρ⟩ (fun r => ∀ c : Dev nD,
      r.2.mem ((c.tc : Thread nD τ).loc main_v53) = (dat1 (V3 m ρ) c).arrAt 2 cfg1.N
      ∧ r.2.mem ((c.tc : Thread nD τ).loc main_v51) = (dat0 (V1 m ρ) c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_v53 (by decide))).trans (W4_nodes m ρ c),
      (h c _ (mem_uc main_v51 (by decide))).trans (W4_edges m ρ c),
      (h c _ (mem_uc main_arg0 (by decide))).trans (W4_keep m ρ c main_arg0 (by decide) (by decide) (by decide) (by decide)),
      (h c _ (mem_uc main_arg1 (by decide))).trans (W4_keep m ρ c main_arg1 (by decide) (by decide) (by decide) (by decide)),
      (h c _ (mem_uc main_arg2 (by decide))).trans (W4_keep m ρ c main_arg2 (by decide) (by decide) (by decide) (by decide)),
      (h c _ (mem_uc main_arg3 (by decide))).trans (W4_keep m ρ c main_arg3 (by decide) (by decide) (by decide) (by decide)),
      (h c _ (mem_uc main_arg4 (by decide))).trans (W4_keep m ρ c main_arg4 (by decide) (by decide) (by decide) (by decide)),
      (h c _ (mem_uc main_arg5 (by decide))).trans (W4_keep m ρ c main_arg5 (by decide) (by decide) (by decide) (by decide)),
      (h c _ (mem_uc main_arg6 (by decide))).trans (W4_keep m ρ c main_arg6 (by decide) (by decide) (by decide) (by decide)),
      (h c _ (mem_uc main_arg7 (by decide))).trans (W4_keep m ρ c main_arg7 (by decide) (by decide) (by decide) (by decide)),
      (h c _ (mem_uc main_arg8 (by decide))).trans (W4_keep m ρ c main_arg8 (by decide) (by decide) (by decide) (by decide)),
      (h c _ (mem_uc main_arg9 (by decide))).trans (W4_keep m ρ c main_arg9 (by decide) (by decide) (by decide) (by decide)),
      (h c _ (mem_uc main_arg10 (by decide))).trans (W4_keep m ρ c main_arg10 (by decide) (by decide) (by decide) (by decide)),
      (h c _ (mem_uc main_arg11 (by decide))).trans (W4_keep m ρ c main_arg11 (by decide) (by decide) (by decide) (by decide)),
      (h c _ (mem_uc main_arg12 (by decide))).trans (W4_keep m ρ c main_arg12 (by decide) (by decide) (by decide) (by decide)),
      (h c _ (mem_uc main_arg13 (by decide))).trans (W4_keep m ρ c main_arg13 (by decide) (by decide) (by decide) (by decide)),
      (h c _ (mem_uc main_arg14 (by decide))).trans (W4_keep m ρ c main_arg14 (by decide) (by decide) (by decide) (by decide))⟩) (run_all m ρ)

end Cert.Kernel.Frame

end
-- ==== Proof.KernelIdeal.Fn.lean ====
/-
  The two kernels' arithmetic as pure functions of what their bodies load, over the payload terms of the
  printed bodies, at any float instance.

  ATTENTION, one tile of 256 query rows against all 8192 key / value rows. The body keeps, per query row, a running
  maximum `m`, a running denominator `l` and a running numerator row `acc`. They start at (-inf, 0, 0). Chunk `k`
  (key rows 2048k … 2048k + 2047) replaces them by

      m'   = max m (max_j s_j)                    s_j = <scaled query row, key row j>
      l'   = exp (m - m') * l   + sum_j exp (s_j - m')
      acc' = exp (m - m') * acc + sum_j exp (s_j - m') * (value row j)

  and after the four chunks the tile is `acc / l`, row by row.

  SCATTER, one tile of 512 node rows against one chunk of 2048 edges: the accumulator plus the product of the 0/1 matrix
  "edge e's destination is node n" with the chunk's edge rows.
-/
import proofs.«421498_j43611097924270_2_alg».proof.Proof.Gen.KernelIdeal.Skeleton
import Idealize.ShloMosaic.Lib.Pipeline.FrameBody

noncomputable section

namespace Cert.KernelIdeal.Blocks

open Idealize.ShloMosaic Idealize.ShloMosaic.TcCoe
open Cert.KernelIdeal Cert.KernelIdeal.Gen

variable {F : FTy → Type} [FloatOps F]

/-- Key / value rows 2048k … 2048k + 2047 of the resident 8192-row buffer: the rows chunk `k` of the loop reads. -/
abbrev chunk (k : Fin k0_t1_loop.trips) : Rect S8192x128 :=
  Rect.unit (s := S8192x128) (k0_off1 k) S2048x128.size (k0_off1_inb k)

/-- Per query row of a tile: the running maximum, the running denominator, the running numerator row. -/
abbrev St (F : FTy → Type) : Type := Vec F S256x1 .f32 × Vec F S256x1 .f32 × Vec F S256x128 .f32

/-- The state before any chunk: maximum -inf, denominator 0, numerator 0. -/
def attnInit : St F := (k0_pay2, k0_pay3, k0_pay4)

/-- One chunk's update of the running state, from the scaled query tile `q` and the whole key and value buffers. -/
def attnStep (q : FVec F S256x128 .bf16) (K V : Vec F S8192x128 .bf16) (k : Fin k0_t1_loop.trips) (s : St F) : St F :=
  (k0_pay5 (k0_pay8 q (View.ld K (chunk k)) s.1),
   k0_pay11 q (View.ld K (chunk k)) s.1 s.2.1,
   k0_pay12 q (View.ld K (chunk k)) (View.ld V (chunk k)) s.1 s.2.2)

/-- The running state after the first `n` chunks (past the last chunk nothing changes). -/
def attnState (q : FVec F S256x128 .bf16) (K V : Vec F S8192x128 .bf16) : ℕ → St F
  | 0 => attnInit
  | n + 1 => if h : n < k0_t1_loop.trips then attnStep q K V ⟨n, h⟩ (attnState q K V n) else attnState q K V n

/-- What the attention body leaves in its output tile: numerator over denominator after all the chunks, from the query
    tile `x` as loaded (before scaling) and the whole key and value buffers. -/
def attnBlock (x : Vec F S256x128 .bf16) (K V : Vec F S8192x128 .bf16) : Vec F S256x128 .f32 :=
  k0_pay6 (attnState (k0_pay1 x) K V k0_t1_loop.trips).2.2 (attnState (k0_pay1 x) K V k0_t1_loop.trips).2.1

/-- What the scatter body leaves in its accumulator (and copies to its output tile) at grid coordinates `i`: the
    accumulator it found plus this chunk's contribution, from the chunk's destination ids `d` and edge rows `e`. -/
def scatStep (i : grid1.Coords) (d : Vec F S1x2048 .i32) (e : Vec F S2048x128 .f32) (acc : Vec F S512x128 .f32) :
    Vec F S512x128 .f32 :=
  k1_pay2 i d e acc

/-- The accumulator as the first chunk of a node tile finds it after the reset: zero. -/
def scatZero : Vec F S512x128 .f32 := k1_pay1

end Cert.KernelIdeal.Blocks

end
-- ==== Proof.KernelIdeal.Dat.lean ====
/-
  The proof data of the two kernel regions, at any float instance, over the contents `V` the region finds in the
  TensorCore's buffers.

  Region 0 (attention, 32 tiles of 256 query rows): every input tile stays in place; the output tile ends at
  `attnBlock` of the query tile and the whole key and value buffers. Its scratch buffers are rewritten from nothing at
  every tile, so the region's invariant says nothing of them.

  Region 1 (scatter, 8 node tiles × 4 edge chunks, the chunk index fastest): the accumulator is CARRIED from one chunk to
  the next of a node tile and reset at a tile's first chunk, so the invariant names its contents: after grid position `n`
  it holds `scatAcc n`, the sum over the chunks of this node tile so far; the output tile is a copy of it.
-/
import proofs.«421498_j43611097924270_2_alg».proof.Proof.Gen.KernelIdeal.Launch
import proofs.«421498_j43611097924270_2_alg».proof.Proof.Gen.KernelIdeal.Skeleton
import proofs.«421498_j43611097924270_2_alg».proof.Proof.Gen.KernelIdeal.Points
import proofs.«421498_j43611097924270_2_alg».proof.Proof.KernelIdeal.Fn
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Blocks

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: attention -/

/-- Window `w`'s block at grid position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => attnBlock (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = attnBlock (iblk0 V c 0 t) (iblk0 V c 1 t) (iblk0 V c 2 t) := by dsimp only [dat0]

/-! # Region 1: scatter -/

/-- Window `w`'s block at grid position `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after grid position `n`: at a node tile's first chunk (position ≡ 0 mod 4) the chunk's
    contribution over zero, otherwise over what the position before left. -/
def scatAcc (c : Dev nD) : (n : ℕ) → n < cfg1.N → Vec F S512x128 .f32
  | 0, hn => scatStep (grid1.coords ⟨0, hn⟩) (iblk1 V c 0 ⟨0, hn⟩) (iblk1 V c 1 ⟨0, hn⟩) scatZero
  | n + 1, hn =>
    if (n + 1) % 4 = 0 then
      scatStep (grid1.coords ⟨n + 1, hn⟩) (iblk1 V c 0 ⟨n + 1, hn⟩) (iblk1 V c 1 ⟨n + 1, hn⟩) scatZero
    else
      scatStep (grid1.coords ⟨n + 1, hn⟩) (iblk1 V c 0 ⟨n + 1, hn⟩) (iblk1 V c 1 ⟨n + 1, hn⟩) (scatAcc c n (Nat.lt_of_succ_lt hn))

/-- At a node tile's first chunk. -/
theorem scatAcc_first (c : Dev nD) (t : Fin cfg1.N) (h0 : t.val % 4 = 0) :
    scatAcc V c t.val t.isLt = scatStep (grid1.coords t) (iblk1 V c 0 t) (iblk1 V c 1 t) scatZero := by
  obtain ⟨n, hn⟩ := t
  cases n with
  | zero => rfl
  | succ n => exact if_pos h0

/-- At a later chunk of a node tile. -/
theorem scatAcc_next (c : Dev nD) (t : Fin cfg1.N) (h0 : ¬ t.val % 4 = 0) :
    scatAcc V c t.val t.isLt = scatStep (grid1.coords t) (iblk1 V c 0 t) (iblk1 V c 1 t)
      (scatAcc V c (t.val - 1) (Nat.lt_of_le_of_lt (Nat.sub_le _ _) t.isLt)) := by
  obtain ⟨n, hn⟩ := t
  cases n with
  | zero => exact absurd (Nat.zero_mod _) h0
  | succ n => exact if_neg h0

/-- The scatter kernel's accumulator, a whole scoped buffer of its own. -/
abbrev scM1 : Memref sig .tc .vmem S512x128 .f32 := Memref.whole cc1_scratch0

/-- The region's invariant before grid position `n`: before the first, nothing is known of the accumulator;
    afterwards it holds what the position before left, the core's other scoped buffers beside it at some contents. -/
def PhiS1 (c : Dev nD) : (n : ℕ) → n ≤ cfg1.N → sProp 𝕄
  | 0, _ => Pipeline.ΦA spec1 c
  | n + 1, hn => iprop(iprop(owns (c : Thread nD τ) scM1 fullShare (scatAcc V c n hn) ∗ Pipeline.scopedRestBut (Ix := Unit) (Name := ℕ) (U := UR sig nD τ) (Lvl := ℕ) (Val := Elt F) spec1 c [cc1_scratch0]) ∗ (∃ r, prngReg c r))

theorem PhiS1_succ (c : Dev nD) (n : ℕ) (hn : n < cfg1.N) :
    PhiS1 V c (n + 1) hn = iprop(iprop(owns (c : Thread nD τ) scM1 fullShare (scatAcc V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (scatAcc V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scatAcc V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scatAcc V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Frame

end
-- ==== Proof.KernelIdeal.AttnKernel.lean ====
/-
  The attention body on any whole staging memrefs: from the query tile, the whole key and value buffers and the three
  scratch buffers at any contents it runs to the end, leaves the inputs as they were and the output tile at
  `attnBlock` of them: three resets, the four chunks of the loop (each replacing the running maximum, denominator and
  numerator), then numerator over denominator.
-/
import proofs.«421498_j43611097924270_2_alg».proof.Proof.KernelIdeal.Dat
import proofs.«421498_j43611097924270_2_alg».proof.Proof.Gen.KernelIdeal.Loops
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Blocks

variable {F : FTy → Type} [FloatOps F]

local notation "𝕄" => MT nD τ sig Unit (Elt F) ℕ (UR sig nD τ) ℕ

/-- The attention kernel's scratch buffers: the running maximum, the running denominator, the running numerator. -/
abbrev scM0_0 : Memref sig .tc .vmem S256x1 .f32 := Memref.whole cc0_scratch0
abbrev scM0_1 : Memref sig .tc .vmem S256x1 .f32 := Memref.whole cc0_scratch1
abbrev scM0_2 : Memref sig .tc .vmem S256x128 .f32 := Memref.whole cc0_scratch2

/-- The offsets of a whole-buffer rectangle of rank two are zero on both axes. -/
theorem attn_off00 : (![0, 0] : Fin 2 → Nat) = fun _ => 0 := funext fun a => by fin_cases a <;> rfl

/-- One store through the whole-buffer rectangle, read back through the same view, is the stored payload, whatever
    the buffer held before: the one piece covers every index. -/
theorem attn_read_writes_one {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-- ONE TRIP, read back. Whatever the three scratch buffers hold when chunk `k` begins, after the trip's three stores
    they read as `attnStep` of what they read before: the trip loads key and value rows at `chunk k`, the running
    maximum, denominator and numerator through the whole-buffer rectangle, and stores the new maximum, denominator and
    numerator through it. -/
theorem attn_trip_reads (𝒱 : Variants) (c : Dev nD) (bd : Option 𝒱.V) (i : grid0.Coords)
    (arg1 : Memref sig .tc .vmem S256x128 .bf16) (harg1 : arg1.IsWhole) (arg2 : Memref sig .tc .vmem S8192x128 .bf16) (harg2 : arg2.IsWhole)
    (arg3 : Memref sig .tc .vmem S8192x128 .bf16) (harg3 : arg3.IsWhole) (arg4 : Memref sig .tc .vmem S256x128 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x128 .f32) (harg7 : arg7.IsWhole)
    (v0 : Vec F S256x128 .bf16) (X2 : BufTy.Contents (Elt F) arg2.view.ty) (X3 : BufTy.Contents (Elt F) arg3.view.ty)
    (k : Fin k0_t1_loop.trips)
    (f5 : BufTy.Contents (Elt F) arg5.view.ty) (f6 : BufTy.Contents (Elt F) arg6.view.ty) (f7 : BufTy.Contents (Elt F) arg7.view.ty) :
    (arg5.view.read (Elt F) (arg5.view.writes (Elt F) f5 (tripL_k0_t1 (F := F) 𝒱 c bd i arg1 harg1 arg2 harg2 arg3 harg3 arg4 harg4 arg5 harg5 arg6 harg6 arg7 harg7 v0 X2 X3 k f5 f6 f7).1),
     arg6.view.read (Elt F) (arg6.view.writes (Elt F) f6 (tripL_k0_t1 (F := F) 𝒱 c bd i arg1 harg1 arg2 harg2 arg3 harg3 arg4 harg4 arg5 harg5 arg6 harg6 arg7 harg7 v0 X2 X3 k f5 f6 f7).2.1),
     arg7.view.read (Elt F) (arg7.view.writes (Elt F) f7 (tripL_k0_t1 (F := F) 𝒱 c bd i arg1 harg1 arg2 harg2 arg3 harg3 arg4 harg4 arg5 harg5 arg6 harg6 arg7 harg7 v0 X2 X3 k f5 f6 f7).2.2))
      = attnStep (k0_pay1 v0) (arg2.view.read (Elt F) X2) (arg3.view.read (Elt F) X3) k
          (arg5.view.read (Elt F) f5, arg6.view.read (Elt F) f6, arg7.view.read (Elt F) f7) := by
  unfold tripL_k0_t1
  unfold trip_k0_t1
  dsimp only
  sl_unfold_run_names
  rw [attn_read_writes_one _ _ attn_off00, attn_read_writes_one _ _ attn_off00, attn_read_writes_one _ _ attn_off00]
  simp only [View.readAt_eq_ld, View.ld_unit_zero (S := S256x1) attn_off00, View.ld_unit_zero (S := S256x128) attn_off00]
  rfl

/-- THE TRIPS BEFORE `n`, read back. Over buffers that read as the initial state (maximum -inf, denominator 0,
    numerator 0) at loop entry, the pieces of the first `n` trips leave the three scratch buffers reading as
    `attnState n`: by induction on `n`, the pieces of trip `n` written over what the earlier trips left, each trip one
    `attnStep`. -/
theorem attn_pb_reads (𝒱 : Variants) (c : Dev nD) (bd : Option 𝒱.V) (i : grid0.Coords)
    (arg1 : Memref sig .tc .vmem S256x128 .bf16) (harg1 : arg1.IsWhole) (arg2 : Memref sig .tc .vmem S8192x128 .bf16) (harg2 : arg2.IsWhole)
    (arg3 : Memref sig .tc .vmem S8192x128 .bf16) (harg3 : arg3.IsWhole) (arg4 : Memref sig .tc .vmem S256x128 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x128 .f32) (harg7 : arg7.IsWhole)
    (v0 : Vec F S256x128 .bf16) (X2 : BufTy.Contents (Elt F) arg2.view.ty) (X3 : BufTy.Contents (Elt F) arg3.view.ty)
    (G5 : BufTy.Contents (Elt F) arg5.view.ty) (G6 : BufTy.Contents (Elt F) arg6.view.ty) (G7 : BufTy.Contents (Elt F) arg7.view.ty)
    (h5 : arg5.view.read (Elt F) G5 = k0_pay2) (h6 : arg6.view.read (Elt F) G6 = k0_pay3) (h7 : arg7.view.read (Elt F) G7 = k0_pay4) :
    ∀ n : ℕ, n ≤ k0_t1_loop.trips →
      (arg5.view.read (Elt F) (arg5.view.writes (Elt F) G5 (pb_k0_t1 (F := F) 𝒱 c bd i arg1 harg1 arg2 harg2 arg3 harg3 arg4 harg4 arg5 harg5 arg6 harg6 arg7 harg7 v0 X2 X3 G5 G6 G7 n).1),
       arg6.view.read (Elt F) (arg6.view.writes (Elt F) G6 (pb_k0_t1 (F := F) 𝒱 c bd i arg1 harg1 arg2 harg2 arg3 harg3 arg4 harg4 arg5 harg5 arg6 harg6 arg7 harg7 v0 X2 X3 G5 G6 G7 n).2.1),
       arg7.view.read (Elt F) (arg7.view.writes (Elt F) G7 (pb_k0_t1 (F := F) 𝒱 c bd i arg1 harg1 arg2 harg2 arg3 harg3 arg4 harg4 arg5 harg5 arg6 harg6 arg7 harg7 v0 X2 X3 G5 G6 G7 n).2.2))
        = attnState (k0_pay1 v0) (arg2.view.read (Elt F) X2) (arg3.view.read (Elt F) X3) n
  | 0, _ => by
    rw [pb_k0_t1.eq_1]
    simp only [View.writes_nil, h5, h6, h7]
    rfl
  | n + 1, hn => by
    have hlt : n < k0_t1_loop.trips := hn
    have ih := attn_pb_reads 𝒱 c bd i arg1 harg1 arg2 harg2 arg3 harg3 arg4 harg4 arg5 harg5 arg6 harg6 arg7 harg7 v0 X2 X3 G5 G6 G7 h5 h6 h7 n (Nat.le_of_lt hlt)
    have e := pb_k0_t1_succ (F := F) 𝒱 c bd i arg1 harg1 arg2 harg2 arg3 harg3 arg4 harg4 arg5 harg5 arg6 harg6 arg7 harg7 v0 X2 X3 G5 G6 G7 ⟨n, hlt⟩
    rw [show ((⟨n, hlt⟩ : Fin k0_t1_loop.trips).val + 1) = n + 1 from rfl] at e
    rw [e]
    dsimp only
    rw [View.writes_append, View.writes_append, View.writes_append, attn_trip_reads, ih]
    show _ = (if h : n < k0_t1_loop.trips then _ else _)
    rw [dif_pos hlt]

set_option maxHeartbeats 4000000 in
/-- The attention body on whole staging memrefs. The printed function is its skeleton, which the run goes through: the
    three resets, the loop by its invariant (each scratch buffer ends holding the trips' pieces written over the reset),
    the two loads after the loop and the store of numerator over denominator into the output tile. What that store's
    payload reads is `attnState` after all the chunks (`attn_pb_reads`, from buffers that read as the initial state because
    each reset covers its buffer), so the output tile reads `attnBlock`. -/
theorem sound_kernel0 (c : Dev nD) (E : Set ℕ) (i : grid0.Coords)
    (arg1 : Memref sig .tc .vmem S256x128 .bf16) (harg1 : arg1.IsWhole) (arg2 : Memref sig .tc .vmem S8192x128 .bf16) (harg2 : arg2.IsWhole)
    (arg3 : Memref sig .tc .vmem S8192x128 .bf16) (harg3 : arg3.IsWhole) (arg4 : Memref sig .tc .vmem S256x128 .f32) (harg4 : arg4.IsWhole)
    (x0 : Vec F S256x128 .bf16) (X2 X3 : Vec F S8192x128 .bf16) (K : PUnit → sProp 𝕄) :
    iprop(owns (c : Thread nD τ) arg1 fullShare x0 ∗ owns (c : Thread nD τ) arg2 fullShare X2 ∗ owns (c : Thread nD τ) arg3 fullShare X3
        ∗ (∃ d, owns (c : Thread nD τ) arg4 fullShare d)
        ∗ (∃ d, owns (c : Thread nD τ) scM0_0 fullShare d) ∗ (∃ d, owns (c : Thread nD τ) scM0_1 fullShare d) ∗ (∃ d, owns (c : Thread nD τ) scM0_2 fullShare d)
        ∗ (iprop(owns (c : Thread nD τ) arg1 fullShare x0 ∗ owns (c : Thread nD τ) arg2 fullShare X2 ∗ owns (c : Thread nD τ) arg3 fullShare X3
              ∗ owns (c : Thread nD τ) arg4 fullShare (attnBlock x0 X2 X3)
              ∗ (∃ d, owns (c : Thread nD τ) scM0_0 fullShare d) ∗ (∃ d, owns (c : Thread nD τ) scM0_1 fullShare d) ∗ (∃ d, owns (c : Thread nD τ) scM0_2 fullShare d)) -∗ K ⟨⟩))
      ⊢ wp frame (wpE (defs₀ (F := F)) Variants.none c none) E
          (cc0__attn_kernel i arg1 harg1 arg2 harg2 arg3 harg3 arg4 harg4 scM0_0 (Memref.isWhole_whole _) scM0_1 (Memref.isWhole_whole _) scM0_2 (Memref.isWhole_whole _)) K := by
  simp only [cc0__attn_kernel_eq_skeleton]; unfold cc0__attn_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [attn_read_writes_one _ _ attn_off00]
    simp only [View.readAt_eq_ld, View.ld_unit_zero (S := S256x1) attn_off00, View.ld_unit_zero (S := S256x128) attn_off00,
      View.writes_append]
    have hp := attn_pb_reads (F := F) Variants.none c none i arg1 harg1 arg2 harg2 arg3 harg3 arg4 harg4
      scM0_0 (Memref.isWhole_whole _) scM0_1 (Memref.isWhole_whole _) scM0_2 (Memref.isWhole_whole _) (arg1.view.read (Elt F) f1) f2 f3 _ _ _
      (attn_read_writes_one scM0_0.view scM0_0.view.junk attn_off00 inb_S256x1_S256x1_0_0 k0_pay2)
      (attn_read_writes_one scM0_1.view scM0_1.view.junk attn_off00 inb_S256x1_S256x1_0_0 k0_pay3)
      (attn_read_writes_one scM0_2.view scM0_2.view.junk attn_off00 inb_S256x128_S256x128_0_0 k0_pay4)
      k0_t1_loop.trips (Nat.le_refl _)
    unfold attnBlock
    rw [← hp]
  isplitl [H5]
  · iexists _, _; isplitr
    swap; · iexact H5
    ipureintro; rfl
  isplitl [H6]
  · iexists _, _; isplitr
    swap; · iexact H6
    ipureintro; rfl
  iexists _, _; isplitr
  swap; · iexact H7
  ipureintro; rfl

end Cert.KernelIdeal.Frame

end
-- ==== Proof.KernelIdeal.AttnBody.lean ====
/-
  Region 0's body obligation: at every grid position the three input windows' staging buffers hold their blocks
  (fetched there or kept from the first position), so the body's run applies, the region's invariant and the core's
  dues passing through unread.
-/
import proofs.«421498_j43611097924270_2_alg».proof.Proof.KernelIdeal.AttnKernel

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Blocks

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # What the body finds in the input windows -/

/-- The query tile's current staging buffer holds its block at every position (it is fetched at each). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The key array's staging buffer holds the whole array at every position: fetched at the first, and the block
    index never moves afterwards, so what the first fetch put there is still this position's block. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The value array's staging buffer, likewise. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! # The region's invariant, opened -/

/-- The core's scoped buffers of the other region (its staging buffers and its accumulator), each whole at some
    contents: the part of the invariant the attention body never touches. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The invariant is: the three scratch buffers of the attention body, each owned whole at some contents, the other
    region's scoped buffers, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ rest0 (F := F) c) ∗ (∃ r, prngReg c r)) := by
  unfold Pipeline.ΦA rest0; rw [scopedRest0_eq]; simp only [scM0_0, scM0_1, scM0_2, owns_whole]; try rfl

/-! # The body obligation, at a generic position -/

/-- What the body is called with at position `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any position: the three inputs' memrefs hold their blocks, the output's and the scratch buffers' hold
    anything, so the body's run applies; it hands back the inputs as they were, the output at `attnBlock` of them and
    the scratch buffers at some contents, which close the invariant again. The core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3,
    show (dat0 V c).Φ t.castSucc = Pipeline.ΦA spec0 c from rfl, PhiA0_eq]
  iintro ⟨⟨⟨S0, S1, S2, HR⟩, Hr⟩, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  iintro ⟨H0, H1, H2, H3, S0, S1, S2⟩
  isplitl [S0 S1 S2 HR Hr]
  · isplitr [Hr]
    · isplitl [S0]; · iexact S0
      isplitl [S1]; · iexact S1
      isplitl [S2]; · iexact S2
      iexact HR
    · iexact Hr
  isplitl [Ho]; · iexact Ho
  isplitl [H0]; · iexact H0
  isplitl [H1]; · iexact H1
  isplitl [H2]; · iexact H2
  iexact H3

/-- The library's body obligation, at every position. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdeal.ScatBody.lean ====
/-
  Region 1's body on any whole staging memrefs, in its two control cases (a node tile's first chunk resets the
  accumulator, a later chunk does not), and its body obligation: the accumulator is handed from one grid position to
  the next inside the region's invariant.
-/
import proofs.«421498_j43611097924270_2_alg».proof.Proof.KernelIdeal.Dat
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Blocks

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body's two control cases -/

/-- The condition of the body's one conditional, from the grid coordinates: the chunk coordinate is zero. -/
abbrev cond1 (i : grid1.Coords) : Prop :=
  (Scalar.cmpi .ne (Scalar.extui (Scalar.cmpi .eq (BitVec.ofNat 32 (i 1).val) 0#32)) 0#32) = 1#1

/-- It holds at the positions ≡ 0 (mod 4): the chunk coordinate runs fastest. -/
theorem hcond1 : ∀ t : Fin cfg1.N, cond1 (grid1.coords t) ↔ t.val % 4 = 0 :=
  (by decide +kernel : ∀ t : Fin grid1.N, cond1 (grid1.coords t) ↔ t.val % 4 = 0)

/-- The offsets of every access of the body: zero on both axes. -/
theorem off2 : (![0, 0] : Fin 2 → Nat) = fun _ => 0 := funext fun a => by fin_cases a <;> rfl

/-- The one rectangle the body reads and writes the accumulator and the output tile through holds every index. -/
theorem whole512 (p : Vec F S512x128 .f32) (L : List (View.Piece (Elt F) S512x128 .f32)) (y : S512x128.Idx) :
    ∃ pc ∈ ((⟨Rect.unit (s := S512x128) ![0, 0] S512x128.size inb_S512x128_S512x128_0_0, p⟩ : View.Piece (Elt F) S512x128 .f32) :: L),
      y ∈ pc.1.set :=
  ⟨_, List.mem_cons_self, View.mem_set_unit_zero off2 inb_S512x128_S512x128_0_0 y⟩

set_option maxHeartbeats 1000000 in
/-- A LATER CHUNK of a node tile (the conditional not taken): on whole memrefs, the ids at `ids`, the edge rows at `rows`,
    the output tile at anything and the accumulator at `acc`, the body runs to the continuation holding the inputs as
    they were and both the accumulator and the output tile at `scatStep i ids rows acc`: its one store into the
    accumulator covers it, and the output tile is stored a whole read of that. -/
theorem scat_run_next (c : Dev nD) (E : Set ℕ) (i : grid1.Coords)
    (arg2 : Memref sig .tc .vmem S1x2048 .i32) (h2 : arg2.IsWhole)
    (arg3 : Memref sig .tc .vmem S2048x128 .f32) (h3 : arg3.IsWhole)
    (arg4 : Memref sig .tc .vmem S512x128 .f32) (h4 : arg4.IsWhole)
    (hc : ¬ cond1 i)
    (ids : Vec F S1x2048 .i32) (rows : Vec F S2048x128 .f32) (acc : Vec F S512x128 .f32) (K : PUnit → sProp 𝕄) :
    iprop(owns (c : Thread nD τ) arg2 fullShare ids ∗ owns (c : Thread nD τ) arg3 fullShare rows
        ∗ (∃ d, owns (c : Thread nD τ) arg4 fullShare d) ∗ owns (c : Thread nD τ) scM1 fullShare acc
        ∗ (iprop(owns (c : Thread nD τ) arg2 fullShare ids ∗ owns (c : Thread nD τ) arg3 fullShare rows
            ∗ owns (c : Thread nD τ) arg4 fullShare (scatStep i ids rows acc)
            ∗ owns (c : Thread nD τ) scM1 fullShare (scatStep i ids rows acc)) -∗ K ⟨⟩))
      ⊢ wp frame (wpE (defs₀ (F := F)) Variants.none c none) E
          (cc1__scatter_kernel i arg2 h2 arg3 h3 arg4 h4 scM1 (Memref.isWhole_whole _)) K := by
  simp only [cc1__scatter_kernel_eq_skeleton]; unfold cc1__scatter_kernel_skel
  unfold owns
  iintro ⟨⟨%f2, %hf2, H2⟩, ⟨%f3, %hf3, H3⟩, ⟨%d4, %f4, -, H4⟩, ⟨%fs, %hfs, HS⟩, Hk⟩
  subst hf2; subst hf3; subst hfs
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (whole512 _ _), View.canon_unit_zero off2,
      View.readCov_unit_zero (S := S512x128) _ off2]
    simp only [View.readAt_eq_ld, View.ld_unit_zero (S := S1x2048) off2, View.ld_unit_zero (S := S2048x128) off2,
      View.ld_unit_zero (S := S512x128) off2]
    rfl
  iexists _; isplitr
  swap; · iexact HS
  ipureintro
  sl_unfold_run_names
  rw [View.read_writes_eq_canon _ _ _ (whole512 _ _), View.canon_unit_zero off2]
  simp only [View.readAt_eq_ld, View.ld_unit_zero (S := S1x2048) off2, View.ld_unit_zero (S := S2048x128) off2,
    View.ld_unit_zero (S := S512x128) off2]
  rfl

set_option maxHeartbeats 1000000 in
/-- THE FIRST CHUNK of a node tile (the conditional taken): the accumulator, at anything, is first stored the zero tile
    whole; the rest runs as at a later chunk over that, so both the accumulator and the output tile end at
    `scatStep i ids rows scatZero`. -/
theorem scat_run_first (c : Dev nD) (E : Set ℕ) (i : grid1.Coords)
    (arg2 : Memref sig .tc .vmem S1x2048 .i32) (h2 : arg2.IsWhole)
    (arg3 : Memref sig .tc .vmem S2048x128 .f32) (h3 : arg3.IsWhole)
    (arg4 : Memref sig .tc .vmem S512x128 .f32) (h4 : arg4.IsWhole)
    (hc : cond1 i)
    (ids : Vec F S1x2048 .i32) (rows : Vec F S2048x128 .f32) (K : PUnit → sProp 𝕄) :
    iprop(owns (c : Thread nD τ) arg2 fullShare ids ∗ owns (c : Thread nD τ) arg3 fullShare rows
        ∗ (∃ d, owns (c : Thread nD τ) arg4 fullShare d) ∗ (∃ d, owns (c : Thread nD τ) scM1 fullShare d)
        ∗ (iprop(owns (c : Thread nD τ) arg2 fullShare ids ∗ owns (c : Thread nD τ) arg3 fullShare rows
            ∗ owns (c : Thread nD τ) arg4 fullShare (scatStep i ids rows scatZero)
            ∗ owns (c : Thread nD τ) scM1 fullShare (scatStep i ids rows scatZero)) -∗ K ⟨⟩))
      ⊢ wp frame (wpE (defs₀ (F := F)) Variants.none c none) E
          (cc1__scatter_kernel i arg2 h2 arg3 h3 arg4 h4 scM1 (Memref.isWhole_whole _)) K := by
  simp only [cc1__scatter_kernel_eq_skeleton]; unfold cc1__scatter_kernel_skel
  unfold owns
  iintro ⟨⟨%f2, %hf2, H2⟩, ⟨%f3, %hf3, H3⟩, ⟨%d4, %f4, -, H4⟩, ⟨%ds, %fs, -, HS⟩, Hk⟩
  subst hf2; subst hf3
  sl_exec (disch := exact hc)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (whole512 _ _), View.canon_unit_zero off2,
      View.readCov_eq_canon_ld _ _ _ (whole512 _ _), View.canon_cons_unit_zero (S := S512x128) off2,
      View.readCov_unit_zero (S := S512x128) _ off2]
    simp only [View.readAt_eq_ld, View.ld_unit_zero (S := S1x2048) off2, View.ld_unit_zero (S := S2048x128) off2,
      View.ld_unit_zero (S := S512x128) off2]
    rfl
  iexists _; isplitr
  swap; · iexact HS
  ipureintro
  sl_unfold_run_names
  rw [View.read_writes_eq_canon _ _ _ (whole512 _ _), View.canon_cons_unit_zero (S := S512x128) off2,
    View.readCov_unit_zero (S := S512x128) _ off2]
  simp only [View.readAt_eq_ld, View.ld_unit_zero (S := S1x2048) off2, View.ld_unit_zero (S := S2048x128) off2]
  rfl

/-! # The region's invariant opened -/

/-- The core's scoped buffers that are no staging buffer of this call, split at the call's own accumulator: the
    accumulator whole at some contents, the others unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- What the launch hands the region, with the accumulator as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

/-- Before the first position the invariant is what the launch hands over. -/
theorem PhiS1_zero (c : Dev nD) (n : ℕ) (h : n ≤ cfg1.N) (hz : n = 0) : PhiS1 V c n h = Pipeline.ΦA spec1 c := by
  subst hz; rfl

/-! # The input windows' buffers before the body -/

/-- The ids' window is fetched at every position: its buffer holds the position's block. -/
theorem before1_0 (c : Dev nD) (t : Fin cfg1.N) (d) : (dat1 V c).before 0 t d = iblk1 V c 0 t := by
  rw [(dat1 V c).before_fetched 0 t (fetch1_0 t) d]
  unfold Dat.fetched Dat.blockOf iblk1; rw [A_eq1]; try rfl

/-- So is the edge rows' window. -/
theorem before1_1 (c : Dev nD) (t : Fin cfg1.N) (d) : (dat1 V c).before 1 t d = iblk1 V c 1 t := by
  rw [(dat1 V c).before_fetched 1 t (fetch1_1 t) d]
  unfold Dat.fetched Dat.blockOf iblk1; rw [A_eq1]; try rfl

/-! # The body obligation -/

set_option maxHeartbeats 1600000 in
/-- The body at any position. Both inputs' buffers hold their blocks; the output tile's buffer holds anything the body
    need not know. At a node tile's first chunk the conditional is taken: the accumulator — at anything before the very
    first position, at what the tile before left otherwise — is reset, and the position leaves `scatStep … scatZero`,
    which is `scatAcc` there. At a later chunk the invariant hands the accumulator at `scatAcc` of the position
    before, and the position leaves `scatStep` over it: `scatAcc` again. The other scoped buffers, the generator
    register and what the core owes pass through unread. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, after1_0, after1_1, after1_2]
  by_cases h0 : t.val % 4 = 0
  · rw [scatAcc_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩⟩
      iapply (scat_run_first c Set.univ (grid1.coords t) _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS1_castSucc V c t, PhiS1_pos V c _ _ hz]
      iintro ⟨⟨⟨HS, HR⟩, Hg⟩, Ho, ⟨%d0, H0⟩, ⟨%d1, H1⟩, ⟨%d2, H2⟩⟩
      iapply (scat_run_first c Set.univ (grid1.coords t) _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · have hz : t.val ≠ 0 := fun h => h0 (by rw [h])
    rw [scatAcc_next V c t h0, PhiS1_castSucc V c t, PhiS1_pos V c _ _ hz]
    iintro ⟨⟨⟨HS, HR⟩, Hg⟩, Ho, ⟨%d0, H0⟩, ⟨%d1, H1⟩, ⟨%d2, H2⟩⟩
    iapply (scat_run_next c Set.univ (grid1.coords t) _ _ _ _ _ _ (fun h => h0 ((hcond1 t).mp h)) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every position: the windows conjoined one by one. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last position the invariant gives the launch's back: the accumulator's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, HR⟩, Hg⟩
  isplitl [HS HR]
  · isplitl [HS]
    · iexists _; iexact HS
    iexact HR
  iexact Hg

end Cert.KernelIdeal.Frame

end
-- ==== Proof.KernelIdeal.Run.lean ====
/-
  The run of the whole program, at any float instance: @main is a host stretch, the attention region, a host stretch
  (one reshape) and the scatter region. Between two items the core holds every unscoped buffer at a valuation: the
  launch memory, then the first stretch's results, then region 0's arrays at what its proof data leave, then the
  reshape's result, then region 1's arrays at what its proof data leave. Every weakly fair execution terminates, and
  the final memory holds every unscoped buffer at the last valuation; in particular no argument changes, the edge
  result is region 0's output array and the node result region 1's.
-/
import proofs.«421498_j43611097924270_2_alg».proof.Proof.KernelIdeal.AttnBody
import proofs.«421498_j43611097924270_2_alg».proof.Proof.KernelIdeal.ScatBody
import proofs.«421498_j43611097924270_2_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Blocks

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; its invariant names the
    accumulator between positions and forgets it at the two ends. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
          ∗ Pipeline.scopedRest (Pipeline.pin (pcfgs (F := F)) adm 1).spec c) : sProp 𝕄) ⊢ (Pipeline.ΦA spec1 c : sProp 𝕄) := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄) ⊢ (iprop((∃ r, prngReg c r) ∗ emp
          ∗ Pipeline.scopedRest (Pipeline.pin (pcfgs (F := F)) adm 1).spec c) : sProp 𝕄) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting, and
    the final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the last valuation holds -/

/-- A buffer that no host operation writes and that is no array of either region ends as launched. -/
theorem W4_keep (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m ρ c (Proc.devRef .tc r) = m ((c : Thread nD τ).loc r) :=
  (W4_of_ne m ρ c r ha1).trans <| (StableHlo.after_of_writes_sub hostOps1 _ hostOps1_writes h1).trans <|
    (W2_of_ne m ρ c r ha0).trans <| (StableHlo.after_of_writes_sub hostOps0 _ hostOps0_writes h0).trans rfl

/-- The edge rows region 1 is entered with are region 0's output array: the reshape between the regions does not write them. -/
theorem V3_edges (c : Dev nD) : V3 m ρ c main_v51 = (dat0 (V1 m ρ) c).arrAt 3 cfg0.N :=
  (StableHlo.after_of_writes_sub hostOps1 _ hostOps1_writes (by decide : main_v51 ∉ hostOps1_W)).trans (W2_arr m ρ c 3)

/-- The edge result at the end is region 0's output array: region 1 only reads it. -/
theorem W4_edges (c : Dev nD) : W4 m ρ c (Proc.devRef .tc main_v51) = (dat0 (V1 m ρ) c).arrAt 3 cfg0.N :=
  (W4_arr m ρ c 1).trans (((dat1 (V3 m ρ) c).arrAt_in 1 rfl _).trans ((A_eq1 (V3 m ρ) c 1).trans (V3_edges m ρ c)))

/-- The node result at the end is region 1's output array. -/
theorem W4_nodes (c : Dev nD) : W4 m ρ c (Proc.devRef .tc main_v53) = (dat1 (V3 m ρ) c).arrAt 2 cfg1.N :=
  W4_arr m ρ c 2

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W4_keep m ρ c main_arg0 (by decide) (by decide) (by decide) (by decide)),
      (h c _ (mem_uc main_arg1 (by decide))).trans (W4_keep m ρ c main_arg1 (by decide) (by decide) (by decide) (by decide)),
      (h c _ (mem_uc main_arg2 (by decide))).trans (W4_keep m ρ c main_arg2 (by decide) (by decide) (by decide) (by decide)),
      (h c _ (mem_uc main_arg3 (by decide))).trans (W4_keep m ρ c main_arg3 (by decide) (by decide) (by decide) (by decide)),
      (h c _ (mem_uc main_arg4 (by decide))).trans (W4_keep m ρ c main_arg4 (by decide) (by decide) (by decide) (by decide)),
      (h c _ (mem_uc main_arg5 (by decide))).trans (W4_keep m ρ c main_arg5 (by decide) (by decide) (by decide) (by decide)),
      (h c _ (mem_uc main_arg6 (by decide))).trans (W4_keep m ρ c main_arg6 (by decide) (by decide) (by decide) (by decide)),
      (h c _ (mem_uc main_arg7 (by decide))).trans (W4_keep m ρ c main_arg7 (by decide) (by decide) (by decide) (by decide)),
      (h c _ (mem_uc main_arg8 (by decide))).trans (W4_keep m ρ c main_arg8 (by decide) (by decide) (by decide) (by decide)),
      (h c _ (mem_uc main_arg9 (by decide))).trans (W4_keep m ρ c main_arg9 (by decide) (by decide) (by decide) (by decide)),
      (h c _ (mem_uc main_arg10 (by decide))).trans (W4_keep m ρ c main_arg10 (by decide) (by decide) (by decide) (by decide)),
      (h c _ (mem_uc main_arg11 (by decide))).trans (W4_keep m ρ c main_arg11 (by decide) (by decide) (by decide) (by decide)),
      (h c _ (mem_uc main_arg12 (by decide))).trans (W4_keep m ρ c main_arg12 (by decide) (by decide) (by decide) (by decide)),
      (h c _ (mem_uc main_arg13 (by decide))).trans (W4_keep m ρ c main_arg13 (by decide) (by decide) (by decide) (by decide)),
      (h c _ (mem_uc main_arg14 (by decide))).trans (W4_keep m ρ c main_arg14 (by decide) (by decide) (by decide) (by decide))⟩) (run_all m ρ)

/-- THE RUN WITH ITS RESULTS: as `frame`, and the node result and the edge result end at the two regions' output arrays. -/
theorem run_results : θ_run defs (onTc (τ := τ) (main (F := F))) ⟨m, fun _ => 0, ρ⟩ (fun r => ∀ c : Dev nD,
      r.2.mem ((c.tc : Thread nD τ).loc main_v53) = (dat1 (V3 m ρ) c).arrAt 2 cfg1.N
      ∧ r.2.mem ((c.tc : Thread nD τ).loc main_v51) = (dat0 (V1 m ρ) c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_v53 (by decide))).trans (W4_nodes m ρ c),
      (h c _ (mem_uc main_v51 (by decide))).trans (W4_edges m ρ c),
      (h c _ (mem_uc main_arg0 (by decide))).trans (W4_keep m ρ c main_arg0 (by decide) (by decide) (by decide) (by decide)),
      (h c _ (mem_uc main_arg1 (by decide))).trans (W4_keep m ρ c main_arg1 (by decide) (by decide) (by decide) (by decide)),
      (h c _ (mem_uc main_arg2 (by decide))).trans (W4_keep m ρ c main_arg2 (by decide) (by decide) (by decide) (by decide)),
      (h c _ (mem_uc main_arg3 (by decide))).trans (W4_keep m ρ c main_arg3 (by decide) (by decide) (by decide) (by decide)),
      (h c _ (mem_uc main_arg4 (by decide))).trans (W4_keep m ρ c main_arg4 (by decide) (by decide) (by decide) (by decide)),
      (h c _ (mem_uc main_arg5 (by decide))).trans (W4_keep m ρ c main_arg5 (by decide) (by decide) (by decide) (by decide)),
      (h c _ (mem_uc main_arg6 (by decide))).trans (W4_keep m ρ c main_arg6 (by decide) (by decide) (by decide) (by decide)),
      (h c _ (mem_uc main_arg7 (by decide))).trans (W4_keep m ρ c main_arg7 (by decide) (by decide) (by decide) (by decide)),
      (h c _ (mem_uc main_arg8 (by decide))).trans (W4_keep m ρ c main_arg8 (by decide) (by decide) (by decide) (by decide)),
      (h c _ (mem_uc main_arg9 (by decide))).trans (W4_keep m ρ c main_arg9 (by decide) (by decide) (by decide) (by decide)),
      (h c _ (mem_uc main_arg10 (by decide))).trans (W4_keep m ρ c main_arg10 (by decide) (by decide) (by decide) (by decide)),
      (h c _ (mem_uc main_arg11 (by decide))).trans (W4_keep m ρ c main_arg11 (by decide) (by decide) (by decide) (by decide)),
      (h c _ (mem_uc main_arg12 (by decide))).trans (W4_keep m ρ c main_arg12 (by decide) (by decide) (by decide) (by decide)),
      (h c _ (mem_uc main_arg13 (by decide))).trans (W4_keep m ρ c main_arg13 (by decide) (by decide) (by decide) (by decide)),
      (h c _ (mem_uc main_arg14 (by decide))).trans (W4_keep m ρ c main_arg14 (by decide) (by decide) (by decide) (by decide))⟩) (run_all m ρ)

end Cert.KernelIdeal.Frame

end
-- ==== Proof.Value.Spec.lean ====
/-
  What both programs compute, as whole-array functions over the extended reals.

  ATTENTION over the 8192 edges. From the gathered-and-fused query, key and value rows `q`, `k`, `v` (8192 × 128 each):
  the score of edge `e` against edge `j` is (sum_d q[e,d] * k[j,d]) * c, c the constant 1/sqrt(128) as the programs spell
  it; edge `e`'s row of the result is the softmax over `j` of its scores applied to the value rows,

      out[e,d] = sum_j (exp (score e j - max_j' score e j') / sum_j' exp (score e j' - max …)) * v[j,d].

  SCATTER to the 4096 nodes: node `n`'s row is the sum of the rows of the edges whose destination id is `n` (an id outside
  0 … 4095 contributes nothing) — the host's accumulating scatter of the edge rows over zeros.
-/
import proofs.«421498_j43611097924270_2_alg».proof.Proof.Gen.ReferenceIdeal.Read
import Idealize.ShloMosaic.Lib.ValueIdx

noncomputable section

namespace Cert.Spec

open Idealize.ShloMosaic Idealize.ShloMosaic.ValueIdx
open Cert.ReferenceIdeal Cert.ReferenceIdeal.Gen Cert.ReferenceIdeal.Read

/-- The scale 1/sqrt(128), as both programs spell it. -/
abbrev scale : EReal := Ideal.ofBits .f32 0x3DB504F3#32

/-- The score of a query row `qr` (128 entries) against edge `j`'s key row. -/
def score (qr : Fin 128 → EReal) (k : S8192x128.Idx → EReal) (j : Fin 8192) : EReal :=
  (∑ d : Fin 128, qr d * k (ix2 j d)) * scale

/-- The largest score of the row. -/
def rowMax (qr : Fin 128 → EReal) (k : S8192x128.Idx → EReal) : EReal :=
  (Finset.univ : Finset (Fin 8192)).fold max ⊥ (score qr k)

/-- The row's softmax denominator. -/
def rowSum (qr : Fin 128 → EReal) (k : S8192x128.Idx → EReal) : EReal :=
  ∑ j : Fin 8192, Ideal.exp (score qr k j - rowMax qr k)

/-- Entry `d` of the attention result's row for the query row `qr`. -/
def attnRow (qr : Fin 128 → EReal) (k v : S8192x128.Idx → EReal) (d : Fin 128) : EReal :=
  ∑ j : Fin 8192, Ideal.div (Ideal.exp (score qr k j - rowMax qr k)) (rowSum qr k) * v (ix2 j d)

/-- Entry (e, d) of the attention result. -/
def attnAt (q k v : S8192x128.Idx → EReal) (e : Fin 8192) (d : Fin 128) : EReal :=
  attnRow (fun d' => q (ix2 e d')) k v d

/-- The attention result as an array. -/
def attnArr (q k v : S8192x128.Idx → EReal) : S8192x128.Idx → EReal :=
  fun i => attnAt q k v ⟨(i 0).val, (i 0).isLt⟩ ⟨(i 1).val, (i 1).isLt⟩

theorem attnArr_ix2 (q k v : S8192x128.Idx → EReal) (e : Fin 8192) (d : Fin 128) :
    attnArr q k v (ix2 e d) = attnAt q k v e d := rfl

/-- The scatter of the edge rows `x` to the nodes by the destination ids `dst`: the host's accumulating scatter over zeros. -/
def scatArr (dst : S8192.Idx → BitVec 32) (x : S8192x128.Idx → EReal) : S4096x128.Idx → EReal :=
  Host.scatterAdd (F := Ideal) (φ := .f32) scatter_S4096x128_S8192x1_S8192x128_1_0_0_1 (val_main_v74 (F := Ideal))
    (broadcastInDim S8192x1 ![0] bcast_S8192_S8192x1_0 dst) x

end Cert.Spec

end
-- ==== Proof.Ref.RefValue.lean ====
/-
  The reference's two results are the spec's functions of its own gathered-and-fused query, key and value rows and of
  its destination ids: the attention stages read index by index (the two matrix products as sums, the softmax's maximum
  a fold of max from -inf, its denominator 0 plus a sum), the scatter literally the spec's term.
-/
import proofs.«421498_j43611097924270_2_alg».proof.Proof.Gen.ReferenceIdeal.Run
import proofs.«421498_j43611097924270_2_alg».proof.Proof.Gen.ReferenceIdeal.Read
import proofs.«421498_j43611097924270_2_alg».proof.Proof.Value.Spec
import Idealize.ShloMosaic.PureOps.Ideal.Laws
import Idealize.ShloMosaic.Lib.ValueIdx

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Spec

variable (x0 : (⟨S4096x256, .f32⟩ : BufTy).Contents (Elt Ideal)) (x1 : (⟨S2x8192, .i32⟩ : BufTy).Contents (Elt Ideal)) (x2 : (⟨S8192x128, .f32⟩ : BufTy).Contents (Elt Ideal))
  (x3 : (⟨S128x256, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x256, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))

/-- The scaled score stage at (e, j): the sum over the 128 features of query row e against key row j, times the scale. -/
theorem score_eq (e j : Fin 8192) :
    val_main_v61 (F := Ideal) x0 x1 x2 x3 x4 x5 x6 x7 x8 x9 x10 (ix2 e j)
      = score (fun d' => val_main_v41 (F := Ideal) x0 x1 x2 x3 x4 x5 x6 (ix2 e d')) (val_main_v49 (F := Ideal) x0 x1 x2 x7 x8 x9 x10) j := by
  rw [val_main_v61_apply, val_main_v59_apply, val_main_v60_apply, val_main_cst_apply]
  unfold score
  simp only [Ideal.mulf_def, Ideal.ofBits_def]
  refine congrArg (· * _) (Finset.sum_congr rfl fun d _ => ?_)
  rw [val_main_v58_apply]
  have e1 : lidx_main_v59 (ix2 e j) d = ix2 e d := funext fun a => Fin.ext (by match a with | ⟨0, _⟩ => rfl | ⟨1, _⟩ => rfl)
  have e2 : idx_main_v58 (ridx_main_v59 (ix2 e j) d) = ix2 j d := funext fun a => Fin.ext (by match a with | ⟨0, _⟩ => rfl | ⟨1, _⟩ => rfl)
  rw [e1, e2]

/-- The word 0xFF800000 is minus infinity. -/
theorem negInf : Ideal.ofBits .f32 0xFF800000#32 = ⊥ := by simp [Ideal.ofBits, Ideal.ieee]

/-- The row-maximum stage at e: the fold of max from minus infinity over the 8192 scores of row e. -/
theorem rowMax_eq (e : Fin 8192) :
    val_main_v64 (F := Ideal) x0 x1 x2 x3 x4 x5 x6 x7 x8 x9 x10 (ix1 e)
      = rowMax (fun d' => val_main_v41 (F := Ideal) x0 x1 x2 x3 x4 x5 x6 (ix2 e d')) (val_main_v49 (F := Ideal) x0 x1 x2 x7 x8 x9 x10) := by
  have hR : S8192x8192.Reduces [1] S8192 := by decide
  have hrow : ∀ j : Fin 8192, val_main_v61 (F := Ideal) x0 x1 x2 x3 x4 x5 x6 x7 x8 x9 x10 (hR.lift (ix1 e) j)
      = score (fun d' => val_main_v41 (F := Ideal) x0 x1 x2 x3 x4 x5 x6 (ix2 e d')) (val_main_v49 (F := Ideal) x0 x1 x2 x7 x8 x9 x10) j := fun j => by
    have ej : hR.lift (ix1 e) j = ix2 e j := funext fun a => Fin.ext (by match a with | ⟨0, _⟩ => rfl | ⟨1, _⟩ => rfl)
    rw [ej, score_eq]
  rw [val_main_v64_apply, val_main_v63_apply, val_main_cst_6_apply]
  unfold val_main_v62
  rw [Host.reduce_eq_fold_single FloatOps.maximumf _ _ reducesTo_S8192x8192_S8192_d1 hR h_S_, val_main_cst_5_apply]
  simp only [Ideal.ofBits_def, Ideal.maximumf_def, negInf, bot_sup_eq, max_bot_left]
  unfold rowMax
  exact congrArg (fun f => Finset.fold max ⊥ f (Finset.univ : Finset (Fin 8192))) (funext hrow)

/-- The exponential stage at (e, j): exp of the score less the row's maximum. -/
theorem exp_eq (e j : Fin 8192) :
    val_main_v68 (F := Ideal) x0 x1 x2 x3 x4 x5 x6 x7 x8 x9 x10 (ix2 e j)
      = Ideal.exp (score (fun d' => val_main_v41 (F := Ideal) x0 x1 x2 x3 x4 x5 x6 (ix2 e d')) (val_main_v49 (F := Ideal) x0 x1 x2 x7 x8 x9 x10) j
          - rowMax (fun d' => val_main_v41 (F := Ideal) x0 x1 x2 x3 x4 x5 x6 (ix2 e d')) (val_main_v49 (F := Ideal) x0 x1 x2 x7 x8 x9 x10)) := by
  rw [val_main_v68_apply, val_main_v67_apply, val_main_v66_apply, val_main_v65_apply]
  have e1 : idx_main_v65 (idx_main_v66 (ix2 e j)) = ix1 e := funext fun a => Fin.ext (by match a with | ⟨0, _⟩ => rfl)
  rw [e1, score_eq, rowMax_eq]
  simp only [Ideal.hostUnary_exp_def, Ideal.subf_def]

/-- The denominator stage at e: zero plus the sum of the row's exponentials. -/
theorem rowSum_eq (e : Fin 8192) :
    val_main_v69 (F := Ideal) x0 x1 x2 x3 x4 x5 x6 x7 x8 x9 x10 (ix1 e)
      = rowSum (fun d' => val_main_v41 (F := Ideal) x0 x1 x2 x3 x4 x5 x6 (ix2 e d')) (val_main_v49 (F := Ideal) x0 x1 x2 x7 x8 x9 x10) := by
  rw [val_main_v69_apply, val_main_cst_7_apply]
  simp only [Ideal.ofBits_def, Ideal.ofBits_zero_f32, zero_add]
  unfold rowSum
  refine Finset.sum_congr rfl fun j _ => ?_
  have e1 : idx_main_v69 (ix1 e) j = ix2 e j := funext fun a => Fin.ext (by match a with | ⟨0, _⟩ => rfl | ⟨1, _⟩ => rfl)
  rw [e1, exp_eq]

/-- The quotient stage at (e, j): the exponential over the row's denominator. -/
theorem div_eq (e j : Fin 8192) :
    val_main_v72 (F := Ideal) x0 x1 x2 x3 x4 x5 x6 x7 x8 x9 x10 (ix2 e j)
      = Ideal.div (Ideal.exp (score (fun d' => val_main_v41 (F := Ideal) x0 x1 x2 x3 x4 x5 x6 (ix2 e d')) (val_main_v49 (F := Ideal) x0 x1 x2 x7 x8 x9 x10) j
          - rowMax (fun d' => val_main_v41 (F := Ideal) x0 x1 x2 x3 x4 x5 x6 (ix2 e d')) (val_main_v49 (F := Ideal) x0 x1 x2 x7 x8 x9 x10)))
          (rowSum (fun d' => val_main_v41 (F := Ideal) x0 x1 x2 x3 x4 x5 x6 (ix2 e d')) (val_main_v49 (F := Ideal) x0 x1 x2 x7 x8 x9 x10)) := by
  rw [val_main_v72_apply, val_main_v71_apply, val_main_v70_apply]
  have e1 : idx_main_v70 (idx_main_v71 (ix2 e j)) = ix1 e := funext fun a => Fin.ext (by match a with | ⟨0, _⟩ => rfl)
  rw [e1, exp_eq, rowSum_eq]
  simp only [Ideal.hostDivf_def]

/-- The reference's edge result is the attention of its own query, key and value rows. -/
theorem edges_eq :
    val_main_v73 (F := Ideal) x0 x1 x2 x3 x4 x5 x6 x7 x8 x9 x10 x11 x12 x13 x14
      = attnArr (val_main_v41 (F := Ideal) x0 x1 x2 x3 x4 x5 x6) (val_main_v49 (F := Ideal) x0 x1 x2 x7 x8 x9 x10) (val_main_v57 (F := Ideal) x0 x1 x2 x11 x12 x13 x14) := by
  funext i
  obtain ⟨e, d, rfl⟩ : ∃ (e : Fin 8192) (d : Fin 128), i = ix2 e d := ⟨i 0, i 1, eq_ix2 i⟩
  rw [attnArr_ix2, val_main_v73_apply]
  unfold attnAt attnRow
  refine Finset.sum_congr rfl fun j _ => ?_
  have e1 : lidx_main_v73 (ix2 e d) j = ix2 e j := funext fun a => Fin.ext (by match a with | ⟨0, _⟩ => rfl | ⟨1, _⟩ => rfl)
  have e2 : ridx_main_v73 (ix2 e d) j = ix2 j d := funext fun a => Fin.ext (by match a with | ⟨0, _⟩ => rfl | ⟨1, _⟩ => rfl)
  rw [e1, e2, div_eq]

/-- The reference's node result is the scatter of its edge result by its destination ids. -/
theorem nodes_eq :
    val_main_v76 (F := Ideal) x0 x1 x2 x3 x4 x5 x6 x7 x8 x9 x10 x11 x12 x13 x14
      = scatArr (val_main_v3 (F := Ideal) x1) (val_main_v73 (F := Ideal) x0 x1 x2 x3 x4 x5 x6 x7 x8 x9 x10 x11 x12 x13 x14) := by
  unfold val_main_v76 scatArr val_main_v75
  rfl

end Cert.ReferenceIdeal.RefValue

end
-- ==== Proof.Value.AttnArr.lean ====
/-
  From blocks to the array, for the attention region's result: every grid position writes back its tile of one
  whole-array function of the query, key and value arrays, and the 32 tiles cover the result array, so the result array
  ends at that function; read at row 256 t + r it is `attnBlock` of query tile t and the whole key and value arrays,
  at row r of the tile.
-/
import proofs.«421498_j43611097924270_2_alg».proof.Proof.KernelIdeal.Dat
import Idealize.ShloMosaic.Lib.Pipeline.Value
import Idealize.ShloMosaic.Lib.ValueIdx

set_option maxRecDepth 16384

noncomputable section

namespace Cert.KernelIdeal.AttnValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Blocks Cert.KernelIdeal.Frame

variable {F : FTy → Type} [FloatOps F]

variable (V : (c : Dev nD) → (b : Ref sig .tc) → Buf (Elt F) ((c : Thread nD τ).loc b))

/-- Query tile `t`: rows 256 t … 256 t + 255 of the query array. -/
def qtile (Q : S8192x128.Idx → Elt F .bf16) (t : Fin 32) : Vec F S256x128 .bf16 :=
  fun y => Q (ix2 ⟨256 * t.val + (y 0).val, by have hy : (y 0).val < 256 := (y 0).isLt; have ht := t.isLt; omega⟩ ⟨(y 1).val, (y 1).isLt⟩)

/-- The result array as one function of the three arrays: row `e` is row `e % 256` of the attention of query tile
    `e / 256` against all the keys and values. -/
def attnArr (Q K W : S8192x128.Idx → Elt F .bf16) : S8192x128.Idx → Elt F .f32 :=
  fun i => attnBlock (qtile Q ⟨(i 0).val / 256, by have hi : (i 0).val < 8192 := (i 0).isLt; omega⟩) K W
    (ix2 ⟨(i 0).val % 256, Nat.mod_lt _ (by decide)⟩ ⟨(i 1).val, (i 1).isLt⟩)

/-- The printed index maps over the grid: the query and result windows are at tile (t, 0) at position t, the key and
    value windows at block (0, 0) throughout. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid position as a tile number. -/
abbrev tileOf (t : Fin cfg0.N) : Fin 32 := ⟨t.val, Nat.lt_of_lt_of_eq t.isLt N_0⟩

/-- The query window's block at position `t` is query tile `t`. -/
theorem iblk_query (c : Dev nD) (t : Fin cfg0.N) :
    iblk0 V c 0 t = qtile (V c main_v32 : S8192x128.Idx → Elt F .bf16) (tileOf t) := by
  obtain ⟨e0, e1, -⟩ := index_facts t
  funext y
  unfold iblk0 qtile
  rw [View.read_apply]
  show V c main_v32 (((cfg0.win 0).blk t).view.emb y) = V c main_v32 _
  congr 1
  funext a; apply Fin.ext
  match a with
  | ⟨0, _⟩ => show win0_0.index t (0 : Fin 2) * 256 + 1 * (y 0).val = 256 * t.val + (y 0).val; omega
  | ⟨1, _⟩ => show win0_0.index t (1 : Fin 2) * 128 + 1 * (y 1).val = (y 1).val; omega

/-- The key window's block at every position is the whole key array. -/
theorem iblk_key (c : Dev nD) (t : Fin cfg0.N) :
    iblk0 V c 1 t = (V c main_v41 : S8192x128.Idx → Elt F .bf16) := by
  obtain ⟨-, -, e0, e1, -⟩ := index_facts t
  funext y
  unfold iblk0
  rw [View.read_apply]
  show V c main_v41 (((cfg0.win 1).blk t).view.emb y) = V c main_v41 y
  congr 1
  funext a; apply Fin.ext
  match a with
  | ⟨0, _⟩ => show win0_1.index t (0 : Fin 2) * 8192 + 1 * (y 0).val = (y 0).val; omega
  | ⟨1, _⟩ => show win0_1.index t (1 : Fin 2) * 128 + 1 * (y 1).val = (y 1).val; omega

/-- The value window's block at every position is the whole value array. -/
theorem iblk_value (c : Dev nD) (t : Fin cfg0.N) :
    iblk0 V c 2 t = (V c main_v50 : S8192x128.Idx → Elt F .bf16) := by
  obtain ⟨-, -, -, -, e0, e1, -⟩ := index_facts t
  funext y
  unfold iblk0
  rw [View.read_apply]
  show V c main_v50 (((cfg0.win 2).blk t).view.emb y) = V c main_v50 y
  congr 1
  funext a; apply Fin.ext
  match a with
  | ⟨0, _⟩ => show win0_2.index t (0 : Fin 2) * 8192 + 1 * (y 0).val = (y 0).val; omega
  | ⟨1, _⟩ => show win0_2.index t (1 : Fin 2) * 128 + 1 * (y 1).val = (y 1).val; omega

/-- `attnArr` read at row 256 t + r: row r of the attention of query tile t. -/
theorem attnArr_apply (Q K W : S8192x128.Idx → Elt F .bf16) (i : S8192x128.Idx) (t : Fin 32) (j : S256x128.Idx)
    (h0 : (i 0).val = 256 * t.val + (j 0).val) (h1 : (i 1).val = (j 1).val) :
    attnArr Q K W i = attnBlock (qtile Q t) K W j := by
  have hj : (j 0).val < 256 := (j 0).isLt
  have hq : ∀ (a b : Fin 32), a = b → qtile Q a = qtile Q b := fun a b h => by rw [h]
  have hx : ∀ (x x' : Vec F S256x128 .bf16) (y y' : S256x128.Idx), x = x' → y = y' → attnBlock x K W y = attnBlock x' K W y' :=
    fun x x' y y' e e' => by rw [e, e']
  unfold attnArr
  refine hx _ _ _ _ (hq _ _ (Fin.ext ?_)) ?_
  · show (i 0).val / 256 = t.val; omega
  · funext a; apply Fin.ext
    match a with
    | ⟨0, _⟩ => show (i 0).val % 256 = (j 0).val; omega
    | ⟨1, _⟩ => show (i 1).val = (j 1).val; exact h1

/-- An index of the result array is in position `t`'s block iff each coordinate is in the block's range on its axis. -/
theorem mem_blk (t : Fin cfg0.N) (i : S8192x128.Idx) :
    i ∈ ((cfg0.win 3).blk t).view.set ↔ ∀ a : Fin 2, win0_3.index t a * S256x128.size a ≤ (i a).val ∧ (i a).val < win0_3.index t a * S256x128.size a + S256x128.size a := by
  show i ∈ ((View.whole main_v51).slice (win0_3.rect t)).set ↔ _
  rw [View.set_slice_whole, Rect.mem_set_unit]
  exact Iff.rfl

/-- What position `t` writes back is block `t` of `attnArr` of the three arrays as the region finds them. -/
theorem flushed_eq (c : Dev nD) (t : Fin cfg0.N) :
    (dat0 V c).flushed 3 t = ((cfg0.win 3).blk t).view.read (Elt F)
      (attnArr (V c main_v32 : S8192x128.Idx → Elt F .bf16) (V c main_v41 : S8192x128.Idx → Elt F .bf16) (V c main_v50 : S8192x128.Idx → Elt F .bf16)) := by
  show (cfg0.win 3).cut (grid0.coords t) ((dat0 V c).after 3 t) = _
  rw [after0_3, iblk_query, iblk_key, iblk_value]
  obtain ⟨-, -, -, -, -, -, e0, e1⟩ := index_facts t
  funext j
  rw [View.read_apply]
  show attnBlock _ _ _ j = attnArr _ _ _ (((cfg0.win 3).blk t).view.emb j)
  refine (attnArr_apply _ _ _ _ (tileOf t) j ?_ ?_).symm
  · show win0_3.index t (0 : Fin 2) * 256 + 1 * (j 0).val = 256 * t.val + (j 0).val; omega
  · show win0_3.index t (1 : Fin 2) * 128 + 1 * (j 1).val = (j 1).val; omega

/-- Every index of the result array is in the block of the position its row's tile names. -/
theorem covered (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 32 := N_0
  have hlt : (i 0).val / 256 < cfg0.N := by rw [hN]; omega
  refine ⟨⟨(i 0).val / 256, hlt⟩, flush0_3 _, ?_⟩
  rw [mem_blk]
  obtain ⟨-, -, -, -, -, -, e0, e1⟩ := index_facts ⟨(i 0).val / 256, hlt⟩
  have e0' : win0_3.index ⟨(i 0).val / 256, hlt⟩ (0 : Fin 2) = (i 0).val / 256 := e0
  intro a
  match a with
  | ⟨0, _⟩ => show win0_3.index _ (0 : Fin 2) * 256 ≤ (i 0).val ∧ (i 0).val < win0_3.index _ (0 : Fin 2) * 256 + 256; omega
  | ⟨1, _⟩ => show win0_3.index _ (1 : Fin 2) * 128 ≤ (i 1).val ∧ (i 1).val < win0_3.index _ (1 : Fin 2) * 128 + 128; omega

/-- The result array after the region: `attnArr` of the query, key and value arrays as the region finds them. -/
theorem final (c : Dev nD) :
    (dat0 V c).arrAt 3 cfg0.N
      = attnArr (V c main_v32 : S8192x128.Idx → Elt F .bf16) (V c main_v41 : S8192x128.Idx → Elt F .bf16) (V c main_v50 : S8192x128.Idx → Elt F .bf16) :=
  (dat0 V c).arrAt_eq_of_cover 3 _ (fun t _ => flushed_eq V c t) covered

/-- The result array read at row 256 t + r, column d: row r, column d of the attention of query tile t against all
    the keys and values. -/
theorem final_apply (c : Dev nD) (t : Fin 32) (r : Fin 256) (d : Fin 128) :
    ((dat0 V c).arrAt 3 cfg0.N : S8192x128.Idx → Elt F .f32) (ix2 ⟨256 * t.val + r.val, by have := t.isLt; have := r.isLt; omega⟩ d)
      = attnBlock (qtile (V c main_v32 : S8192x128.Idx → Elt F .bf16) t) (V c main_v41 : S8192x128.Idx → Elt F .bf16)
          (V c main_v50 : S8192x128.Idx → Elt F .bf16) (ix2 r d) := by
  rw [final]
  exact attnArr_apply _ _ _ _ t (ix2 r d) rfl rfl

end Cert.KernelIdeal.AttnValue

end
-- ==== Proof.Math.Online.lean ====
/-
  Softmax-weighted sums computed chunk by chunk.

  For real scores `s i` and real values `v i` over a finite index set cut into four chunks, the streaming recurrence

      m' = max m (max over the chunk of s)
      l' = exp (m - m') * l + sum over the chunk of exp (s j - m')
      a' = exp (m - m') * a + sum over the chunk of exp (s j - m') * v j

  started at (m, l, a) = (-inf, 0, 0) ends with a / l equal to the softmax-weighted sum
  sum_i (exp (s i - M) / L) * v i,  M the maximum of all scores, L = sum_i exp (s i - M):
  after each chunk (m, l, a) is (the maximum so far, the sum so far of exp (s - m), the sum so far of exp (s - m) * v),
  by exp (m - m') * exp (s - m) = exp (s - m'); at the first chunk exp (-inf - m') = 0 wipes the (zero) start.
  All of it is arithmetic of real numbers once the first chunk has been taken; the extended reals only carry the -inf start.
-/
import Idealize.ShloMosaic.PureOps.Ideal
import Mathlib.Data.EReal.Basic
import Mathlib.Data.EReal.Operations
import Mathlib.Analysis.SpecialFunctions.Exp
import Mathlib.Algebra.BigOperators.Fin
import Mathlib.Data.Finset.Fold

noncomputable section

namespace Cert.Math.Online

open Idealize.ShloMosaic

/-- One chunk's update of (running maximum, running denominator, running numerator). -/
def step {J : Type} [Fintype J] (s v : J → EReal) (st : EReal × EReal × EReal) : EReal × EReal × EReal :=
  (max st.1 ((Finset.univ : Finset J).fold max ⊥ s),
   Ideal.exp (st.1 - max st.1 ((Finset.univ : Finset J).fold max ⊥ s)) * st.2.1
     + ∑ j, Ideal.exp (s j - max st.1 ((Finset.univ : Finset J).fold max ⊥ s)),
   Ideal.exp (st.1 - max st.1 ((Finset.univ : Finset J).fold max ⊥ s)) * st.2.2
     + ∑ j, Ideal.exp (s j - max st.1 ((Finset.univ : Finset J).fold max ⊥ s)) * v j)

/-- The coercion of a finite real sum. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A common real factor moves out of a sum of products of reals, inside the extended reals. -/
theorem sum_mul_scale {D : Type} [Fintype D] (q k : D → ℝ) (σ : ℝ) :
    ∑ d, ((q d : EReal) * (σ : EReal)) * (k d : EReal) = (∑ d, (q d : EReal) * (k d : EReal)) * (σ : EReal) := by
  simp only [← EReal.coe_mul, ← coe_sum]
  rw [Finset.sum_mul]
  congr 1
  exact Finset.sum_congr rfl (fun d _ => by ring)

/-! ### The maximum of finitely many reals, inside the extended reals -/

/-- The coercion commutes with the maximum of two reals. -/
theorem coe_max_real (a b : ℝ) : ((max a b : ℝ) : EReal) = max (a : EReal) (b : EReal) :=
  EReal.coe_strictMono.monotone.map_max

/-- Over a nonempty index type the running maximum started at `-inf` is the real maximum. -/
theorem fold_max_coe {J : Type} [Fintype J] [Nonempty J] (f : J → ℝ) :
    (Finset.univ : Finset J).fold max ⊥ (fun j => (f j : EReal))
      = ((Finset.univ.sup' Finset.univ_nonempty f : ℝ) : EReal) := by
  apply le_antisymm
  · exact (Finset.fold_max_le _).mpr
      ⟨bot_le, fun x hx => EReal.coe_le_coe_iff.mpr (Finset.le_sup' f hx)⟩
  · obtain ⟨x, hx, hxe⟩ := Finset.exists_mem_eq_sup' (Finset.univ_nonempty (α := J)) f
    exact (Finset.le_fold_max _).mpr (Or.inr ⟨x, hx, by rw [hxe]⟩)

/-! ### Sums of `exp (x - M) * w` as functions of the reference point `M` -/

/-- Moving the reference point from `m` to `m'` multiplies the function by `exp (m - m')`. -/
def Shifts (F : ℝ → ℝ) : Prop := ∀ m m' : ℝ, Real.exp (m - m') * F m = F m'

theorem shifts_sum {ι : Type} (t : Finset ι) (x w : ι → ℝ) :
    Shifts (fun M => ∑ i ∈ t, Real.exp (x i - M) * w i) := by
  intro m m'
  show Real.exp (m - m') * ∑ i ∈ t, Real.exp (x i - m) * w i = ∑ i ∈ t, Real.exp (x i - m') * w i
  rw [Finset.mul_sum]
  refine Finset.sum_congr rfl (fun i _ => ?_)
  rw [← mul_assoc, ← Real.exp_add]
  congr 2
  ring

theorem shifts_sum_one {ι : Type} (t : Finset ι) (x : ι → ℝ) :
    Shifts (fun M => ∑ i ∈ t, Real.exp (x i - M)) := by
  have h := shifts_sum t x (fun _ => 1)
  simpa using h

theorem Shifts.add {F G : ℝ → ℝ} (hF : Shifts F) (hG : Shifts G) : Shifts (fun M => F M + G M) := by
  intro m m'
  show Real.exp (m - m') * (F m + G m) = F m' + G m'
  rw [mul_add, hF m m', hG m m']

/-! ### The state after some chunks -/

/-- The state is real: the maximum `m` so far, and the two sums so far taken at the reference point `m`. -/
def Holds (m : ℝ) (F G : ℝ → ℝ) (st : EReal × EReal × EReal) : Prop :=
  Shifts F ∧ Shifts G ∧ st = ((m : EReal), ((F m : ℝ) : EReal), ((G m : ℝ) : EReal))

/-- The first chunk: `exp (-inf - m') = 0` wipes the start. -/
theorem holds_first {J : Type} [Fintype J] [Nonempty J] (s v : J → ℝ) :
    Holds (Finset.univ.sup' Finset.univ_nonempty s)
      (fun M => ∑ j, Real.exp (s j - M)) (fun M => ∑ j, Real.exp (s j - M) * v j)
      (step (fun j => (s j : EReal)) (fun j => (v j : EReal)) (⊥, 0, 0)) := by
  refine ⟨shifts_sum_one _ s, shifts_sum _ s v, ?_⟩
  simp only [step, fold_max_coe, max_bot_left, EReal.bot_sub, Ideal.exp_bot, zero_mul, zero_add,
    ← EReal.coe_sub, Ideal.exp_coe, ← EReal.coe_mul, ← coe_sum]

/-- A later chunk: real arithmetic, by `exp (m - m') * F m = F m'`. -/
theorem holds_next {J : Type} [Fintype J] [Nonempty J] (s v : J → ℝ) {m : ℝ} {F G : ℝ → ℝ}
    {st : EReal × EReal × EReal} (h : Holds m F G st) :
    Holds (max m (Finset.univ.sup' Finset.univ_nonempty s))
      (fun M => F M + ∑ j, Real.exp (s j - M)) (fun M => G M + ∑ j, Real.exp (s j - M) * v j)
      (step (fun j => (s j : EReal)) (fun j => (v j : EReal)) st) := by
  obtain ⟨hF, hG, rfl⟩ := h
  refine ⟨hF.add (shifts_sum_one _ s), hG.add (shifts_sum _ s v), ?_⟩
  simp only [step, fold_max_coe, ← coe_max_real, ← EReal.coe_sub, Ideal.exp_coe, ← EReal.coe_mul, ← coe_sum,
    ← EReal.coe_add, hF m, hG m]

/-! ### The four chunks against the whole index set -/

/-- A sum over the whole index set is the sum of the four chunks' sums. -/
theorem sum_chunks {I J : Type} [Fintype I] [Fintype J] (e : Fin 4 × J ≃ I) (φ : I → ℝ) :
    ∑ i, φ i = ∑ j, φ (e (0, j)) + ∑ j, φ (e (1, j)) + ∑ j, φ (e (2, j)) + ∑ j, φ (e (3, j)) := by
  rw [← Equiv.sum_comp e φ, Fintype.sum_prod_type, Fin.sum_univ_four]

/-- The maximum over the whole index set is the maximum of the four chunks' maxima. -/
theorem sup_chunks {I J : Type} [Fintype I] [Fintype J] [Nonempty I] [Nonempty J] (e : Fin 4 × J ≃ I) (s : I → ℝ) :
    Finset.univ.sup' Finset.univ_nonempty s
      = max (max (max (Finset.univ.sup' Finset.univ_nonempty (fun j => s (e (0, j))))
                      (Finset.univ.sup' Finset.univ_nonempty (fun j => s (e (1, j)))))
                 (Finset.univ.sup' Finset.univ_nonempty (fun j => s (e (2, j)))))
            (Finset.univ.sup' Finset.univ_nonempty (fun j => s (e (3, j)))) := by
  apply le_antisymm
  · refine Finset.sup'_le _ _ (fun i _ => ?_)
    obtain ⟨⟨c, j⟩, rfl⟩ := e.surjective i
    have hj : ∀ c' : Fin 4, s (e (c', j)) ≤ Finset.univ.sup' Finset.univ_nonempty (fun j => s (e (c', j))) :=
      fun c' => Finset.le_sup' (fun j => s (e (c', j))) (Finset.mem_univ j)
    fin_cases c
    · exact le_max_of_le_left (le_max_of_le_left (le_max_of_le_left (hj 0)))
    · exact le_max_of_le_left (le_max_of_le_left (le_max_of_le_right (hj 1)))
    · exact le_max_of_le_left (le_max_of_le_right (hj 2))
    · exact le_max_of_le_right (hj 3)
  · have hc : ∀ c : Fin 4, Finset.univ.sup' Finset.univ_nonempty (fun j => s (e (c, j)))
        ≤ Finset.univ.sup' Finset.univ_nonempty s :=
      fun c => Finset.sup'_le _ _ (fun j _ => Finset.le_sup' s (Finset.mem_univ (e (c, j))))
    exact max_le (max_le (max_le (hc 0) (hc 1)) (hc 2)) (hc 3)

/-- FOUR CHUNKS. The index set `I` is cut into four chunks of shape `J` by `e`; the scores and values are real. -/
theorem four_chunks {I J : Type} [Fintype I] [Fintype J] [Nonempty J] (e : Fin 4 × J ≃ I) (s v : I → ℝ) :
    Ideal.div
        (step (fun j => (s (e (3, j)) : EReal)) (fun j => (v (e (3, j)) : EReal))
          (step (fun j => (s (e (2, j)) : EReal)) (fun j => (v (e (2, j)) : EReal))
            (step (fun j => (s (e (1, j)) : EReal)) (fun j => (v (e (1, j)) : EReal))
              (step (fun j => (s (e (0, j)) : EReal)) (fun j => (v (e (0, j)) : EReal)) (⊥, 0, 0))))).2.2
        (step (fun j => (s (e (3, j)) : EReal)) (fun j => (v (e (3, j)) : EReal))
          (step (fun j => (s (e (2, j)) : EReal)) (fun j => (v (e (2, j)) : EReal))
            (step (fun j => (s (e (1, j)) : EReal)) (fun j => (v (e (1, j)) : EReal))
              (step (fun j => (s (e (0, j)) : EReal)) (fun j => (v (e (0, j)) : EReal)) (⊥, 0, 0))))).2.1
      = ∑ i, Ideal.div (Ideal.exp ((s i : EReal) - (Finset.univ : Finset I).fold max ⊥ (fun i => (s i : EReal))))
                (∑ i', Ideal.exp ((s i' : EReal) - (Finset.univ : Finset I).fold max ⊥ (fun i => (s i : EReal))))
            * (v i : EReal) := by
  haveI : Nonempty I := ⟨e (0, Classical.arbitrary J)⟩
  -- the state after the four chunks is real: the maximum of all scores and the two whole sums at that maximum
  obtain ⟨-, -, hst⟩ :=
    holds_next (fun j => s (e (3, j))) (fun j => v (e (3, j)))
      (holds_next (fun j => s (e (2, j))) (fun j => v (e (2, j)))
        (holds_next (fun j => s (e (1, j))) (fun j => v (e (1, j)))
          (holds_first (fun j => s (e (0, j))) (fun j => v (e (0, j))))))
  rw [hst, ← sup_chunks e s, fold_max_coe]
  generalize Finset.univ.sup' Finset.univ_nonempty s = M
  dsimp only
  rw [← sum_chunks e (fun i => Real.exp (s i - M)), ← sum_chunks e (fun i => Real.exp (s i - M) * v i)]
  -- the denominator is a positive real
  have hL : (∑ i, Real.exp (s i - M)) ≠ 0 :=
    ne_of_gt (Finset.sum_pos (fun i _ => Real.exp_pos _) Finset.univ_nonempty)
  simp only [← EReal.coe_sub, Ideal.exp_coe, ← coe_sum, Ideal.div_coe hL, ← EReal.coe_mul]
  -- the quotient of the sums is the sum of the quotients
  rw [Finset.sum_mul]
  congr 1
  exact Finset.sum_congr rfl (fun i _ => by ring)

end Cert.Math.Online

end
-- ==== Proof.Value.AttnBlock.lean ====
/-
  The attention body's tile at the exact reals, entry by entry: for real-valued query tile, keys and values, entry (r, d)
  of `attnBlock x K V` is the softmax-attention row `attnRow` of query row r of the tile against ALL 8192 keys and values.
  The body's four chunk updates are the streaming recurrence of Math/Online.lean (each chunk's scores are the products
  of the SCALED query row with the chunk's key rows: a matrix product into zero; the running maximum a lane maximum; the
  denominator a lane sum; the numerator a matrix product of the exponentials with the chunk's value rows), its end
  `four_chunks`, and the scale moves from the query row to the score by distributivity over real numbers.
-/
import proofs.«421498_j43611097924270_2_alg».proof.Proof.KernelIdeal.Fn
import proofs.«421498_j43611097924270_2_alg».proof.Proof.Math.Online
import proofs.«421498_j43611097924270_2_alg».proof.Proof.Value.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.AttnValue

open Idealize.ShloMosaic Idealize.ShloMosaic.TcCoe Idealize.ShloMosaic.ValueIdx
open Cert.KernelIdeal Cert.KernelIdeal.Gen Cert.KernelIdeal.Blocks

theorem pay1_apply (x : Vec Ideal S256x128 .bf16) (i : S256x128.Idx) :
    k0_pay1 (F := Ideal) x i = x i * Cert.Spec.scale := by
  unfold k0_pay1
  simp only [shapeCast_self]
  rfl

theorem pay2_apply (i : S256x1.Idx) : k0_pay2 (F := Ideal) i = ⊥ := by
  unfold k0_pay2
  simp only [shapeCast_self]
  show Ideal.ofBits .f32 0xFF800000#32 = ⊥
  simp [Ideal.ofBits, Ideal.ieee]

theorem pay3_apply (i : S256x1.Idx) : k0_pay3 (F := Ideal) i = 0 := by
  unfold k0_pay3
  simp only [shapeCast_self]
  exact Ideal.ofBits_zero_f32

theorem pay4_apply (i : S256x128.Idx) : k0_pay4 (F := Ideal) i = 0 := by
  unfold k0_pay4
  simp only [shapeCast_self]
  exact Ideal.ofBits_zero_f32

theorem pay5_eq (v : FVec Ideal S256x1 .f32) : k0_pay5 (F := Ideal) v = v := by
  unfold k0_pay5
  simp only [shapeCast_self]

/-- Row `j` of chunk `k` is row `2048 k + j` of the whole buffer. -/
theorem ld_chunk_apply {e : EltTy} (X : Vec Ideal S8192x128 e) (k : Fin k0_t1_loop.trips) (j : Fin 2048) (d : Fin 128)
    (h : 2048 * k.val + j.val < 8192) :
    View.ld X (chunk k) (ix2 j d) = X (ix2 ⟨2048 * k.val + j.val, h⟩ d) := by
  show X ((chunk k).idx (ix2 j d)) = _
  refine congrArg X (Shape.idx_ext₂ ?_ ?_)
  · show k0_off1 k 0 + 1 * j.val = 2048 * k.val + j.val
    rw [k0_off1_eq]; simp
  · show k0_off1 k 1 + 1 * d.val = d.val
    rw [k0_off1_eq]; simp

theorem pay6_apply (acc : Vec Ideal S256x128 .f32) (l : Vec Ideal S256x1 .f32) (r : Fin 256) (d : Fin 128) :
    k0_pay6 (F := Ideal) acc l (ix2 r d) = Ideal.div (acc (ix2 r d)) (l (ix2 r 0)) := by
  unfold k0_pay6
  show Ideal.div (acc (ix2 r d)) (broadcastTo S256x128 l broadcasts_S256x1_S256x128 (ix2 r d)) = _
  congr 1
  refine broadcastTo_apply l broadcasts_S256x1_S256x128 (ix2 r d) (ix2 r 0) fun ax => ?_
  match ax with
  | ⟨0, _⟩ => rfl
  | ⟨1, _⟩ => rfl

theorem lhs_pay7_0 (i : S256x2048.Idx) (q : dot_S256x128_S128x2048_S256x2048_1_0_0_1_n_n.contr.Idx) :
    (dot_S256x128_S128x2048_S256x2048_1_0_0_1_n_n.lhsIdx i q 0).val = (i 0).val := by
  unfold DotDims.lhsIdx
  rw [dif_neg (show ¬(0 : Fin S256x128.rank) ∈ dot_S256x128_S128x2048_S256x2048_1_0_0_1_n_n.lhsBatch by decide), dif_pos (show (0 : Fin S256x128.rank) ∈ dot_S256x128_S128x2048_S256x2048_1_0_0_1_n_n.lhsNonContracting by decide)]
  rfl
theorem lhs_pay7_1 (i : S256x2048.Idx) (q : dot_S256x128_S128x2048_S256x2048_1_0_0_1_n_n.contr.Idx) :
    (dot_S256x128_S128x2048_S256x2048_1_0_0_1_n_n.lhsIdx i q 1).val = (q ⟨0, by decide⟩).val :=
  dot_S256x128_S128x2048_S256x2048_1_0_0_1_n_n.lhsIdx_val_of_single rfl i q
theorem rhs_pay7_0 (i : S256x2048.Idx) (q : dot_S256x128_S128x2048_S256x2048_1_0_0_1_n_n.contr.Idx) :
    (dot_S256x128_S128x2048_S256x2048_1_0_0_1_n_n.rhsIdx i q 0).val = (q ⟨0, by decide⟩).val :=
  dot_S256x128_S128x2048_S256x2048_1_0_0_1_n_n.rhsIdx_val_of_single rfl i q
theorem rhs_pay7_1 (i : S256x2048.Idx) (q : dot_S256x128_S128x2048_S256x2048_1_0_0_1_n_n.contr.Idx) :
    (dot_S256x128_S128x2048_S256x2048_1_0_0_1_n_n.rhsIdx i q 1).val = (i 1).val := by
  unfold DotDims.rhsIdx
  rw [dif_neg (show ¬(1 : Fin S128x2048.rank) ∈ dot_S256x128_S128x2048_S256x2048_1_0_0_1_n_n.rhsBatch by decide), dif_pos (show (1 : Fin S128x2048.rank) ∈ dot_S256x128_S128x2048_S256x2048_1_0_0_1_n_n.rhsNonContracting by decide)]
  rfl

/-- The chunk's score of query row `r` against key row `j`: the inner product of the two rows. -/
theorem pay7_apply (q : FVec Ideal S256x128 .bf16) (Kc : Vec Ideal S2048x128 .bf16) (r : Fin 256) (j : Fin 2048) :
    k0_pay7 (F := Ideal) q Kc (ix2 r j) = ∑ d' : Fin 128, q (ix2 r d') * Kc (ix2 j d') := by
  unfold k0_pay7
  simp only [shapeCast_self]
  refine (Ideal.matmul_constant_zero_apply dot_S256x128_S128x2048_S256x2048_1_0_0_1_n_n none q _ (ix2 r j)).trans ?_
  rw [← Equiv.sum_comp (ValueIdx.contrEquiv1 dot_S256x128_S128x2048_S256x2048_1_0_0_1_n_n 128 rfl rfl).symm]
  refine Finset.sum_congr rfl fun k _ => ?_
  have hk := ValueIdx.contrEquiv1_symm_val dot_S256x128_S128x2048_S256x2048_1_0_0_1_n_n 128 rfl rfl k
  have el : dot_S256x128_S128x2048_S256x2048_1_0_0_1_n_n.lhsIdx (ix2 r j) ((ValueIdx.contrEquiv1 dot_S256x128_S128x2048_S256x2048_1_0_0_1_n_n 128 rfl rfl).symm k) = ix2 r k :=
    Shape.idx_ext₂ (lhs_pay7_0 _ _) ((lhs_pay7_1 _ _).trans hk)
  have er : dot_S256x128_S128x2048_S256x2048_1_0_0_1_n_n.rhsIdx (ix2 r j) ((ValueIdx.contrEquiv1 dot_S256x128_S128x2048_S256x2048_1_0_0_1_n_n 128 rfl rfl).symm k) = ix2 k j :=
    Shape.idx_ext₂ ((rhs_pay7_0 _ _).trans hk) (rhs_pay7_1 _ _)
  rw [el, er, transpose_ix2_apply]

/-- A column vector `[a]` cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The running maximum after the chunk: the larger of the old one and the chunk's largest score of the row. -/
theorem pay8_apply (q : FVec Ideal S256x128 .bf16) (Kc : Vec Ideal S2048x128 .bf16) (m : Vec Ideal S256x1 .f32) (r : Fin 256) :
    k0_pay8 (F := Ideal) q Kc m (ix2 r 0)
      = max (m (ix2 r 0)) ((Finset.univ : Finset (Fin 2048)).fold max ⊥ (fun j => k0_pay7 (F := Ideal) q Kc (ix2 r j))) := by
  unfold k0_pay8
  show max (m (ix2 r 0)) _ = _
  refine congrArg (max (m (ix2 r 0))) ?_
  refine (shapeCast_a_a1_apply _ _ r 0).trans ?_
  refine (Ideal.multiReduction_maximumf_single _ _ _ _ _ (ix1 r)).trans ?_
  have hb : (FloatOps.ofBits (F := Ideal) .f32 0xFF800000#32) = (⊥ : EReal) := by
    show Ideal.ofBits .f32 0xFF800000#32 = ⊥
    simp [Ideal.ofBits, Ideal.ieee]
  rw [hb]
  refine congrArg (fun f => Finset.fold max (⊥ : EReal) f Finset.univ) (funext fun k => ?_)
  exact congrArg (k0_pay7 (F := Ideal) q Kc) (Shape.idx_ext₂ rfl rfl)

/-- The old state's factor: `exp (m - m')`. -/
theorem pay9_apply (q : FVec Ideal S256x128 .bf16) (Kc : Vec Ideal S2048x128 .bf16) (m : Vec Ideal S256x1 .f32) (r : Fin 256) :
    k0_pay9 (F := Ideal) q Kc m (ix2 r 0) = Ideal.exp (m (ix2 r 0) - k0_pay8 (F := Ideal) q Kc m (ix2 r 0)) := by
  unfold k0_pay9
  rfl

/-- The chunk's weights: `exp (s_j - m')`. -/
theorem pay10_apply (q : FVec Ideal S256x128 .bf16) (Kc : Vec Ideal S2048x128 .bf16) (m : Vec Ideal S256x1 .f32) (r : Fin 256) (j : Fin 2048) :
    k0_pay10 (F := Ideal) q Kc m (ix2 r j)
      = Ideal.exp (k0_pay7 (F := Ideal) q Kc (ix2 r j) - k0_pay8 (F := Ideal) q Kc m (ix2 r 0)) := by
  unfold k0_pay10
  show Ideal.exp (k0_pay7 (F := Ideal) q Kc (ix2 r j) - broadcastTo S256x2048 (k0_pay8 (F := Ideal) q Kc m) broadcasts_S256x1_S256x2048 (ix2 r j)) = _
  rw [broadcastTo_a1_ab_apply]

/-- The running denominator after the chunk. -/
theorem pay11_apply (q : FVec Ideal S256x128 .bf16) (Kc : Vec Ideal S2048x128 .bf16) (m l : Vec Ideal S256x1 .f32) (r : Fin 256) :
    k0_pay11 (F := Ideal) q Kc m l (ix2 r 0)
      = k0_pay9 (F := Ideal) q Kc m (ix2 r 0) * l (ix2 r 0) + ∑ j : Fin 2048, k0_pay10 (F := Ideal) q Kc m (ix2 r j) := by
  unfold k0_pay11
  simp only [shapeCast_self]
  show k0_pay9 (F := Ideal) q Kc m (ix2 r 0) * l (ix2 r 0) + _ = _
  refine congrArg (k0_pay9 (F := Ideal) q Kc m (ix2 r 0) * l (ix2 r 0) + ·) ?_
  refine (shapeCast_a_a1_apply _ _ r 0).trans ?_
  refine (Ideal.multiReduction_add_single _ _ _ _ _ (ix1 r)).trans ?_
  refine Finset.sum_congr rfl fun k _ => ?_
  exact congrArg (k0_pay10 (F := Ideal) q Kc m) (Shape.idx_ext₂ rfl rfl)

theorem lhs_pay12_0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
theorem lhs_pay12_1 (i : S256x128.Idx) (q : dot_S256x2048_S2048x128_S256x128_1_0_0_1_n_n.contr.Idx) :
    (dot_S256x2048_S2048x128_S256x128_1_0_0_1_n_n.lhsIdx i q 1).val = (q ⟨0, by decide⟩).val :=
  dot_S256x2048_S2048x128_S256x128_1_0_0_1_n_n.lhsIdx_val_of_single rfl i q
theorem rhs_pay12_0 (i : S256x128.Idx) (q : dot_S256x2048_S2048x128_S256x128_1_0_0_1_n_n.contr.Idx) :
    (dot_S256x2048_S2048x128_S256x128_1_0_0_1_n_n.rhsIdx i q 0).val = (q ⟨0, by decide⟩).val :=
  dot_S256x2048_S2048x128_S256x128_1_0_0_1_n_n.rhsIdx_val_of_single rfl i q
theorem rhs_pay12_1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl

/-- The running numerator after the chunk, at column `d`. -/
theorem pay12_apply (q : FVec Ideal S256x128 .bf16) (Kc Vc : Vec Ideal S2048x128 .bf16) (m : Vec Ideal S256x1 .f32)
    (acc : Vec Ideal S256x128 .f32) (r : Fin 256) (d : Fin 128) :
    k0_pay12 (F := Ideal) q Kc Vc m acc (ix2 r d)
      = k0_pay9 (F := Ideal) q Kc m (ix2 r 0) * acc (ix2 r d)
        + ∑ j : Fin 2048, k0_pay10 (F := Ideal) q Kc m (ix2 r j) * Vc (ix2 j d) := by
  unfold k0_pay12
  simp only [shapeCast_self]
  show broadcastTo S256x128 (k0_pay9 (F := Ideal) q Kc m) broadcasts_S256x1_S256x128 (ix2 r d) * acc (ix2 r d) + _ = _
  rw [broadcastTo_a1_ab_apply]
  refine congrArg (k0_pay9 (F := Ideal) q Kc m (ix2 r 0) * acc (ix2 r d) + ·) ?_
  refine (Ideal.matmul_constant_zero_apply (φ₁ := .bf16) (φ₂ := .bf16) dot_S256x2048_S2048x128_S256x128_1_0_0_1_n_n none _ Vc (ix2 r d)).trans ?_
  rw [← Equiv.sum_comp (ValueIdx.contrEquiv1 dot_S256x2048_S2048x128_S256x128_1_0_0_1_n_n 2048 rfl rfl).symm]
  refine Finset.sum_congr rfl fun k _ => ?_
  have hk := ValueIdx.contrEquiv1_symm_val dot_S256x2048_S2048x128_S256x128_1_0_0_1_n_n 2048 rfl rfl k
  have el : dot_S256x2048_S2048x128_S256x128_1_0_0_1_n_n.lhsIdx (ix2 r d) ((ValueIdx.contrEquiv1 dot_S256x2048_S2048x128_S256x128_1_0_0_1_n_n 2048 rfl rfl).symm k) = ix2 r k :=
    Shape.idx_ext₂ (lhs_pay12_0 _ _) ((lhs_pay12_1 _ _).trans hk)
  have er : dot_S256x2048_S2048x128_S256x128_1_0_0_1_n_n.rhsIdx (ix2 r d) ((ValueIdx.contrEquiv1 dot_S256x2048_S2048x128_S256x128_1_0_0_1_n_n 2048 rfl rfl).symm k) = ix2 k d :=
    Shape.idx_ext₂ ((rhs_pay12_0 _ _).trans hk) (rhs_pay12_1 _ _)
  rw [el, er]
  rfl

/-- The scale is a real number. -/
theorem scale_real : ∃ σ : ℝ, Cert.Spec.scale = (σ : EReal) := by
  show ∃ σ : ℝ, Ideal.ieee 8 23 (0x3DB504F3#32 : BitVec 32) = σ
  unfold Ideal.ieee
  rw [if_neg (by decide), if_neg (by decide)]
  exact ⟨_, rfl⟩

/-- The cut of the 8192 rows into four chunks of 2048: chunk `c`'s row `j` is row `2048 c + j`. -/
def chunkEquiv : Fin 4 × Fin 2048 ≃ Fin 8192 where
  toFun p := ⟨2048 * p.1.val + p.2.val, by have := p.1.isLt; have := p.2.isLt; omega⟩
  invFun i := (⟨i.val / 2048, by have := i.isLt; omega⟩, ⟨i.val % 2048, by omega⟩)
  left_inv p := by
    have := p.1.isLt; have := p.2.isLt
    refine Prod.ext (Fin.ext ?_) (Fin.ext ?_)
    · show (2048 * p.1.val + p.2.val) / 2048 = p.1.val
      omega
    · show (2048 * p.1.val + p.2.val) % 2048 = p.2.val
      omega
  right_inv i := by
    refine Fin.ext ?_
    show 2048 * (i.val / 2048) + i.val % 2048 = i.val
    omega

theorem chunkEquiv_val (c : Fin 4) (j : Fin 2048) : (chunkEquiv (c, j)).val = 2048 * c.val + j.val := rfl

theorem trips_eq : k0_t1_loop.trips = 4 := by decide

/-! ### One chunk's update at a row and a column -/

/-- Over any chunk of keys and values: at row `r` and column `d` the three payloads are the streaming update of
    Math/Online.lean on the row's scores against the chunk and the chunk's values in column `d`. -/
theorem attnStep_core (q : FVec Ideal S256x128 .bf16) (Kc Vc : Vec Ideal S2048x128 .bf16) (m l : Vec Ideal S256x1 .f32)
    (acc : Vec Ideal S256x128 .f32) (r : Fin 256) (d : Fin 128) :
    (k0_pay5 (F := Ideal) (k0_pay8 (F := Ideal) q Kc m) (ix2 r 0), k0_pay11 (F := Ideal) q Kc m l (ix2 r 0),
        k0_pay12 (F := Ideal) q Kc Vc m acc (ix2 r d))
      = Cert.Math.Online.step (fun j : Fin 2048 => ∑ d' : Fin 128, q (ix2 r d') * Kc (ix2 j d')) (fun j : Fin 2048 => Vc (ix2 j d))
          (m (ix2 r 0), l (ix2 r 0), acc (ix2 r d)) := by
  rw [pay5_eq, pay11_apply, pay12_apply]
  simp only [pay10_apply, pay9_apply, pay8_apply, pay7_apply]
  rfl

/-- Chunk `k` of the loop: the same, the chunk read out of the whole key and value buffers. -/
theorem attnStep_apply (q : FVec Ideal S256x128 .bf16) (K V : Vec Ideal S8192x128 .bf16) (k : Fin k0_t1_loop.trips)
    (st : St Ideal) (r : Fin 256) (d : Fin 128) :
    ((attnStep q K V k st).1 (ix2 r 0), (attnStep q K V k st).2.1 (ix2 r 0), (attnStep q K V k st).2.2 (ix2 r d))
      = Cert.Math.Online.step (fun j : Fin 2048 => ∑ d' : Fin 128, q (ix2 r d') * View.ld K (chunk k) (ix2 j d'))
          (fun j : Fin 2048 => View.ld V (chunk k) (ix2 j d))
          (st.1 (ix2 r 0), st.2.1 (ix2 r 0), st.2.2 (ix2 r d)) :=
  attnStep_core q (View.ld K (chunk k)) (View.ld V (chunk k)) st.1 st.2.1 st.2.2 r d

/-- The same over real data: the chunk's scores and values are those of rows `2048 c + j`. -/
theorem attnStep_real (q : FVec Ideal S256x128 .bf16) (K V : Vec Ideal S8192x128 .bf16)
    (qr : Fin 128 → ℝ) (Kr Vr : S8192x128.Idx → ℝ) (sR vR : Fin 8192 → ℝ) (r : Fin 256) (d : Fin 128)
    (hsR : ∀ i, sR i = ∑ d' : Fin 128, qr d' * Kr (ix2 i d')) (hvR : ∀ i, vR i = Vr (ix2 i d))
    (hq : ∀ d', q (ix2 r d') = ((qr d' : ℝ) : EReal)) (hK : ∀ i, K i = ((Kr i : ℝ) : EReal)) (hV : ∀ i, V i = ((Vr i : ℝ) : EReal))
    (k : Fin k0_t1_loop.trips) (c : Fin 4) (hc : k.val = c.val) (st : St Ideal) :
    ((attnStep q K V k st).1 (ix2 r 0), (attnStep q K V k st).2.1 (ix2 r 0), (attnStep q K V k st).2.2 (ix2 r d))
      = Cert.Math.Online.step
          (fun j : Fin 2048 => ((sR (chunkEquiv (c, j)) : ℝ) : EReal))
          (fun j : Fin 2048 => ((vR (chunkEquiv (c, j)) : ℝ) : EReal))
          (st.1 (ix2 r 0), st.2.1 (ix2 r 0), st.2.2 (ix2 r d)) := by
  rw [attnStep_apply]
  have hrow : ∀ j : Fin 2048, 2048 * k.val + j.val < 8192 := fun j => by
    have := c.isLt; have := j.isLt; omega
  have hidx : ∀ j : Fin 2048, (⟨2048 * k.val + j.val, hrow j⟩ : Fin 8192) = chunkEquiv (c, j) := fun j =>
    Fin.ext (by show 2048 * k.val + j.val = 2048 * c.val + j.val; rw [hc])
  have hs : (fun j : Fin 2048 => ∑ d' : Fin 128, q (ix2 r d') * View.ld K (chunk k) (ix2 j d'))
      = (fun j : Fin 2048 => ((sR (chunkEquiv (c, j)) : ℝ) : EReal)) := by
    funext j
    rw [hsR, Cert.Math.Online.coe_sum]
    refine Finset.sum_congr rfl fun d' _ => ?_
    rw [ld_chunk_apply K k j d' (hrow j), hidx j, hq, hK, EReal.coe_mul]
  have hv : (fun j : Fin 2048 => View.ld V (chunk k) (ix2 j d))
      = (fun j : Fin 2048 => ((vR (chunkEquiv (c, j)) : ℝ) : EReal)) := by
    funext j
    rw [ld_chunk_apply V k j d (hrow j), hidx j, hV, hvR]
  rw [hs, hv]

/-! ### The tile's entry -/

/-- Entry (r, d) of the attention body's tile over real data: the softmax-attention row of query row `r`. -/
theorem attnBlock_apply (x : Vec Ideal S256x128 .bf16) (K V : Vec Ideal S8192x128 .bf16)
    (hx : ∀ i, ∃ r : ℝ, x i = (r : EReal)) (hK : ∀ i, ∃ r : ℝ, K i = (r : EReal)) (hV : ∀ i, ∃ r : ℝ, V i = (r : EReal))
    (r : Fin 256) (d : Fin 128) :
    attnBlock (F := Ideal) x K V (ix2 r d) = Cert.Spec.attnRow (fun d' => x (ix2 r d')) K V d := by
  choose xr hxr using hx
  choose Kr hKr using hK
  choose Vr hVr using hV
  obtain ⟨σ, hσ⟩ := scale_real
  -- the row's real scores (the scale on the query row's side) and the column's real values
  obtain ⟨sR, hsR⟩ : ∃ sR : Fin 8192 → ℝ, ∀ i, sR i = ∑ d' : Fin 128, (xr (ix2 r d') * σ) * Kr (ix2 i d') := ⟨_, fun _ => rfl⟩
  obtain ⟨vR, hvR⟩ : ∃ vR : Fin 8192 → ℝ, ∀ i, vR i = Vr (ix2 i d) := ⟨_, fun _ => rfl⟩
  have hq : ∀ d', k0_pay1 (F := Ideal) x (ix2 r d') = ((xr (ix2 r d') * σ : ℝ) : EReal) := fun d' => by
    rw [pay1_apply, hxr, hσ, EReal.coe_mul]
  -- the state after the loop is four chunk updates of the start
  have h0 : 0 < k0_t1_loop.trips := by decide
  have h1 : 1 < k0_t1_loop.trips := by decide
  have h2 : 2 < k0_t1_loop.trips := by decide
  have h3 : 3 < k0_t1_loop.trips := by decide
  have e4 : ∀ n, n = 4 → attnState (k0_pay1 (F := Ideal) x) K V n
      = attnStep (k0_pay1 (F := Ideal) x) K V ⟨3, h3⟩ (attnStep (k0_pay1 (F := Ideal) x) K V ⟨2, h2⟩
          (attnStep (k0_pay1 (F := Ideal) x) K V ⟨1, h1⟩ (attnStep (k0_pay1 (F := Ideal) x) K V ⟨0, h0⟩ attnInit))) := by
    intro n hn
    subst hn
    rw [attnState, dif_pos h3, attnState, dif_pos h2, attnState, dif_pos h1, attnState, dif_pos h0, attnState]
  have t0 : ((attnInit (F := Ideal)).1 (ix2 r 0), (attnInit (F := Ideal)).2.1 (ix2 r 0), (attnInit (F := Ideal)).2.2 (ix2 r d))
      = ((⊥ : EReal), (0 : EReal), (0 : EReal)) := by
    show (k0_pay2 (F := Ideal) (ix2 r 0), k0_pay3 (F := Ideal) (ix2 r 0), k0_pay4 (F := Ideal) (ix2 r d)) = _
    rw [pay2_apply, pay3_apply, pay4_apply]
  have t1 := attnStep_real (k0_pay1 (F := Ideal) x) K V (fun d' => xr (ix2 r d') * σ) Kr Vr sR vR r d hsR hvR hq hKr hVr
    ⟨0, h0⟩ 0 rfl attnInit
  rw [t0] at t1
  have t2 := attnStep_real (k0_pay1 (F := Ideal) x) K V (fun d' => xr (ix2 r d') * σ) Kr Vr sR vR r d hsR hvR hq hKr hVr
    ⟨1, h1⟩ 1 rfl (attnStep (k0_pay1 (F := Ideal) x) K V ⟨0, h0⟩ attnInit)
  rw [t1] at t2
  have t3 := attnStep_real (k0_pay1 (F := Ideal) x) K V (fun d' => xr (ix2 r d') * σ) Kr Vr sR vR r d hsR hvR hq hKr hVr
    ⟨2, h2⟩ 2 rfl (attnStep (k0_pay1 (F := Ideal) x) K V ⟨1, h1⟩ (attnStep (k0_pay1 (F := Ideal) x) K V ⟨0, h0⟩ attnInit))
  rw [t2] at t3
  have t4 := attnStep_real (k0_pay1 (F := Ideal) x) K V (fun d' => xr (ix2 r d') * σ) Kr Vr sR vR r d hsR hvR hq hKr hVr
    ⟨3, h3⟩ 3 rfl (attnStep (k0_pay1 (F := Ideal) x) K V ⟨2, h2⟩ (attnStep (k0_pay1 (F := Ideal) x) K V ⟨1, h1⟩
      (attnStep (k0_pay1 (F := Ideal) x) K V ⟨0, h0⟩ attnInit)))
  rw [t3] at t4
  -- the streaming recurrence ends with the softmax-weighted sum
  have key := Cert.Math.Online.four_chunks chunkEquiv sR vR
  rw [← t4] at key
  unfold attnBlock
  rw [pay6_apply, e4 _ trips_eq]
  refine key.trans ?_
  -- the scale moves from the query row to the score
  have hsc : Cert.Spec.score (fun d' => x (ix2 r d')) K = fun j => ((sR j : ℝ) : EReal) := by
    funext j
    unfold Cert.Spec.score
    simp only [hxr, hKr, hσ]
    rw [← Cert.Math.Online.sum_mul_scale (fun d' => xr (ix2 r d')) (fun d' => Kr (ix2 j d')) σ, hsR j, Cert.Math.Online.coe_sum]
    refine Finset.sum_congr rfl fun d' _ => ?_
    rw [EReal.coe_mul, EReal.coe_mul]
  unfold Cert.Spec.attnRow Cert.Spec.rowSum Cert.Spec.rowMax
  rw [hsc]
  refine Finset.sum_congr rfl fun i _ => ?_
  rw [hvR i, hVr]

end Cert.KernelIdeal.AttnValue

end
-- ==== Proof.Value.ScatBlock.lean ====
/-
  The scatter body's accumulation step at the exact reals, entry by entry: entry (r, col) of the new accumulator is the old
  one plus the sum over the chunk's 2048 edges of [edge j's destination id is this tile's node row r] times edge j's row
  entry: the 0/1 matrix is the widened compare of the ids against (512 × tile + row), its product with the edge rows a
  matrix product into zero, which at the exact reals is that sum.
-/
import proofs.«421498_j43611097924270_2_alg».proof.Proof.KernelIdeal.Fn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.ScatValue

open Idealize.ShloMosaic Idealize.ShloMosaic.TcCoe Idealize.ShloMosaic.ValueIdx
open Cert.KernelIdeal Cert.KernelIdeal.Gen Cert.KernelIdeal.Blocks

/-- The row's global node id as a word: 512 × tile plus the row inside the tile, the product and the sum taken in
    32-bit words, is the word of the natural number (words of naturals add and multiply like the naturals, modulo 2^32). -/
theorem scat_word (a r : ℕ) :
    IntOp.addi (Scalar.muli (BitVec.ofNat 32 a) 512#32) (BitVec.ofNat 32 r) = BitVec.ofNat 32 (512 * a + r) := by
  show BitVec.ofNat 32 a * BitVec.ofNat 32 512 + BitVec.ofNat 32 r = _
  rw [Nat.mul_comm 512 a, BitVec.ofNat_add, BitVec.ofNat_mul]

/-- The compare bit widened to 32 bits and read as a signed integer at the exact reals is 1 where the two words are
    equal and 0 where they differ. -/
theorem scat_bit (x y : BitVec 32) :
    (FloatOps.sitofp (F := Ideal) .f32 ((IntOp.cmpi .eq x y).setWidth 32) : EReal) = if x = y then (1 : EReal) else 0 := by
  have hc : IntOp.cmpi .eq x y = BitVec.ofBool (x == y) := rfl
  rw [hc]
  by_cases h : x = y
  · have hb : (x == y) = true := by simpa using h
    rw [hb, if_pos h]
    show ((((BitVec.ofBool true).setWidth 32).toInt : ℝ) : EReal) = 1
    rw [show ((BitVec.ofBool true).setWidth 32).toInt = 1 from by decide]
    simp
  · have hb : (x == y) = false := by simpa using h
    rw [hb, if_neg h]
    show ((((BitVec.ofBool false).setWidth 32).toInt : ℝ) : EReal) = 0
    rw [show ((BitVec.ofBool false).setWidth 32).toInt = 0 from by decide]
    simp

/-- THE 0/1 MATRIX at entry (r, j): the chunk's destination ids, one row of 2048, repeated down the 512 node rows and
    compared with each row's global node id (512 × tile + r, the row counter along axis 0 added to the tile's base); the
    compare bit widened and converted: 1 where edge j's destination is node row r of this tile, 0 elsewhere. -/
theorem scat_mask_apply (i : grid1.Coords) (d : Vec Ideal S1x2048 .i32) (r : Fin 512) (j : Fin 2048) :
    (sitofp (F := Ideal) .f32 (extui 32 (cmpi .eq (broadcastTo S512x2048 d broadcasts_S1x2048_S512x2048)
        (addi (broadcast S512x2048 (Scalar.muli (BitVec.ofNat 32 (i 0).val) 512#32)) (iota .tc S512x2048 32 [0] iota_S512x2048_d0_w32))) natLt_1_32)
      : FVec Ideal S512x2048 .f32) (ix2 r j)
      = if d (ix2 (0 : Fin 1) j) = BitVec.ofNat 32 (512 * (i 0).val + r.val) then (1 : EReal) else 0 := by
  have hb : broadcastTo S512x2048 d broadcasts_S1x2048_S512x2048 (ix2 r j)
      = d (ix2 (0 : Fin 1) j) := by
    exact broadcastTo_apply d broadcasts_S1x2048_S512x2048 (ix2 r j) (ix2 (0 : Fin 1) j) (fun a => match a with
      | ⟨0, _⟩ => by show (0 : ℕ) = if (1 : Nat) = 1 then 0 else r.val; rw [if_pos rfl]
      | ⟨1, _⟩ => by show j.val = if (2048 : Nat) = 1 then 0 else j.val; rw [if_neg (by decide)])
  have hi : iota .tc S512x2048 32 [0] iota_S512x2048_d0_w32 (ix2 r j) = BitVec.ofNat 32 r.val :=
    iota_single_apply .tc S512x2048 32 0 iota_S512x2048_d0_w32 (ix2 r j)
  rw [sitofp_apply, extui_apply]
  show (FloatOps.sitofp (F := Ideal) .f32 ((IntOp.cmpi .eq
      (broadcastTo S512x2048 d broadcasts_S1x2048_S512x2048 (ix2 r j))
      (IntOp.addi (Scalar.muli (BitVec.ofNat 32 (i 0).val) 512#32) (iota .tc S512x2048 32 [0] iota_S512x2048_d0_w32 (ix2 r j)))).setWidth 32) : EReal) = _
  rw [hb, hi, scat_word, scat_bit]

/-! The product's operand indices at output entry `o` and contraction index `q`: the left operand is read at
    (o's row, q), the right one at (q, o's column). -/

theorem scat_lhs_0 (o : S512x128.Idx) (q : Cert.KernelIdeal.dot_S512x2048_S2048x128_S512x128_1_0_0_1_n_n.contr.Idx) :
    (Cert.KernelIdeal.dot_S512x2048_S2048x128_S512x128_1_0_0_1_n_n.lhsIdx o q 0).val = (o 0).val := by
  unfold DotDims.lhsIdx
  rw [dif_neg (show ¬(0 : Fin S512x2048.rank) ∈ Cert.KernelIdeal.dot_S512x2048_S2048x128_S512x128_1_0_0_1_n_n.lhsBatch by decide), dif_pos (show (0 : Fin S512x2048.rank) ∈ Cert.KernelIdeal.dot_S512x2048_S2048x128_S512x128_1_0_0_1_n_n.lhsNonContracting by decide)]
  rfl
theorem scat_lhs_1 (o : S512x128.Idx) (q : Cert.KernelIdeal.dot_S512x2048_S2048x128_S512x128_1_0_0_1_n_n.contr.Idx) :
    (Cert.KernelIdeal.dot_S512x2048_S2048x128_S512x128_1_0_0_1_n_n.lhsIdx o q 1).val = (q ⟨0, by decide⟩).val :=
  Cert.KernelIdeal.dot_S512x2048_S2048x128_S512x128_1_0_0_1_n_n.lhsIdx_val_of_single rfl o q
theorem scat_rhs_0 (o : S512x128.Idx) (q : Cert.KernelIdeal.dot_S512x2048_S2048x128_S512x128_1_0_0_1_n_n.contr.Idx) :
    (Cert.KernelIdeal.dot_S512x2048_S2048x128_S512x128_1_0_0_1_n_n.rhsIdx o q 0).val = (q ⟨0, by decide⟩).val :=
  Cert.KernelIdeal.dot_S512x2048_S2048x128_S512x128_1_0_0_1_n_n.rhsIdx_val_of_single rfl o q
theorem scat_rhs_1 (o : S512x128.Idx) (q : Cert.KernelIdeal.dot_S512x2048_S2048x128_S512x128_1_0_0_1_n_n.contr.Idx) :
    (Cert.KernelIdeal.dot_S512x2048_S2048x128_S512x128_1_0_0_1_n_n.rhsIdx o q 1).val = (o 1).val := by
  unfold DotDims.rhsIdx
  rw [dif_neg (show ¬(1 : Fin S2048x128.rank) ∈ Cert.KernelIdeal.dot_S512x2048_S2048x128_S512x128_1_0_0_1_n_n.rhsBatch by decide), dif_pos (show (1 : Fin S2048x128.rank) ∈ Cert.KernelIdeal.dot_S512x2048_S2048x128_S512x128_1_0_0_1_n_n.rhsNonContracting by decide)]
  rfl

/-- THE MATRIX PRODUCT INTO ZERO at entry (r, col), at the exact reals: the sum over the 2048 contracted positions of
    the left operand's (r, j) times the right operand's (j, col); the contraction's one-axis index set re-indexed by
    `Fin 2048`. -/
theorem scat_matmul_apply (A : FVec Ideal S512x2048 .bf16) (B : FVec Ideal S2048x128 .bf16) (r : Fin 512) (col : Fin 128) :
    matmul (F := Ideal) Cert.KernelIdeal.dot_S512x2048_S2048x128_S512x128_1_0_0_1_n_n none A B (constant (F := Ideal) S512x128 .f32 0x00000000#32) (ix2 r col)
      = ∑ j : Fin 2048, A (ix2 r j) * B (ix2 j col) := by
  show FloatOps.matmul Cert.KernelIdeal.dot_S512x2048_S2048x128_S512x128_1_0_0_1_n_n none A B (constant (F := Ideal) S512x128 .f32 0x00000000#32) (ix2 r col) = _
  rw [Ideal.matmul_constant_zero_apply, ← Equiv.sum_comp (ValueIdx.contrEquiv1 Cert.KernelIdeal.dot_S512x2048_S2048x128_S512x128_1_0_0_1_n_n 2048 rfl rfl).symm]
  refine Finset.sum_congr rfl fun k _ => ?_
  have hk := ValueIdx.contrEquiv1_symm_val Cert.KernelIdeal.dot_S512x2048_S2048x128_S512x128_1_0_0_1_n_n 2048 rfl rfl k
  have el : Cert.KernelIdeal.dot_S512x2048_S2048x128_S512x128_1_0_0_1_n_n.lhsIdx (ix2 r col) ((ValueIdx.contrEquiv1 Cert.KernelIdeal.dot_S512x2048_S2048x128_S512x128_1_0_0_1_n_n 2048 rfl rfl).symm k) = ix2 r k := funext fun a => Fin.ext (by
    match a with
    | ⟨0, _⟩ => exact scat_lhs_0 _ _
    | ⟨1, _⟩ => exact (scat_lhs_1 _ _).trans hk)
  have er : Cert.KernelIdeal.dot_S512x2048_S2048x128_S512x128_1_0_0_1_n_n.rhsIdx (ix2 r col) ((ValueIdx.contrEquiv1 Cert.KernelIdeal.dot_S512x2048_S2048x128_S512x128_1_0_0_1_n_n 2048 rfl rfl).symm k) = ix2 k col := funext fun a => Fin.ext (by
    match a with
    | ⟨0, _⟩ => exact (scat_rhs_0 _ _).trans hk
    | ⟨1, _⟩ => exact scat_rhs_1 _ _)
  rw [el, er]

theorem scatStep_apply (i : grid1.Coords) (d : Vec Ideal S1x2048 .i32) (e : Vec Ideal S2048x128 .f32) (acc : Vec Ideal S512x128 .f32)
    (r : Fin 512) (col : Fin 128) :
    scatStep (F := Ideal) i d e acc (ix2 r col)
      = acc (ix2 r col) + ∑ j : Fin 2048, (if d (ix2 (0 : Fin 1) j) = BitVec.ofNat 32 (512 * (i 0).val + r.val) then (1 : EReal) else 0) * e (ix2 j col) := by
  unfold scatStep k1_pay2
  dsimp only
  simp only [shapeCast_self]
  rw [addf_apply, scat_matmul_apply]
  refine congrArg (acc (ix2 r col) + ·) (Finset.sum_congr rfl fun j _ => ?_)
  rw [truncf_apply, truncf_apply, scat_mask_apply]

theorem scatZero_apply (r : Fin 512) (col : Fin 128) : scatZero (F := Ideal) (ix2 r col) = (0 : EReal) := by
  unfold scatZero k1_pay1
  rw [shapeCast_self, broadcast_apply]
  exact Ideal.ofBits_zero_f32

end Cert.KernelIdeal.ScatValue

end
-- ==== Proof.Value.ScatArr.lean ====
/-
  Region 1's result array after the run, entry by entry, at the exact reals: entry (n, col) of the node array is the sum
  over ALL 8192 edges of [edge e's destination id is n] times edge e's row entry at col.

  The result window's block index follows the node tile only, so its block is written back once per node tile, after the
  tile's fourth chunk; what is written is the accumulator there, which is zero plus the four chunks' contributions in
  order; chunk k of node tile T reads the ids and the edge rows 2048k … 2048k + 2047 and compares against node 512T + r;
  and the four chunks' sums are the sum over all edges split at e = 2048k + j.
-/
import proofs.«421498_j43611097924270_2_alg».proof.Proof.KernelIdeal.Dat
import proofs.«421498_j43611097924270_2_alg».proof.Proof.Value.ScatBlock
import Idealize.ShloMosaic.Lib.Pipeline.Value
import Idealize.ShloMosaic.Lib.ValueIdx
import Mathlib.Algebra.BigOperators.Fin
import Mathlib.Logic.Equiv.Fin.Basic

set_option maxRecDepth 16384

noncomputable section

open scoped BigOperators

namespace Cert.KernelIdeal.ScatValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Blocks Cert.KernelIdeal.Frame

variable (V : (c : Dev nD) → (b : Ref sig .tc) → Buf (Elt Ideal) ((c : Thread nD τ).loc b))

/-! # The arrays and the blocks, at their literal types -/

/-- The destination ids, one row of 8192. -/
abbrev idsArr (c : Dev nD) : Vec Ideal S1x8192 .i32 := V c main_v52
/-- The edge rows. -/
abbrev rowsArr (c : Dev nD) : Vec Ideal S8192x128 .f32 := V c main_v51
/-- The ids' block at a grid position. -/
abbrev idsBlk (c : Dev nD) (t : Fin cfg1.N) : Vec Ideal S1x2048 .i32 := iblk1 V c 0 t
/-- The edge rows' block at a grid position. -/
abbrev rowsBlk (c : Dev nD) (t : Fin cfg1.N) : Vec Ideal S2048x128 .f32 := iblk1 V c 1 t

/-- Edge `e`'s contribution to entry (node `n`, column `col`): its row entry if its destination is `n`, else zero. -/
abbrev hit (c : Dev nD) (n : ℕ) (col : Fin 128) (e : Fin 8192) : EReal :=
  (if idsArr V c (ix2 (0 : Fin 1) e) = BitVec.ofNat 32 n then (1 : EReal) else 0) * rowsArr V c (ix2 e col)

/-! # The grid, decided once -/

/-- Position `t` is chunk `t % 4` of node tile `t / 4`: the tile coordinate, and every window's block index on both axes. -/
theorem grid_facts : ∀ t : Fin cfg1.N,
    (grid1.coords t 0).val = t.val / 4
    ∧ win1_0.index t (0 : Fin 2) = 0 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-! # A chunk's blocks are the arrays at the chunk's edges -/

/-- Chunk `k`'s ids are the ids of edges 2048k … 2048k + 2047. -/
theorem idsBlk_apply (c : Dev nD) (t : Fin cfg1.N) (k : ℕ) (hk : t.val % 4 = k) (j : Fin 2048) (h : 2048 * k + j.val < 8192) :
    idsBlk V c t (ix2 (0 : Fin 1) j) = idsArr V c (ix2 (0 : Fin 1) ⟨2048 * k + j.val, h⟩) := by
  obtain ⟨-, e0, e1, -⟩ := grid_facts t
  unfold idsBlk idsArr iblk1
  rw [View.read_apply]
  show V c main_v52 _ = V c main_v52 _
  congr 1
  funext a
  apply Fin.ext
  match a with
  | ⟨0, _⟩ => show win1_0.index t 0 * 1 + 1 * 0 = 0; rw [e0]
  | ⟨1, _⟩ => show win1_0.index t 1 * 2048 + 1 * j.val = 2048 * k + j.val; rw [e1, hk]; omega

/-- Chunk `k`'s edge rows are the rows of edges 2048k … 2048k + 2047. -/
theorem rowsBlk_apply (c : Dev nD) (t : Fin cfg1.N) (k : ℕ) (hk : t.val % 4 = k) (j : Fin 2048) (col : Fin 128) (h : 2048 * k + j.val < 8192) :
    rowsBlk V c t (ix2 j col) = rowsArr V c (ix2 ⟨2048 * k + j.val, h⟩ col) := by
  obtain ⟨-, -, -, e0, e1, -⟩ := grid_facts t
  unfold rowsBlk rowsArr iblk1
  rw [View.read_apply]
  show V c main_v51 _ = V c main_v51 _
  congr 1
  funext a
  apply Fin.ext
  match a with
  | ⟨0, _⟩ => show win1_1.index t 0 * 2048 + 1 * j.val = 2048 * k + j.val; rw [e0, hk]; omega
  | ⟨1, _⟩ => show win1_1.index t 1 * 128 + 1 * col.val = col.val; rw [e1]; omega

/-- One position's step, entry by entry: the accumulator plus the chunk's edges' contributions to node 512T + r. -/
theorem step_apply (c : Dev nD) (t : Fin cfg1.N) (T k : ℕ) (hT : t.val / 4 = T) (hk : t.val % 4 = k) (hk4 : k < 4)
    (acc : Vec Ideal S512x128 .f32) (r : Fin 512) (col : Fin 128) :
    scatStep (F := Ideal) (grid1.coords t) (idsBlk V c t) (rowsBlk V c t) acc (ix2 r col)
      = acc (ix2 r col) + ∑ j : Fin 2048, hit V c (512 * T + r.val) col ⟨2048 * k + j.val, by omega⟩ := by
  rw [scatStep_apply]
  congr 1
  refine Finset.sum_congr rfl fun j _ => ?_
  rw [idsBlk_apply V c t k hk j (by omega), rowsBlk_apply V c t k hk j col (by omega), (grid_facts t).1, hT]

/-! # The four chunks are all the edges -/

/-- A sum over the 8192 edges, split at e = 2048k + j into the four chunks' sums. -/
theorem sum_chunks (g : Fin 8192 → EReal) :
    ∑ e : Fin 8192, g e = ∑ k : Fin 4, ∑ j : Fin 2048, g ⟨2048 * k.val + j.val, by omega⟩ := by
  rw [← Fintype.sum_prod_type']
  refine (Fintype.sum_equiv (finProdFinEquiv (m := 4) (n := 2048)) _ _ fun p => ?_).symm
  exact congrArg g (Fin.ext (by show 2048 * p.1.val + p.2.val = p.2.val + 2048 * p.1.val; omega))

/-! # The accumulator at a node tile's last chunk -/

/-- After the fourth chunk of node tile T the accumulator's entry (r, col) is the sum over all edges of their
    contributions to node 512T + r: zero, then one step per chunk, each adding its 2048 edges'. -/
theorem acc_at_flush (c : Dev nD) (t : Fin cfg1.N) (h3 : t.val % 4 = 3) (r : Fin 512) (col : Fin 128) :
    scatAcc V c t.val t.isLt (ix2 r col) = ∑ e : Fin 8192, hit V c (512 * (t.val / 4) + r.val) col e := by
  have hN : t.val < 32 := lt_of_lt_of_eq t.isLt (show cfg1.N = 32 from N_1)
  have e3 := scatAcc_next V c t (by omega)
  have e2 := scatAcc_next V c ⟨t.val - 1, by omega⟩ (by show ¬ (t.val - 1) % 4 = 0; omega)
  have e1 := scatAcc_next V c ⟨t.val - 1 - 1, by omega⟩ (by show ¬ (t.val - 1 - 1) % 4 = 0; omega)
  have e0 := scatAcc_first V c ⟨t.val - 1 - 1 - 1, by omega⟩ (by show (t.val - 1 - 1 - 1) % 4 = 0; omega)
  dsimp only at e2 e1 e0
  rw [e3, step_apply V c t (t.val / 4) 3 rfl h3 (by omega),
    e2, step_apply V c ⟨t.val - 1, by omega⟩ (t.val / 4) 2 (by show (t.val - 1) / 4 = _; omega) (by show (t.val - 1) % 4 = _; omega) (by omega),
    e1, step_apply V c ⟨t.val - 1 - 1, by omega⟩ (t.val / 4) 1 (by show (t.val - 1 - 1) / 4 = _; omega) (by show (t.val - 1 - 1) % 4 = _; omega) (by omega),
    e0, step_apply V c ⟨t.val - 1 - 1 - 1, by omega⟩ (t.val / 4) 0 (by show (t.val - 1 - 1 - 1) / 4 = _; omega) (by show (t.val - 1 - 1 - 1) % 4 = _; omega) (by omega),
    scatZero_apply, zero_add, sum_chunks, Fin.sum_univ_four]
  rfl

/-! # From the blocks to the array -/

/-- The node array the region leaves, as one function of the ids and the edge rows. -/
def result (c : Dev nD) : Vec Ideal S4096x128 .f32 := fun i => ∑ e : Fin 8192, hit V c (i 0).val (i 1) e

/-- An entry of the accumulator at a node tile's last chunk is the result array's entry at the tile's row. -/
theorem acc_entry (c : Dev nD) (t : Fin cfg1.N) (h3 : t.val % 4 = 3) (y : S512x128.Idx) (i : S4096x128.Idx)
    (h0 : (i 0).val = 512 * (t.val / 4) + (y 0).val) (h1 : (i 1).val = (y 1).val) :
    scatAcc V c t.val t.isLt y = result V c i := by
  obtain ⟨r, col, rfl⟩ : ∃ (r : Fin 512) (col : Fin 128), y = ix2 r col := ⟨y 0, y 1, eq_ix2 y⟩
  rw [acc_at_flush V c t h3 r col]
  unfold result
  rw [h0, show i 1 = col from Fin.ext h1]

/-- What a writing-back position writes back is its block of the result array. -/
theorem flushed_eq (c : Dev nD) (t : Fin cfg1.N) (hf : (cfg1.win 2).flush t = true) :
    (dat1 V c).flushed 2 t = ((cfg1.win 2).blk t).view.read (Elt Ideal) (result V c) := by
  have h3 : t.val % 4 = 3 := (flush1_2 t).mp hf
  obtain ⟨-, -, -, -, -, e0, e1⟩ := grid_facts t
  show (cfg1.win 2).cut (grid1.coords t) ((dat1 V c).after 2 t) = _
  rw [after1_2]
  funext j
  exact acc_entry V c t h3 j (((cfg1.win 2).blk t).view.emb j)
    (by show win1_2.index t 0 * 512 + 1 * (j 0).val = 512 * (t.val / 4) + (j 0).val; rw [e0]; omega)
    (by show win1_2.index t 1 * 128 + 1 * (j 1).val = (j 1).val; rw [e1]; omega)

/-- An index of the node array is in position `t`'s block iff each coordinate is in the block's range on its axis. -/
theorem mem_blk (t : Fin cfg1.N) (i : S4096x128.Idx) :
    i ∈ ((cfg1.win 2).blk t).view.set ↔ ∀ a : Fin 2, win1_2.index t a * S512x128.size a ≤ (i a).val ∧ (i a).val < win1_2.index t a * S512x128.size a + S512x128.size a := by
  show i ∈ ((View.whole main_v53).slice (win1_2.rect t)).set ↔ _
  rw [View.set_slice_whole, Rect.mem_set_unit]
  exact Iff.rfl

/-- Every entry of the node array is in the block some writing-back position writes: row n is in node tile n / 512, whose
    last chunk is position 4 (n / 512) + 3. -/
theorem covered (i : S4096x128.Idx) : ∃ t : Fin cfg1.N, (cfg1.win 2).flush t = true ∧ i ∈ ((cfg1.win 2).blk t).view.set := by
  have hi0 : (i 0).val < 4096 := (i 0).isLt
  have hi1 : (i 1).val < 128 := (i 1).isLt
  have hN : cfg1.N = 32 := N_1
  refine ⟨⟨4 * ((i 0).val / 512) + 3, by omega⟩, (flush1_2 _).mpr (by show (4 * ((i 0).val / 512) + 3) % 4 = 3; omega), ?_⟩
  obtain ⟨-, -, -, -, -, e0, e1⟩ := grid_facts ⟨4 * ((i 0).val / 512) + 3, by omega⟩
  rw [mem_blk]
  intro a
  match a with
  | ⟨0, _⟩ =>
    show win1_2.index _ (0 : Fin 2) * 512 ≤ (i 0).val ∧ (i 0).val < win1_2.index _ (0 : Fin 2) * 512 + 512
    rw [e0]; dsimp only; omega
  | ⟨1, _⟩ =>
    show win1_2.index _ (1 : Fin 2) * 128 ≤ (i 1).val ∧ (i 1).val < win1_2.index _ (1 : Fin 2) * 128 + 128
    rw [e1]; omega

/-- THE NODE ARRAY after the run is the result array. -/
theorem final (c : Dev nD) : (dat1 V c).arrAt 2 cfg1.N = result V c :=
  (dat1 V c).arrAt_eq_of_cover 2 (result V c) (flushed_eq V c) covered

/-- Entry by entry: the node array's entry (n, col) after the run is the sum over all edges of [edge e's destination
    id is n] times edge e's row entry at col. -/
theorem scat_array (c : Dev nD) (n : Fin 4096) (col : Fin 128) :
    ((dat1 (F := Ideal) V c).arrAt 2 cfg1.N : Vec Ideal S4096x128 .f32) (ix2 n col)
      = ∑ e : Fin 8192, (if (V c main_v52 : Vec Ideal S1x8192 .i32) (ix2 (0 : Fin 1) e) = BitVec.ofNat 32 n.val then (1 : EReal) else 0)
          * (V c main_v51 : Vec Ideal S8192x128 .f32) (ix2 e col) := by
  rw [final V c]
  rfl

end Cert.KernelIdeal.ScatValue

end
-- ==== Proof.Value.ScatSpec.lean ====
/-
  The host's accumulating scatter of this program, entry by entry: node n's entry in column col is the sum over the 8192
  edges of [edge e's destination id is n] times edge e's entry in that column. The scatter reads each id signed and
  unclamped and drops an update that lands outside the 4096 node rows; an id word equals the word of n (n < 4096) exactly
  when its signed value is n.
-/
import proofs.«421498_j43611097924270_2_alg».proof.Proof.Value.Spec
import Idealize.ShloMosaic.PureOps.Ideal.Laws
import Idealize.ShloMosaic.Lib.ValueIdx

set_option maxRecDepth 16384

noncomputable section

namespace Cert.Spec

open Idealize.ShloMosaic Idealize.ShloMosaic.TcCoe Idealize.ShloMosaic.ValueIdx
open Cert.ReferenceIdeal Cert.ReferenceIdeal.Gen Cert.ReferenceIdeal.Read

/-- The scatter's dimension numbers: updates (edge, column), one id per edge, the id naming the node row, the update's
    column axis going to the operand's column axis. -/
local notation "scatD" => scatter_S4096x128_S8192x1_S8192x128_1_0_0_1

/-! ## Where one update lands -/

/-- On the row axis the window of update (e, c') starts at edge e's id, read signed: the row axis is the one axis the
    ids name, and the id of update (e, c') sits at (e, 0) of the id array. -/
theorem scat_start_row (j : S8192x128.Idx) (idx : IVec S8192x1 32) :
    ScatterDims.start scatD j idx 0 = (idx (ix2 (j 0) (0 : Fin 1))).toInt := by
  unfold ScatterDims.start
  rw [dif_pos (show (0 : Fin 2) ∈ (scatD).scatterDimsToOperandDims from List.mem_singleton.mpr rfl)]
  have hsi : (scatD).siIdx j ⟨List.idxOf (0 : Fin 2) (scatD).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no id names, the window starts at 0. -/
theorem scat_start_col (j : S8192x128.Idx) (idx : IVec S8192x1 32) :
    ScatterDims.start scatD j idx 1 = 0 := by
  unfold ScatterDims.start
  rw [dif_neg (show ¬ (1 : Fin 2) ∈ (scatD).scatterDimsToOperandDims from by
    intro h; exact absurd (List.mem_singleton.mp h) (by decide))]

/-- The row axis is an inserted one: the window has no extent there. -/
theorem scat_window_row (j : S8192x128.Idx) : ScatterDims.window scatD j 0 = 0 := by
  unfold ScatterDims.window
  rw [dif_neg (show ¬ (0 : Fin 2) ∈ (scatD).sKept from by decide)]

/-- On the column axis the window coordinate is the update's own column. -/
theorem scat_window_col (j : S8192x128.Idx) : ScatterDims.window scatD j 1 = (j 1).val := by
  unfold ScatterDims.window
  rw [dif_pos (show (1 : Fin 2) ∈ (scatD).sKept from by decide)]
  rfl

/-- Update j lands on entry (n, col) exactly when its edge's id, read signed, is n and its column is col: start plus
    window is (id, column), inside the 4096 × 128 operand exactly when 0 ≤ id < 4096 (the column always is), and then
    it is that pair. -/
theorem scat_resultIdx?_eq_some (j : S8192x128.Idx) (idx : IVec S8192x1 32) (n : Fin 4096) (col : Fin 128) :
    ScatterDims.resultIdx? scatD j idx = some (ix2 n col)
      ↔ (idx (ix2 (j 0) (0 : Fin 1))).toInt = (n.val : Int) ∧ j 1 = col := by
  have hj1 : (j 1).val < 128 := idx2_lt1 j
  have hn : n.val < 4096 := n.isLt
  have hc : col.val < 128 := col.isLt
  unfold ScatterDims.resultIdx?
  by_cases h : ∀ a, 0 ≤ ScatterDims.start scatD j idx a + ScatterDims.window scatD j a ∧
      ScatterDims.start scatD j idx a + ScatterDims.window scatD j a < S4096x128.size a
  · -- the update lands inside: compare the landing pair with (n, col) coordinate by coordinate
    rw [dif_pos h]
    constructor
    · intro he
      have he' := Option.some.inj he
      have h0 := congrArg (fun f => (f 0).val) he'
      have h1 := congrArg (fun f => (f 1).val) he'
      have g0 := (h 0).1
      simp only [scat_start_row, scat_window_row, scat_start_col, scat_window_col] at h0 h1 g0
      refine ⟨?_, Fin.ext ?_⟩
      · change ((idx (ix2 (j 0) (0 : Fin 1))).toInt + ((0 : Nat) : Int)).toNat = n.val at h0
        omega
      · change ((0 : Int) + ((j 1).val : Int)).toNat = col.val at h1
        omega
    · rintro ⟨e0, e1⟩
      congr 1
      funext a
      refine Fin.ext ?_
      match a with
      | ⟨0, _⟩ =>
        show (ScatterDims.start scatD j idx 0 + ScatterDims.window scatD j 0).toNat = n.val
        rw [scat_start_row, scat_window_row, e0]; omega
      | ⟨1, _⟩ =>
        show (ScatterDims.start scatD j idx 1 + ScatterDims.window scatD j 1).toNat = col.val
        rw [scat_start_col, scat_window_col, e1]; omega
  · -- the update is dropped: then its id is not n, for id = n < 4096 would put it inside
    rw [dif_neg h]
    constructor
    · intro he; exact absurd he (by simp)
    · rintro ⟨e0, e1⟩
      exfalso; apply h
      intro a
      match a with
      | ⟨0, _⟩ =>
        show 0 ≤ ScatterDims.start scatD j idx 0 + ScatterDims.window scatD j 0 ∧
          ScatterDims.start scatD j idx 0 + ScatterDims.window scatD j 0 < ((4096 : Nat) : Int)
        rw [scat_start_row, scat_window_row, e0]; omega
      | ⟨1, _⟩ =>
        show 0 ≤ ScatterDims.start scatD j idx 1 + ScatterDims.window scatD j 1 ∧
          ScatterDims.start scatD j idx 1 + ScatterDims.window scatD j 1 < ((128 : Nat) : Int)
        rw [scat_start_col, scat_window_col]; omega

/-! ## An id word and its signed value -/

/-- For n < 4096 < 2^31 a 32-bit word has signed value n exactly when it is the word of n: a word below 2^31 is its own
    signed value, one from 2^31 on has a negative one. -/
theorem toInt_eq_natCast_iff_eq_ofNat (w : BitVec 32) (n : Nat) (hn : n < 4096) :
    w.toInt = (n : Int) ↔ w = BitVec.ofNat 32 n := by
  have hw : w.toNat < 4294967296 := w.isLt
  constructor
  · intro h
    apply BitVec.eq_of_toNat_eq
    rw [BitVec.toNat_ofNat]
    rw [BitVec.toInt_eq_toNat_cond] at h
    split_ifs at h <;> omega
  · intro h
    subst h
    rw [BitVec.toInt_eq_toNat_cond, BitVec.toNat_ofNat]
    have : n % 2 ^ 32 = n := Nat.mod_eq_of_lt (by omega)
    rw [this, if_pos (by omega)]

/-! ## The scatter, entry by entry -/

theorem scatArr_apply (dst : S8192.Idx → BitVec 32) (x : S8192x128.Idx → EReal) (n : Fin 4096) (col : Fin 128) :
    scatArr dst x (ix2 n col)
      = ∑ e : Fin 8192, (if dst (ix1 e) = BitVec.ofNat 32 n.val then (1 : EReal) else 0) * x (ix2 e col) := by
  -- the operand is the zero array
  have hz : val_main_v74 (F := Ideal) (ix2 n col) = 0 := by
    rw [val_main_v74_apply, val_main_cst_8_apply, Ideal.ofBits_def, Ideal.ofBits_zero_f32]
  -- at the exact reals: the operand's entry plus the sum of the updates that land on it
  show Ideal.hostScatterAdd scatD (val_main_v74 (F := Ideal))
      (broadcastInDim S8192x1 ![0] bcast_S8192_S8192x1_0 dst) x (ix2 n col) = _
  unfold Ideal.hostScatterAdd
  -- the sum over the landing updates is the sum over all (e, c') of the update where it lands on (n, col), else 0
  rw [hz, zero_add, Finset.sum_filter, sum_idx2]
  refine Finset.sum_congr rfl fun e _ => ?_
  -- the id array at (e, 0) is edge e's id
  have hidx : broadcastInDim S8192x1 ![0] bcast_S8192_S8192x1_0 dst (ix2 e (0 : Fin 1)) = dst (ix1 e) :=
    broadcastInDim_apply _ bcast_S8192_S8192x1_0 dst (ix2 e (0 : Fin 1)) (ix1 e) (fun a => match a with
      | ⟨0, _⟩ => by show e.val = if (8192 : Nat) = 1 then 0 else e.val; rw [if_neg (by decide)])
  -- update (e, c') lands on (n, col) exactly when edge e's id is the word of n and c' = col
  have hP : ∀ c' : Fin 128,
      (ScatterDims.resultIdx? scatD (ix2 e c') (broadcastInDim S8192x1 ![0] bcast_S8192_S8192x1_0 dst) = some (ix2 n col))
        ↔ (dst (ix1 e) = BitVec.ofNat 32 n.val ∧ c' = col) := by
    intro c'
    rw [scat_resultIdx?_eq_some]
    show (broadcastInDim S8192x1 ![0] bcast_S8192_S8192x1_0 dst (ix2 e (0 : Fin 1))).toInt = (n.val : Int) ∧ c' = col ↔ _
    rw [hidx, toInt_eq_natCast_iff_eq_ofNat _ _ n.isLt]
  simp only [hP]
  -- of edge e's 128 updates only column col's can land there: the inner sum is the indicator times x (e, col)
  by_cases hd : dst (ix1 e) = BitVec.ofNat 32 n.val
  · simp only [hd, true_and, if_true, one_mul]
    rw [Finset.sum_ite_eq' Finset.univ col (fun c' => x (ix2 e c')), if_pos (Finset.mem_univ col)]
  · simp only [hd, false_and, if_false, zero_mul, Finset.sum_const_zero]

end Cert.Spec

end
-- ==== Proof.Value.HostValue.lean ====
/-
  What the idealized kernel's host operations leave in the three arrays the attention region reads and in the id array
  the scatter region reads, as the SAME functions of the arguments that the reference's own stages are: the kernel's
  wrapper concatenates the three node-side (and the three edge-side) weight matrices and bias vectors, projects once and
  splits the result in three; column d of the q / k / v third of the fused projection is the separate projection's
  column d, the gathers take the same rows by the same (negative-wrapped) ids, the products are entrywise, and a change
  of float format is the identity at the exact reals. The scatter's ids are the second row of the index array, relaid
  as one row of 8192.
-/
import proofs.«421498_j43611097924270_2_alg».proof.Proof.KernelIdeal.Run
import proofs.«421498_j43611097924270_2_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen Cert.KernelIdeal.Frame

/-! ## An operation over three references -/

section Nary3
open Idealize.ShloMosaic.StableHlo
variable {τ : Topo} {sig : RefSig} {Val : EltTy → Type}
variable {x a b y : Ref sig .tc}

/-- A three-operand operation leaves in its result its function of the three operands' contents, each read at its own
    reference. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

end Nary3

/-- Reads a buffer after a list of host operations as the operations' composed term: each operation's result at its own
    buffer is its function of its operands' contents, and every other buffer is as before. -/
local macro "host_results" : tactic =>
  `(tactic| (simp only [StableHlo.after_cons, StableHlo.after_nil]
             repeat (first
               | rw [StableHlo.nullary_result] | rw [StableHlo.unary_result] | rw [StableHlo.binary_result] | rw [StableHlo.ternary_result]
               | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

/-! ## The fused projections, as terms of the arguments -/

section Terms
variable {F : FTy → Type} [FloatOps F]

/-- The node features against the three node-side weight matrices stacked along their rows, plus the three stacked
    bias vectors along every row: one [4096, 384] projection whose column thirds are the q, k and v projections. -/
def projN (x0 : Vec F S4096x256 .f32) (w0 w1 w2 : Vec F S128x256 .f32) (b0 b1 b2 : Vec F S128 .f32) : Vec F S4096x384 .f32 :=
  addf (Host.dotGeneral dot_S4096x256_S256x384_S4096x384_1_0_0_1_n_n none x0
      (transpose S256x384 [1, 0] (concatenate S384x256 0 [⟨S128x256, w0⟩, ⟨S128x256, w1⟩, ⟨S128x256, w2⟩] concatenates_S128x256_S128x256_S128x256_S384x256_d0) transposes_S384x256_S256x384_1_0))
    (broadcastInDim S4096x384 ![0, 1] bcast_S1x384_S4096x384_0_1 (broadcastInDim S1x384 ![1] bcast_S384_S1x384_1
      (concatenate S384 0 [⟨S128, b0⟩, ⟨S128, b1⟩, ⟨S128, b2⟩] concatenates_S128_S128_S128_S384_d0)))

/-- The same over the edge features: one [8192, 384] projection. -/
def projE (x2 : Vec F S8192x128 .f32) (u0 u1 u2 : Vec F S128x128 .f32) (d0 d1 d2 : Vec F S128 .f32) : Vec F S8192x384 .f32 :=
  addf (Host.dotGeneral dot_S8192x128_S128x384_S8192x384_1_0_0_1_n_n none x2
      (transpose S128x384 [1, 0] (concatenate S384x128 0 [⟨S128x128, u0⟩, ⟨S128x128, u1⟩, ⟨S128x128, u2⟩] concatenates_S128x128_S128x128_S128x128_S384x128_d0) transposes_S384x128_S128x384_1_0))
    (broadcastInDim S8192x384 ![0, 1] bcast_S1x384_S8192x384_0_1 (broadcastInDim S1x384 ![1] bcast_S384_S1x384_1
      (concatenate S384 0 [⟨S128, d0⟩, ⟨S128, d1⟩, ⟨S128, d2⟩] concatenates_S128_S128_S128_S384_d0)))

/-- One of the three arrays the attention region reads: the column third at `off` of the node projection, its rows taken
    by the ids `I`, times the same column third of the edge projection entrywise, in the narrower float format. -/
def attnRows (off : Fin 2 → Nat) (hN : S4096x384.Slices off S4096x128) (hE : S8192x384.Slices off S8192x128)
    (P : Vec F S4096x384 .f32) (I : Vec F S8192x1 .i32) (E : Vec F S8192x384 .f32) : Vec F S8192x128 .bf16 :=
  truncf .bf16 (mulf (Host.gather gather_S4096x128_S8192x1_S8192x128_1_0_n_n_0_1_1128 (extractStridedSlice S4096x128 off P hN) I)
    (extractStridedSlice S8192x128 off E hE)) bitsLt_bf16_f32

end Terms

/-! ## A fused dot product at an index (at the exact reals) -/

section Dots

theorem dotN_l0 (i : S4096x384.Idx) (q : dot_S4096x256_S256x384_S4096x384_1_0_0_1_n_n.contr.Idx) :
    (dot_S4096x256_S256x384_S4096x384_1_0_0_1_n_n.lhsIdx i q 0).val = (i 0).val := by
  unfold DotDims.lhsIdx
  rw [dif_neg (show ¬(0 : Fin S4096x256.rank) ∈ dot_S4096x256_S256x384_S4096x384_1_0_0_1_n_n.lhsBatch by decide), dif_pos (show (0 : Fin S4096x256.rank) ∈ dot_S4096x256_S256x384_S4096x384_1_0_0_1_n_n.lhsNonContracting by decide)]
  rfl
theorem dotN_r1 (i : S4096x384.Idx) (q : dot_S4096x256_S256x384_S4096x384_1_0_0_1_n_n.contr.Idx) :
    (dot_S4096x256_S256x384_S4096x384_1_0_0_1_n_n.rhsIdx i q 1).val = (i 1).val := by
  unfold DotDims.rhsIdx
  rw [dif_neg (show ¬(1 : Fin S256x384.rank) ∈ dot_S4096x256_S256x384_S4096x384_1_0_0_1_n_n.rhsBatch by decide), dif_pos (show (1 : Fin S256x384.rank) ∈ dot_S4096x256_S256x384_S4096x384_1_0_0_1_n_n.rhsNonContracting by decide)]
  rfl

/-- Entry (r, q) of the node-side product is the sum over the 256 features. -/
theorem dotN_apply (x0 : Vec Ideal S4096x256 .f32) (y : Vec Ideal S256x384 .f32) (r : Fin 4096) (q : Fin 384) :
    Host.dotGeneral (F := Ideal) (φ₁ := .f32) (φ₂ := .f32) dot_S4096x256_S256x384_S4096x384_1_0_0_1_n_n none x0 y (ix2 r q)
      = ∑ k : Fin 256, x0 (ix2 r k) * y (ix2 k q) := by
  simp only [Host.dotGeneral]
  rw [Ideal.dotGeneral_apply, ← Equiv.sum_comp (ValueIdx.contrEquiv1 dot_S4096x256_S256x384_S4096x384_1_0_0_1_n_n 256 rfl rfl).symm]
  refine Finset.sum_congr rfl fun k _ => ?_
  have hk := ValueIdx.contrEquiv1_symm_val dot_S4096x256_S256x384_S4096x384_1_0_0_1_n_n 256 rfl rfl k
  have el : dot_S4096x256_S256x384_S4096x384_1_0_0_1_n_n.lhsIdx (ix2 r q) ((ValueIdx.contrEquiv1 dot_S4096x256_S256x384_S4096x384_1_0_0_1_n_n 256 rfl rfl).symm k) = ix2 r k := funext fun a => Fin.ext (by
    match a with
    | ⟨0, _⟩ => exact dotN_l0 _ _
    | ⟨1, _⟩ => exact (dot_S4096x256_S256x384_S4096x384_1_0_0_1_n_n.lhsIdx_val_of_single rfl _ _).trans hk)
  have er : dot_S4096x256_S256x384_S4096x384_1_0_0_1_n_n.rhsIdx (ix2 r q) ((ValueIdx.contrEquiv1 dot_S4096x256_S256x384_S4096x384_1_0_0_1_n_n 256 rfl rfl).symm k) = ix2 k q := funext fun a => Fin.ext (by
    match a with
    | ⟨0, _⟩ => exact (dot_S4096x256_S256x384_S4096x384_1_0_0_1_n_n.rhsIdx_val_of_single rfl _ _).trans hk
    | ⟨1, _⟩ => exact dotN_r1 _ _)
  rw [el, er]

theorem dotE_l0 (i : S8192x384.Idx) (q : dot_S8192x128_S128x384_S8192x384_1_0_0_1_n_n.contr.Idx) :
    (dot_S8192x128_S128x384_S8192x384_1_0_0_1_n_n.lhsIdx i q 0).val = (i 0).val := by
  unfold DotDims.lhsIdx
  rw [dif_neg (show ¬(0 : Fin S8192x128.rank) ∈ dot_S8192x128_S128x384_S8192x384_1_0_0_1_n_n.lhsBatch by decide), dif_pos (show (0 : Fin S8192x128.rank) ∈ dot_S8192x128_S128x384_S8192x384_1_0_0_1_n_n.lhsNonContracting by decide)]
  rfl
theorem dotE_r1 (i : S8192x384.Idx) (q : dot_S8192x128_S128x384_S8192x384_1_0_0_1_n_n.contr.Idx) :
    (dot_S8192x128_S128x384_S8192x384_1_0_0_1_n_n.rhsIdx i q 1).val = (i 1).val := by
  unfold DotDims.rhsIdx
  rw [dif_neg (show ¬(1 : Fin S128x384.rank) ∈ dot_S8192x128_S128x384_S8192x384_1_0_0_1_n_n.rhsBatch by decide), dif_pos (show (1 : Fin S128x384.rank) ∈ dot_S8192x128_S128x384_S8192x384_1_0_0_1_n_n.rhsNonContracting by decide)]
  rfl

/-- Entry (r, q) of the edge-side product is the sum over the 128 features. -/
theorem dotE_apply (x2 : Vec Ideal S8192x128 .f32) (y : Vec Ideal S128x384 .f32) (r : Fin 8192) (q : Fin 384) :
    Host.dotGeneral (F := Ideal) (φ₁ := .f32) (φ₂ := .f32) dot_S8192x128_S128x384_S8192x384_1_0_0_1_n_n none x2 y (ix2 r q)
      = ∑ k : Fin 128, x2 (ix2 r k) * y (ix2 k q) := by
  simp only [Host.dotGeneral]
  rw [Ideal.dotGeneral_apply, ← Equiv.sum_comp (ValueIdx.contrEquiv1 dot_S8192x128_S128x384_S8192x384_1_0_0_1_n_n 128 rfl rfl).symm]
  refine Finset.sum_congr rfl fun k _ => ?_
  have hk := ValueIdx.contrEquiv1_symm_val dot_S8192x128_S128x384_S8192x384_1_0_0_1_n_n 128 rfl rfl k
  have el : dot_S8192x128_S128x384_S8192x384_1_0_0_1_n_n.lhsIdx (ix2 r q) ((ValueIdx.contrEquiv1 dot_S8192x128_S128x384_S8192x384_1_0_0_1_n_n 128 rfl rfl).symm k) = ix2 r k := funext fun a => Fin.ext (by
    match a with
    | ⟨0, _⟩ => exact dotE_l0 _ _
    | ⟨1, _⟩ => exact (dot_S8192x128_S128x384_S8192x384_1_0_0_1_n_n.lhsIdx_val_of_single rfl _ _).trans hk)
  have er : dot_S8192x128_S128x384_S8192x384_1_0_0_1_n_n.rhsIdx (ix2 r q) ((ValueIdx.contrEquiv1 dot_S8192x128_S128x384_S8192x384_1_0_0_1_n_n 128 rfl rfl).symm k) = ix2 k q := funext fun a => Fin.ext (by
    match a with
    | ⟨0, _⟩ => exact (dot_S8192x128_S128x384_S8192x384_1_0_0_1_n_n.rhsIdx_val_of_single rfl _ _).trans hk
    | ⟨1, _⟩ => exact dotE_r1 _ _)
  rw [el, er]

end Dots

/-! ## Three stacked pieces at an index: row 128·s + d of the stack is row d of piece s -/

section Stack
variable {α : Type}

theorem stackW_apply (w0 w1 w2 : S128x256.Idx → α) (s : Fin 3) (d : Fin 128) (k : Fin 256) (q : Fin 384) (hq : q.val = 128 * s.val + d.val) :
    concatenate S384x256 0 [⟨S128x256, w0⟩, ⟨S128x256, w1⟩, ⟨S128x256, w2⟩] concatenates_S128x256_S128x256_S128x256_S384x256_d0 (ix2 q k)
      = (![w0, w1, w2] s) (ix2 d k) := by
  have hi : ∀ b : Fin S128x256.rank, b.cast (rfl : S128x256.rank = S384x256.rank) ≠ (0 : Fin S384x256.rank) → ((ix2 d k : S128x256.Idx) b).val = ((ix2 q k : S384x256.Idx) (b.cast rfl)).val :=
    fun b hb => by
      match b with
      | ⟨0, _⟩ => exact absurd rfl hb
      | ⟨1, _⟩ => rfl
  fin_cases s
  · exact concatenate_apply_piece (t := S384x256) 0 [⟨S128x256, w0⟩, ⟨S128x256, w1⟩, ⟨S128x256, w2⟩] concatenates_S128x256_S128x256_S128x256_S384x256_d0 (ix2 q k) 0 (show (0 : Nat) < 3 by omega) S128x256 w0 rfl rfl 0 rfl (ix2 d k) hi (by show 0 + d.val = q.val; rw [hq]; show 0 + d.val = 128 * 0 + d.val; omega)
  · exact concatenate_apply_piece (t := S384x256) 0 [⟨S128x256, w0⟩, ⟨S128x256, w1⟩, ⟨S128x256, w2⟩] concatenates_S128x256_S128x256_S128x256_S384x256_d0 (ix2 q k) 1 (show (1 : Nat) < 3 by omega) S128x256 w1 rfl rfl 128 rfl (ix2 d k) hi (by show 128 + d.val = q.val; rw [hq]; show 128 + d.val = 128 * 1 + d.val; omega)
  · exact concatenate_apply_piece (t := S384x256) 0 [⟨S128x256, w0⟩, ⟨S128x256, w1⟩, ⟨S128x256, w2⟩] concatenates_S128x256_S128x256_S128x256_S384x256_d0 (ix2 q k) 2 (show (2 : Nat) < 3 by omega) S128x256 w2 rfl rfl 256 rfl (ix2 d k) hi (by show 256 + d.val = q.val; rw [hq]; show 256 + d.val = 128 * 2 + d.val; omega)

theorem stackU_apply (u0 u1 u2 : S128x128.Idx → α) (s : Fin 3) (d : Fin 128) (k : Fin 128) (q : Fin 384) (hq : q.val = 128 * s.val + d.val) :
    concatenate S384x128 0 [⟨S128x128, u0⟩, ⟨S128x128, u1⟩, ⟨S128x128, u2⟩] concatenates_S128x128_S128x128_S128x128_S384x128_d0 (ix2 q k)
      = (![u0, u1, u2] s) (ix2 d k) := by
  have hi : ∀ b : Fin S128x128.rank, b.cast (rfl : S128x128.rank = S384x128.rank) ≠ (0 : Fin S384x128.rank) → ((ix2 d k : S128x128.Idx) b).val = ((ix2 q k : S384x128.Idx) (b.cast rfl)).val :=
    fun b hb => by
      match b with
      | ⟨0, _⟩ => exact absurd rfl hb
      | ⟨1, _⟩ => rfl
  fin_cases s
  · exact concatenate_apply_piece (t := S384x128) 0 [⟨S128x128, u0⟩, ⟨S128x128, u1⟩, ⟨S128x128, u2⟩] concatenates_S128x128_S128x128_S128x128_S384x128_d0 (ix2 q k) 0 (show (0 : Nat) < 3 by omega) S128x128 u0 rfl rfl 0 rfl (ix2 d k) hi (by show 0 + d.val = q.val; rw [hq]; show 0 + d.val = 128 * 0 + d.val; omega)
  · exact concatenate_apply_piece (t := S384x128) 0 [⟨S128x128, u0⟩, ⟨S128x128, u1⟩, ⟨S128x128, u2⟩] concatenates_S128x128_S128x128_S128x128_S384x128_d0 (ix2 q k) 1 (show (1 : Nat) < 3 by omega) S128x128 u1 rfl rfl 128 rfl (ix2 d k) hi (by show 128 + d.val = q.val; rw [hq]; show 128 + d.val = 128 * 1 + d.val; omega)
  · exact concatenate_apply_piece (t := S384x128) 0 [⟨S128x128, u0⟩, ⟨S128x128, u1⟩, ⟨S128x128, u2⟩] concatenates_S128x128_S128x128_S128x128_S384x128_d0 (ix2 q k) 2 (show (2 : Nat) < 3 by omega) S128x128 u2 rfl rfl 256 rfl (ix2 d k) hi (by show 256 + d.val = q.val; rw [hq]; show 256 + d.val = 128 * 2 + d.val; omega)

theorem stackB_apply (b0 b1 b2 : S128.Idx → α) (s : Fin 3) (d : Fin 128) (q : Fin 384) (hq : q.val = 128 * s.val + d.val) :
    concatenate S384 0 [⟨S128, b0⟩, ⟨S128, b1⟩, ⟨S128, b2⟩] concatenates_S128_S128_S128_S384_d0 (ix1 q)
      = (![b0, b1, b2] s) (ix1 d) := by
  have hi : ∀ b : Fin S128.rank, b.cast (rfl : S128.rank = S384.rank) ≠ (0 : Fin S384.rank) → ((ix1 d : S128.Idx) b).val = ((ix1 q : S384.Idx) (b.cast rfl)).val :=
    fun b hb => by
      match b with
      | ⟨0, _⟩ => exact absurd rfl hb
  fin_cases s
  · exact concatenate_apply_piece (t := S384) 0 [⟨S128, b0⟩, ⟨S128, b1⟩, ⟨S128, b2⟩] concatenates_S128_S128_S128_S384_d0 (ix1 q) 0 (show (0 : Nat) < 3 by omega) S128 b0 rfl rfl 0 rfl (ix1 d) hi (by show 0 + d.val = q.val; rw [hq]; show 0 + d.val = 128 * 0 + d.val; omega)
  · exact concatenate_apply_piece (t := S384) 0 [⟨S128, b0⟩, ⟨S128, b1⟩, ⟨S128, b2⟩] concatenates_S128_S128_S128_S384_d0 (ix1 q) 1 (show (1 : Nat) < 3 by omega) S128 b1 rfl rfl 128 rfl (ix1 d) hi (by show 128 + d.val = q.val; rw [hq]; show 128 + d.val = 128 * 1 + d.val; omega)
  · exact concatenate_apply_piece (t := S384) 0 [⟨S128, b0⟩, ⟨S128, b1⟩, ⟨S128, b2⟩] concatenates_S128_S128_S128_S384_d0 (ix1 q) 2 (show (2 : Nat) < 3 by omega) S128 b2 rfl rfl 256 rfl (ix1 d) hi (by show 256 + d.val = q.val; rw [hq]; show 256 + d.val = 128 * 2 + d.val; omega)

end Stack

/-! ## A column third of a fused projection is the separate projection -/

section Columns
open Cert.ReferenceIdeal.Read

/-- Column 128·s + d of the fused node projection is column d of the projection by slot s's weights and bias alone. -/
theorem projN_col (x0 : Vec Ideal S4096x256 .f32) (w0 w1 w2 : Vec Ideal S128x256 .f32) (b0 b1 b2 : Vec Ideal S128 .f32)
    (s : Fin 3) (r : Fin 4096) (d : Fin 128) (q : Fin 384) (hq : q.val = 128 * s.val + d.val) :
    projN (F := Ideal) x0 w0 w1 w2 b0 b1 b2 (ix2 r q)
      = val_main_v8 (F := Ideal) x0 (![w0, w1, w2] s) (![b0, b1, b2] s) (ix2 r d) := by
  have hdot : Host.dotGeneral (F := Ideal) (φ₁ := .f32) (φ₂ := .f32) dot_S4096x256_S256x384_S4096x384_1_0_0_1_n_n none x0
        (transpose S256x384 [1, 0] (concatenate S384x256 0 [⟨S128x256, w0⟩, ⟨S128x256, w1⟩, ⟨S128x256, w2⟩] concatenates_S128x256_S128x256_S128x256_S384x256_d0) transposes_S384x256_S256x384_1_0) (ix2 r q)
      = val_main_v5 (F := Ideal) x0 (![w0, w1, w2] s) (ix2 r d) := by
    rw [dotN_apply, val_main_v5_apply]
    refine Finset.sum_congr rfl fun k _ => ?_
    have e1 : lidx_main_v5 (ix2 r d) k = ix2 r k := funext fun a => by
      match a with
      | ⟨0, _⟩ => rfl
      | ⟨1, _⟩ => rfl
    have e2 : idx_main_v4 (ridx_main_v5 (ix2 r d) k) = ix2 d k := funext fun a => by
      match a with
      | ⟨0, _⟩ => rfl
      | ⟨1, _⟩ => rfl
    rw [e1, val_main_v4_apply, e2,
      transpose_apply [1, 0] _ transposes_S384x256_S256x384_1_0 (ix2 k q) (ix2 q k) (fun b => match b with
        | ⟨0, _⟩ => rfl
        | ⟨1, _⟩ => rfl),
      stackW_apply w0 w1 w2 s d k q hq]
  have hb : broadcastInDim S4096x384 ![0, 1] bcast_S1x384_S4096x384_0_1 (broadcastInDim S1x384 ![1] bcast_S384_S1x384_1
        (concatenate S384 0 [⟨S128, b0⟩, ⟨S128, b1⟩, ⟨S128, b2⟩] concatenates_S128_S128_S128_S384_d0)) (ix2 r q)
      = val_main_v7 (F := Ideal) (![b0, b1, b2] s) (ix2 r d) := by
    rw [val_main_v7_apply, val_main_v6_apply,
      broadcastInDim_apply _ bcast_S1x384_S4096x384_0_1 _ (ix2 r q) (ix2 (0 : Fin 1) q) (fun a => match a with
        | ⟨0, _⟩ => by show 0 = if (1 : Nat) = 1 then 0 else r.val; rw [if_pos rfl]
        | ⟨1, _⟩ => by show q.val = if (384 : Nat) = 1 then 0 else q.val; rw [if_neg (by decide)]),
      broadcastInDim_apply _ bcast_S384_S1x384_1 _ (ix2 (0 : Fin 1) q) (ix1 q) (fun a => match a with
        | ⟨0, _⟩ => by show q.val = if (384 : Nat) = 1 then 0 else q.val; rw [if_neg (by decide)]),
      stackB_apply b0 b1 b2 s d q hq]
    exact congrArg _ (funext fun a => by
      match a with
      | ⟨0, _⟩ => rfl)
  rw [val_main_v8_apply]
  show FloatOps.addf _ _ = FloatOps.addf _ _
  rw [hdot, hb]

/-- Column 128·s + d of the fused edge projection is column d of the projection by slot s's weights and bias alone. -/
theorem projE_col (x2 : Vec Ideal S8192x128 .f32) (u0 u1 u2 : Vec Ideal S128x128 .f32) (d0 d1 d2 : Vec Ideal S128 .f32)
    (s : Fin 3) (r : Fin 8192) (d : Fin 128) (q : Fin 384) (hq : q.val = 128 * s.val + d.val) :
    projE (F := Ideal) x2 u0 u1 u2 d0 d1 d2 (ix2 r q)
      = val_main_v23 (F := Ideal) x2 (![u0, u1, u2] s) (![d0, d1, d2] s) (ix2 r d) := by
  have hdot : Host.dotGeneral (F := Ideal) (φ₁ := .f32) (φ₂ := .f32) dot_S8192x128_S128x384_S8192x384_1_0_0_1_n_n none x2
        (transpose S128x384 [1, 0] (concatenate S384x128 0 [⟨S128x128, u0⟩, ⟨S128x128, u1⟩, ⟨S128x128, u2⟩] concatenates_S128x128_S128x128_S128x128_S384x128_d0) transposes_S384x128_S128x384_1_0) (ix2 r q)
      = val_main_v20 (F := Ideal) x2 (![u0, u1, u2] s) (ix2 r d) := by
    rw [dotE_apply, val_main_v20_apply]
    refine Finset.sum_congr rfl fun k _ => ?_
    have e1 : lidx_main_v20 (ix2 r d) k = ix2 r k := funext fun a => by
      match a with
      | ⟨0, _⟩ => rfl
      | ⟨1, _⟩ => rfl
    have e2 : idx_main_v19 (ridx_main_v20 (ix2 r d) k) = ix2 d k := funext fun a => by
      match a with
      | ⟨0, _⟩ => rfl
      | ⟨1, _⟩ => rfl
    rw [e1, val_main_v19_apply, e2,
      transpose_apply [1, 0] _ transposes_S384x128_S128x384_1_0 (ix2 k q) (ix2 q k) (fun b => match b with
        | ⟨0, _⟩ => rfl
        | ⟨1, _⟩ => rfl),
      stackU_apply u0 u1 u2 s d k q hq]
  have hb : broadcastInDim S8192x384 ![0, 1] bcast_S1x384_S8192x384_0_1 (broadcastInDim S1x384 ![1] bcast_S384_S1x384_1
        (concatenate S384 0 [⟨S128, d0⟩, ⟨S128, d1⟩, ⟨S128, d2⟩] concatenates_S128_S128_S128_S384_d0)) (ix2 r q)
      = val_main_v22 (F := Ideal) (![d0, d1, d2] s) (ix2 r d) := by
    rw [val_main_v22_apply, val_main_v21_apply,
      broadcastInDim_apply _ bcast_S1x384_S8192x384_0_1 _ (ix2 r q) (ix2 (0 : Fin 1) q) (fun a => match a with
        | ⟨0, _⟩ => by show 0 = if (1 : Nat) = 1 then 0 else r.val; rw [if_pos rfl]
        | ⟨1, _⟩ => by show q.val = if (384 : Nat) = 1 then 0 else q.val; rw [if_neg (by decide)]),
      broadcastInDim_apply _ bcast_S384_S1x384_1 _ (ix2 (0 : Fin 1) q) (ix1 q) (fun a => match a with
        | ⟨0, _⟩ => by show q.val = if (384 : Nat) = 1 then 0 else q.val; rw [if_neg (by decide)]),
      stackB_apply d0 d1 d2 s d q hq]
    exact congrArg _ (funext fun a => by
      match a with
      | ⟨0, _⟩ => rfl)
  rw [val_main_v23_apply]
  show FloatOps.addf _ _ = FloatOps.addf _ _
  rw [hdot, hb]

/-- The column third at offset 128·s of the fused node projection, as a whole array. -/
theorem sliceN_eq (off : Fin 2 → Nat) (hN : S4096x384.Slices off S4096x128) (s : Fin 3) (h0 : off 0 = 0) (h1 : off 1 = 128 * s.val)
    (x0 : Vec Ideal S4096x256 .f32) (w0 w1 w2 : Vec Ideal S128x256 .f32) (b0 b1 b2 : Vec Ideal S128 .f32) :
    extractStridedSlice S4096x128 off (projN (F := Ideal) x0 w0 w1 w2 b0 b1 b2) hN
      = val_main_v8 (F := Ideal) x0 (![w0, w1, w2] s) (![b0, b1, b2] s) := by
  have key : ∀ (r : Fin 4096) (d : Fin 128), extractStridedSlice S4096x128 off (projN (F := Ideal) x0 w0 w1 w2 b0 b1 b2) hN (ix2 r d)
      = val_main_v8 (F := Ideal) x0 (![w0, w1, w2] s) (![b0, b1, b2] s) (ix2 r d) := fun r d => by
    have hlt : 128 * s.val + d.val < 384 := by have := s.isLt; have := d.isLt; omega
    rw [extractStridedSlice_apply off _ hN (ix2 r d) (ix2 r (⟨128 * s.val + d.val, hlt⟩ : Fin 384)) (fun a => match a with
      | ⟨0, _⟩ => by show r.val = off 0 + r.val; rw [h0]; omega
      | ⟨1, _⟩ => by show 128 * s.val + d.val = off 1 + d.val; rw [h1])]
    exact projN_col x0 w0 w1 w2 b0 b1 b2 s r d _ rfl
  funext i
  rw [eq_ix2 (n0 := 4096) (n1 := 128) i]
  exact key _ _

/-- The column third at offset 128·s of the fused edge projection, as a whole array. -/
theorem sliceE_eq (off : Fin 2 → Nat) (hE : S8192x384.Slices off S8192x128) (s : Fin 3) (h0 : off 0 = 0) (h1 : off 1 = 128 * s.val)
    (x2 : Vec Ideal S8192x128 .f32) (u0 u1 u2 : Vec Ideal S128x128 .f32) (d0 d1 d2 : Vec Ideal S128 .f32) :
    extractStridedSlice S8192x128 off (projE (F := Ideal) x2 u0 u1 u2 d0 d1 d2) hE
      = val_main_v23 (F := Ideal) x2 (![u0, u1, u2] s) (![d0, d1, d2] s) := by
  have key : ∀ (r : Fin 8192) (d : Fin 128), extractStridedSlice S8192x128 off (projE (F := Ideal) x2 u0 u1 u2 d0 d1 d2) hE (ix2 r d)
      = val_main_v23 (F := Ideal) x2 (![u0, u1, u2] s) (![d0, d1, d2] s) (ix2 r d) := fun r d => by
    have hlt : 128 * s.val + d.val < 384 := by have := s.isLt; have := d.isLt; omega
    rw [extractStridedSlice_apply off _ hE (ix2 r d) (ix2 r (⟨128 * s.val + d.val, hlt⟩ : Fin 384)) (fun a => match a with
      | ⟨0, _⟩ => by show r.val = off 0 + r.val; rw [h0]; omega
      | ⟨1, _⟩ => by show 128 * s.val + d.val = off 1 + d.val; rw [h1])]
    exact projE_col x2 u0 u1 u2 d0 d1 d2 s r d _ rfl
  funext i
  rw [eq_ix2 (n0 := 8192) (n1 := 128) i]
  exact key _ _

end Columns

/-! ## The three arrays of the attention region, and the scatter region's ids -/

section Rows
open Cert.ReferenceIdeal.Read

/-- At the exact reals an array of the attention region is the reference's product of the gathered separate projection
    and the separate edge projection: the narrowing is the identity, and each column third is the separate projection. -/
theorem attnRows_eq (off : Fin 2 → Nat) (hN : S4096x384.Slices off S4096x128) (hE : S8192x384.Slices off S8192x128)
    (s : Fin 3) (h0 : off 0 = 0) (h1 : off 1 = 128 * s.val)
    (x0 : Vec Ideal S4096x256 .f32) (w0 w1 w2 : Vec Ideal S128x256 .f32) (b0 b1 b2 : Vec Ideal S128 .f32)
    (x2 : Vec Ideal S8192x128 .f32) (u0 u1 u2 : Vec Ideal S128x128 .f32) (d0 d1 d2 : Vec Ideal S128 .f32)
    (I : Vec Ideal S8192x1 .i32) :
    (attnRows (F := Ideal) off hN hE (projN (F := Ideal) x0 w0 w1 w2 b0 b1 b2) I (projE (F := Ideal) x2 u0 u1 u2 d0 d1 d2) : S8192x128.Idx → EReal)
      = mulf (F := Ideal) (φ := .f32) (Host.gather Cert.ReferenceIdeal.gather_S4096x128_S8192x1_S8192x128_1_0_n_n_0_1_1128
          (val_main_v8 (F := Ideal) x0 (![w0, w1, w2] s) (![b0, b1, b2] s)) I)
        (val_main_v23 (F := Ideal) x2 (![u0, u1, u2] s) (![d0, d1, d2] s)) := by
  unfold attnRows
  rw [sliceN_eq off hN s h0 h1, sliceE_eq off hE s h0 h1]
  rfl

end Rows

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

set_option maxHeartbeats 4000000 in
/-- The attention region's query rows are the reference's. -/
theorem q_eq : (V1 (F := Ideal) m ρ c main_v32 : S8192x128.Idx → EReal)
    = Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  have e : (V1 (F := Ideal) m ρ c main_v32 : S8192x128.Idx → EReal)
      = attnRows (F := Ideal) ![0, 0] slices_S4096x384_S4096x128_0_0 slices_S8192x384_S8192x128_0_0
          (projN (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg12)))
          (Cert.ReferenceIdeal.Read.val_main_v39 (F := Ideal) (m ((c.tc : Thread Cert.KernelIdeal.nD Cert.KernelIdeal.τ).loc Cert.KernelIdeal.main_arg1)))
          (projE (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg13)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg14))) := by
    show StableHlo.after hostOps0 _ (Proc.devRef .tc main_v32) = _
    host_results
    rfl
  rw [e, attnRows_eq ![0, 0] _ _ 0 rfl rfl]
  rfl

set_option maxHeartbeats 4000000 in
/-- Its key rows are the reference's. -/
theorem k_eq : (V1 (F := Ideal) m ρ c main_v41 : S8192x128.Idx → EReal)
    = Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  have e : (V1 (F := Ideal) m ρ c main_v41 : S8192x128.Idx → EReal)
      = attnRows (F := Ideal) ![0, 128] slices_S4096x384_S4096x128_0_128 slices_S8192x384_S8192x128_0_128
          (projN (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg12)))
          (Cert.ReferenceIdeal.Read.val_main_v47 (F := Ideal) (m ((c.tc : Thread Cert.KernelIdeal.nD Cert.KernelIdeal.τ).loc Cert.KernelIdeal.main_arg1)))
          (projE (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg13)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg14))) := by
    show StableHlo.after hostOps0 _ (Proc.devRef .tc main_v41) = _
    host_results
    rfl
  rw [e, attnRows_eq ![0, 128] _ _ 1 rfl rfl]
  rfl

set_option maxHeartbeats 4000000 in
/-- Its value rows are the reference's. -/
theorem v_eq : (V1 (F := Ideal) m ρ c main_v50 : S8192x128.Idx → EReal)
    = Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  have e : (V1 (F := Ideal) m ρ c main_v50 : S8192x128.Idx → EReal)
      = attnRows (F := Ideal) ![0, 256] slices_S4096x384_S4096x128_0_256 slices_S8192x384_S8192x128_0_256
          (projN (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg12)))
          (Cert.ReferenceIdeal.Read.val_main_v55 (F := Ideal) (m ((c.tc : Thread Cert.KernelIdeal.nD Cert.KernelIdeal.τ).loc Cert.KernelIdeal.main_arg1)))
          (projE (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg13)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg14))) := by
    show StableHlo.after hostOps0 _ (Proc.devRef .tc main_v50) = _
    host_results
    rfl
  rw [e, attnRows_eq ![0, 256] _ _ 2 rfl rfl]
  rfl

set_option maxHeartbeats 4000000 in
/-- The scatter region's id row holds the reference's destination ids. -/
theorem dst_eq (e : Fin 8192) : (V3 (F := Ideal) m ρ c main_v52 : S1x8192.Idx → BitVec 32) (ix2 (0 : Fin 1) e)
    = Cert.ReferenceIdeal.Read.val_main_v3 (F := Ideal) (m ((c.tc : Thread Cert.KernelIdeal.nD Cert.KernelIdeal.τ).loc Cert.KernelIdeal.main_arg1)) (ix1 e) := by
  -- before the attention region: the second row of the index array, as 8192 ids
  have e1 : (V1 (F := Ideal) m ρ c main_v3 : S8192.Idx → BitVec 32)
      = Cert.ReferenceIdeal.Read.val_main_v3 (F := Ideal) (m ((c.tc : Thread Cert.KernelIdeal.nD Cert.KernelIdeal.τ).loc Cert.KernelIdeal.main_arg1)) := by
    show StableHlo.after hostOps0 _ (Proc.devRef .tc main_v3) = _
    host_results
    rfl
  -- the attention region writes none of it, and the one operation after it relays it as one row
  have e3 : (V3 (F := Ideal) m ρ c main_v52 : S1x8192.Idx → BitVec 32)
      = shapeCast S1x8192 (V1 (F := Ideal) m ρ c main_v3 : S8192.Idx → BitVec 32) shapeCasts_S8192_S1x8192 := by
    show StableHlo.after hostOps1 _ (Proc.devRef .tc main_v52) = _
    simp only [StableHlo.after_cons, StableHlo.after_nil]
    rw [StableHlo.reshape_result, W2_of_ne m ρ c main_v3 (by decide)]
    rfl
  rw [e3, e1]
  exact shapeCast_apply _ shapeCasts_S8192_S1x8192 (ix2 (0 : Fin 1) e) (ix1 e)
    (by rewrite [Shape.rowMajor_val_two, Shape.rowMajor_val_one]; show e.val = 0 * 8192 + e.val; omega)

end Cert.KernelIdeal.HostValue

end
-- ==== Proof.Value.Finite.lean ====
/-
  Under the precondition every float argument holds real numbers only, and so do the reference's gathered-and-fused
  query, key and value rows: a sum of products of reals is real, a gather takes entries of its operand, a product of
  reals is real.
-/
import proofs.«421498_j43611097924270_2_alg».proof.Defs
import proofs.«421498_j43611097924270_2_alg».proof.Proof.Gen.ReferenceIdeal.Read
import proofs.«421498_j43611097924270_2_alg».proof.Proof.Gen.Pre_finite_inputs
import Idealize.ShloMosaic.PureOps.Ideal.Laws
import Idealize.ShloMosaic.Lib.ValueIdx
import Idealize.ShloMosaic.Lib.ReduceAll

set_option maxRecDepth 16384

noncomputable section

namespace Cert.Finite

open Idealize.ShloMosaic Idealize.ShloMosaic.TcCoe Idealize.ShloMosaic.ValueIdx Idealize.SL.Sem
open Cert.ReferenceIdeal Cert.ReferenceIdeal.Gen Cert.ReferenceIdeal.Read

section Real

/-- A sum of two reals is real. -/
theorem real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

/-- A product of two reals is real. -/
theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- A finite sum of reals is real: by induction on the index set, the empty sum being the real zero. -/
theorem real_sum {κ : Type} (t : Finset κ) (f : κ → EReal) (h : ∀ k ∈ t, ∃ r : ℝ, f k = (r : EReal)) :
    ∃ r : ℝ, ∑ k ∈ t, f k = (r : EReal) := by
  classical
  induction t using Finset.induction_on with
  | empty => exact ⟨0, by rw [Finset.sum_empty, EReal.coe_zero]⟩
  | insert a s ha ih =>
    rw [Finset.sum_insert ha]
    exact real_add (h a (Finset.mem_insert_self a s)) (ih fun k hk => h k (Finset.mem_insert_of_mem hk))

/-- A contraction of two real rows is real. -/
theorem real_dot {n : Nat} (a b : Fin n → EReal) (ha : ∀ k, ∃ r : ℝ, a k = (r : EReal)) (hb : ∀ k, ∃ r : ℝ, b k = (r : EReal)) :
    ∃ r : ℝ, ∑ k : Fin n, a k * b k = (r : EReal) :=
  real_sum _ _ fun k _ => real_mul (ha k) (hb k)

/-- Every entry of a gather's result is an entry of its operand, so a gather of a real array is real. -/
theorem real_gather {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

end Real

section Stages

variable (x0 : (⟨S4096x256, .f32⟩ : BufTy).Contents (Elt Ideal)) (x1 : (⟨S2x8192, .i32⟩ : BufTy).Contents (Elt Ideal)) (x2 : (⟨S8192x128, .f32⟩ : BufTy).Contents (Elt Ideal))
  (x3 : (⟨S128x256, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
  (x11 : (⟨S128x256, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))

/- The query row: the node table contracted with the transposed weight, plus the bias row; gathered along the edge
   list; times the edge table's own projection (contracted with its transposed weight, plus its bias row). Each stage
   is real because the ones before it are. -/
theorem v8_real (h0 : ∀ i, ∃ r : ℝ, x0 i = (r : EReal)) (h3 : ∀ i, ∃ r : ℝ, x3 i = (r : EReal)) (h4 : ∀ i, ∃ r : ℝ, x4 i = (r : EReal)) :
    ∀ i, ∃ r : ℝ, val_main_v8 (F := Ideal) x0 x3 x4 i = (r : EReal) := by
  intro i
  rw [val_main_v8_apply, Ideal.addf_def, val_main_v5_apply, val_main_v7_apply, val_main_v6_apply]
  refine real_add (real_dot _ _ (fun k => h0 _) (fun k => ?_)) (h4 _)
  rw [val_main_v4_apply]
  exact h3 _

theorem v23_real (h2 : ∀ i, ∃ r : ℝ, x2 i = (r : EReal)) (h5 : ∀ i, ∃ r : ℝ, x5 i = (r : EReal)) (h6 : ∀ i, ∃ r : ℝ, x6 i = (r : EReal)) :
    ∀ i, ∃ r : ℝ, val_main_v23 (F := Ideal) x2 x5 x6 i = (r : EReal) := by
  intro i
  rw [val_main_v23_apply, Ideal.addf_def, val_main_v20_apply, val_main_v22_apply, val_main_v21_apply]
  refine real_add (real_dot _ _ (fun k => h2 _) (fun k => ?_)) (h6 _)
  rw [val_main_v19_apply]
  exact h5 _

theorem q_real (h0 : ∀ i, ∃ r : ℝ, x0 i = (r : EReal)) (h2 : ∀ i, ∃ r : ℝ, x2 i = (r : EReal)) (h3 : ∀ i, ∃ r : ℝ, x3 i = (r : EReal)) (h4 : ∀ i, ∃ r : ℝ, x4 i = (r : EReal)) (h5 : ∀ i, ∃ r : ℝ, x5 i = (r : EReal)) (h6 : ∀ i, ∃ r : ℝ, x6 i = (r : EReal)) :
    ∀ i, ∃ r : ℝ, val_main_v41 (F := Ideal) x0 x1 x2 x3 x4 x5 x6 i = (r : EReal) := by
  intro i
  rw [val_main_v41_apply, Ideal.mulf_def]
  refine real_mul ?_ (v23_real x2 x5 x6 h2 h5 h6 i)
  unfold val_main_v40
  exact real_gather _ _ _ (v8_real x0 x3 x4 h0 h3 h4) i

/- The key row: the same three steps over the key's weights and biases. -/
theorem v13_real (h0 : ∀ i, ∃ r : ℝ, x0 i = (r : EReal)) (h7 : ∀ i, ∃ r : ℝ, x7 i = (r : EReal)) (h8 : ∀ i, ∃ r : ℝ, x8 i = (r : EReal)) :
    ∀ i, ∃ r : ℝ, val_main_v13 (F := Ideal) x0 x7 x8 i = (r : EReal) := by
  intro i
  rw [val_main_v13_apply, Ideal.addf_def, val_main_v10_apply, val_main_v12_apply, val_main_v11_apply]
  refine real_add (real_dot _ _ (fun k => h0 _) (fun k => ?_)) (h8 _)
  rw [val_main_v9_apply]
  exact h7 _

theorem v28_real (h2 : ∀ i, ∃ r : ℝ, x2 i = (r : EReal)) (h9 : ∀ i, ∃ r : ℝ, x9 i = (r : EReal)) (h10 : ∀ i, ∃ r : ℝ, x10 i = (r : EReal)) :
    ∀ i, ∃ r : ℝ, val_main_v28 (F := Ideal) x2 x9 x10 i = (r : EReal) := by
  intro i
  rw [val_main_v28_apply, Ideal.addf_def, val_main_v25_apply, val_main_v27_apply, val_main_v26_apply]
  refine real_add (real_dot _ _ (fun k => h2 _) (fun k => ?_)) (h10 _)
  rw [val_main_v24_apply]
  exact h9 _

theorem k_real (h0 : ∀ i, ∃ r : ℝ, x0 i = (r : EReal)) (h2 : ∀ i, ∃ r : ℝ, x2 i = (r : EReal)) (h7 : ∀ i, ∃ r : ℝ, x7 i = (r : EReal)) (h8 : ∀ i, ∃ r : ℝ, x8 i = (r : EReal)) (h9 : ∀ i, ∃ r : ℝ, x9 i = (r : EReal)) (h10 : ∀ i, ∃ r : ℝ, x10 i = (r : EReal)) :
    ∀ i, ∃ r : ℝ, val_main_v49 (F := Ideal) x0 x1 x2 x7 x8 x9 x10 i = (r : EReal) := by
  intro i
  rw [val_main_v49_apply, Ideal.mulf_def]
  refine real_mul ?_ (v28_real x2 x9 x10 h2 h9 h10 i)
  unfold val_main_v48
  exact real_gather _ _ _ (v13_real x0 x7 x8 h0 h7 h8) i

/- The value row: the same three steps over the value's weights and biases. -/
theorem v18_real (h0 : ∀ i, ∃ r : ℝ, x0 i = (r : EReal)) (h11 : ∀ i, ∃ r : ℝ, x11 i = (r : EReal)) (h12 : ∀ i, ∃ r : ℝ, x12 i = (r : EReal)) :
    ∀ i, ∃ r : ℝ, val_main_v18 (F := Ideal) x0 x11 x12 i = (r : EReal) := by
  intro i
  rw [val_main_v18_apply, Ideal.addf_def, val_main_v15_apply, val_main_v17_apply, val_main_v16_apply]
  refine real_add (real_dot _ _ (fun k => h0 _) (fun k => ?_)) (h12 _)
  rw [val_main_v14_apply]
  exact h11 _

theorem v33_real (h2 : ∀ i, ∃ r : ℝ, x2 i = (r : EReal)) (h13 : ∀ i, ∃ r : ℝ, x13 i = (r : EReal)) (h14 : ∀ i, ∃ r : ℝ, x14 i = (r : EReal)) :
    ∀ i, ∃ r : ℝ, val_main_v33 (F := Ideal) x2 x13 x14 i = (r : EReal) := by
  intro i
  rw [val_main_v33_apply, Ideal.addf_def, val_main_v30_apply, val_main_v32_apply, val_main_v31_apply]
  refine real_add (real_dot _ _ (fun k => h2 _) (fun k => ?_)) (h14 _)
  rw [val_main_v29_apply]
  exact h13 _

theorem v_real (h0 : ∀ i, ∃ r : ℝ, x0 i = (r : EReal)) (h2 : ∀ i, ∃ r : ℝ, x2 i = (r : EReal)) (h11 : ∀ i, ∃ r : ℝ, x11 i = (r : EReal)) (h12 : ∀ i, ∃ r : ℝ, x12 i = (r : EReal)) (h13 : ∀ i, ∃ r : ℝ, x13 i = (r : EReal)) (h14 : ∀ i, ∃ r : ℝ, x14 i = (r : EReal)) :
    ∀ i, ∃ r : ℝ, val_main_v57 (F := Ideal) x0 x1 x2 x11 x12 x13 x14 i = (r : EReal) := by
  intro i
  rw [val_main_v57_apply, Ideal.mulf_def]
  refine real_mul ?_ (v33_real x2 x13 x14 h2 h13 h14 i)
  unfold val_main_v56
  exact real_gather _ _ _ (v18_real x0 x11 x12 h0 h11 h12) i

end Stages

section Pre

instance subsingleton_idx0 : Subsingleton (⟨0, ![]⟩ : Shape).Idx := ⟨fun a b => funext fun d => d.elim0⟩

/-- The single-precision pattern with all exponent bits set and no fraction bit is plus infinity. -/
theorem top_f32 : Ideal.ofBits .f32 0x7F800000#32 = (⊤ : EReal) := by simp [Ideal.ofBits, Ideal.ieee]

/-- An extended real whose absolute value is below plus infinity is a real number. -/
theorem real_of_abs_lt_top (a : EReal) (h : max a (-a) < ⊤) : ∃ r : ℝ, a = (r : EReal) := by
  have h1 : a ≠ ⊤ := fun e => by rw [e] at h; simp at h
  have h2 : a ≠ ⊥ := fun e => by rw [e] at h; simp at h
  exact ⟨a.toReal, (EReal.coe_toReal h1 h2).symm⟩

theorem ofBool_eq_one (b : Bool) : BitVec.ofBool b = 1#1 ↔ b = true := by cases b <;> decide

/-- One conjunct of the precondition, decoded: if every entry of an array has absolute value below plus infinity
    (the conjunction over all entries came out one), every entry is real. -/
theorem real_of_all {s t u c : Shape} {axes : List (Fin s.rank)} [Subsingleton t.Idx] (x : FVec Ideal s .f32)
    (dims : Fin c.rank → Fin s.rank) (bc : c.BroadcastsInDim s dims) (h : s.ReducesTo axes t) (hu : 0 < u.numel) (init : IVec u 1) (j : t.Idx)
    (e : Host.reduce IntOp.andi (cmpf .olt (Host.absf x) (broadcastInDim s dims bc (constant c .f32 0x7F800000#32))) init h hu j = 1#1) :
    ∀ i, ∃ r : ℝ, x i = (r : EReal) := by
  intro i
  have hi := Host.reduce_andi_all _ _ h hu j e i
  have hi' : BitVec.ofBool (decide (max (x i) (-(x i)) < Ideal.ofBits .f32 0x7F800000#32)) = 1#1 := hi
  rw [ofBool_eq_one, decide_eq_true_eq, top_f32] at hi'
  exact real_of_abs_lt_top _ hi'

/-- The precondition, decoded: every float argument of the idealized kernel's memory is real-valued. The
    predicate read at its one index is a left-nested conjunction of fourteen "all entries have absolute value below
    plus infinity", one per float argument; each conjunct gives the reality of its argument's entries. -/
theorem pre_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0)) i = (r : EReal))
    ∧ (∀ i, ∃ r : ℝ, (m ((c.tc : Thread Cert.KernelIdeal.nD Cert.KernelIdeal.τ).loc Cert.KernelIdeal.main_arg2)) i = (r : EReal))
    ∧ (∀ i, ∃ r : ℝ, (m ((c.tc : Thread Cert.KernelIdeal.nD Cert.KernelIdeal.τ).loc Cert.KernelIdeal.main_arg3)) i = (r : EReal))
    ∧ (∀ i, ∃ r : ℝ, (m ((c.tc : Thread Cert.KernelIdeal.nD Cert.KernelIdeal.τ).loc Cert.KernelIdeal.main_arg4)) i = (r : EReal))
    ∧ (∀ i, ∃ r : ℝ, (m ((c.tc : Thread Cert.KernelIdeal.nD Cert.KernelIdeal.τ).loc Cert.KernelIdeal.main_arg5)) i = (r : EReal))
    ∧ (∀ i, ∃ r : ℝ, (m ((c.tc : Thread Cert.KernelIdeal.nD Cert.KernelIdeal.τ).loc Cert.KernelIdeal.main_arg6)) i = (r : EReal))
    ∧ (∀ i, ∃ r : ℝ, (m ((c.tc : Thread Cert.KernelIdeal.nD Cert.KernelIdeal.τ).loc Cert.KernelIdeal.main_arg7)) i = (r : EReal))
    ∧ (∀ i, ∃ r : ℝ, (m ((c.tc : Thread Cert.KernelIdeal.nD Cert.KernelIdeal.τ).loc Cert.KernelIdeal.main_arg8)) i = (r : EReal))
    ∧ (∀ i, ∃ r : ℝ, (m ((c.tc : Thread Cert.KernelIdeal.nD Cert.KernelIdeal.τ).loc Cert.KernelIdeal.main_arg9)) i = (r : EReal))
    ∧ (∀ i, ∃ r : ℝ, (m ((c.tc : Thread Cert.KernelIdeal.nD Cert.KernelIdeal.τ).loc Cert.KernelIdeal.main_arg10)) i = (r : EReal))
    ∧ (∀ i, ∃ r : ℝ, (m ((c.tc : Thread Cert.KernelIdeal.nD Cert.KernelIdeal.τ).loc Cert.KernelIdeal.main_arg11)) i = (r : EReal))
    ∧ (∀ i, ∃ r : ℝ, (m ((c.tc : Thread Cert.KernelIdeal.nD Cert.KernelIdeal.τ).loc Cert.KernelIdeal.main_arg12)) i = (r : EReal))
    ∧ (∀ i, ∃ r : ℝ, (m ((c.tc : Thread Cert.KernelIdeal.nD Cert.KernelIdeal.τ).loc Cert.KernelIdeal.main_arg13)) i = (r : EReal))
    ∧ (∀ i, ∃ r : ℝ, (m ((c.tc : Thread Cert.KernelIdeal.nD Cert.KernelIdeal.τ).loc Cert.KernelIdeal.main_arg14)) i = (r : EReal)) := by
  have e := congrFun (h c) ValueIdx.ix0
  unfold Cert.Pre_finite_inputs.fn Cert.Pre_finite_inputs.fn_part1 Cert.Pre_finite_inputs.fn_part2 Cert.Pre_finite_inputs.fn_part3 Cert.Pre_finite_inputs.fn_part4 at e
  simp only [Idealize.ShloMosaic.andi, IntOp.andi_eq_one] at e
  obtain ⟨⟨⟨⟨⟨⟨⟨⟨⟨⟨⟨⟨⟨e0, e2⟩, e3⟩, e4⟩, e5⟩, e6⟩, e7⟩, e8⟩, e9⟩, e10⟩, e11⟩, e12⟩, e13⟩, e14⟩ := e
  exact ⟨real_of_all _ _ _ _ _ _ _ e0,
    real_of_all _ _ _ _ _ _ _ e2,
    real_of_all _ _ _ _ _ _ _ e3,
    real_of_all _ _ _ _ _ _ _ e4,
    real_of_all _ _ _ _ _ _ _ e5,
    real_of_all _ _ _ _ _ _ _ e6,
    real_of_all _ _ _ _ _ _ _ e7,
    real_of_all _ _ _ _ _ _ _ e8,
    real_of_all _ _ _ _ _ _ _ e9,
    real_of_all _ _ _ _ _ _ _ e10,
    real_of_all _ _ _ _ _ _ _ e11,
    real_of_all _ _ _ _ _ _ _ e12,
    real_of_all _ _ _ _ _ _ _ e13,
    real_of_all _ _ _ _ _ _ _ e14⟩

end Pre

end Cert.Finite

end
-- ==== Proof.Assembly.lean ====
/-
  The two programs' results are one function of the arguments.

  EDGES. The idealized kernel's edge result is region 0's output array: tile by tile the attention body's tile of the
  query tile against all keys and values, which entry by entry is the softmax-attention row of the spec (the body's
  four chunk updates are a streaming softmax; this is where the inputs' finiteness is used), over the same query, key
  and value rows as the reference's, whose own result is the spec's array of them.

  NODES. The kernel's node result is region 1's output array: entry (n, col) is the sum over all 8192 edges of
  [edge e's destination id is n] times edge e's entry of the edge result in column col — and so is the host's
  accumulating scatter of the reference.
-/
import proofs.«421498_j43611097924270_2_alg».proof.Defs
import proofs.«421498_j43611097924270_2_alg».proof.Proof.KernelIdeal.Run
import proofs.«421498_j43611097924270_2_alg».proof.Proof.Gen.ReferenceIdeal.Run
import proofs.«421498_j43611097924270_2_alg».proof.Proof.Gen.ReferenceIdeal.Read
import proofs.«421498_j43611097924270_2_alg».proof.Proof.Ref.RefValue
import proofs.«421498_j43611097924270_2_alg».proof.Proof.Value.Spec
import proofs.«421498_j43611097924270_2_alg».proof.Proof.Value.AttnArr
import proofs.«421498_j43611097924270_2_alg».proof.Proof.Value.AttnBlock
import proofs.«421498_j43611097924270_2_alg».proof.Proof.Value.ScatArr
import proofs.«421498_j43611097924270_2_alg».proof.Proof.Value.ScatSpec
import proofs.«421498_j43611097924270_2_alg».proof.Proof.Value.HostValue
import proofs.«421498_j43611097924270_2_alg».proof.Proof.Value.Finite

set_option maxRecDepth 16384

noncomputable section

namespace Cert.Proof.Assembly

open Idealize.ShloMosaic Idealize.ShloMosaic.TcCoe Idealize.ShloMosaic.ValueIdx Idealize.SL.Sem
open Cert.KernelIdeal Cert.KernelIdeal.Gen Cert.KernelIdeal.Frame

variable [Cert.Pre_finite_inputs.Facts]
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The reference's query, key and value rows and destination ids, as functions of the kernel memory's arguments. -/
abbrev Qr : Cert.ReferenceIdeal.S8192x128.Idx → EReal := Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
abbrev Kr : Cert.ReferenceIdeal.S8192x128.Idx → EReal := Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
abbrev Vr : Cert.ReferenceIdeal.S8192x128.Idx → EReal := Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
abbrev Dr : Cert.ReferenceIdeal.S8192.Idx → BitVec 32 := Cert.ReferenceIdeal.Read.val_main_v3 (F := Ideal) (m ((c.tc : Thread Cert.KernelIdeal.nD Cert.KernelIdeal.τ).loc Cert.KernelIdeal.main_arg1))

/-- The kernel's edge result is the spec's attention of the reference's rows. -/
theorem kernel_edges (hpre : Cert.Pre_KernelIdeal m) :
    ((dat0 (F := Ideal) (V1 m ρ) c).arrAt 3 cfg0.N : S8192x128.Idx → EReal) = Cert.Spec.attnArr (Qr m c) (Kr m c) (Vr m c) := by
  obtain ⟨h0, h2, h3, h4, h5, h6, h7, h8, h9, h10, h11, h12, h13, h14⟩ := Cert.Finite.pre_real m hpre c
  have hQ := Cert.Finite.q_real _ (m ((c.tc : Thread Cert.KernelIdeal.nD Cert.KernelIdeal.τ).loc Cert.KernelIdeal.main_arg1)) _ _ _ _ _ h0 h2 h3 h4 h5 h6
  have hK := Cert.Finite.k_real _ (m ((c.tc : Thread Cert.KernelIdeal.nD Cert.KernelIdeal.τ).loc Cert.KernelIdeal.main_arg1)) _ _ _ _ _ h0 h2 h7 h8 h9 h10
  have hV := Cert.Finite.v_real _ (m ((c.tc : Thread Cert.KernelIdeal.nD Cert.KernelIdeal.τ).loc Cert.KernelIdeal.main_arg1)) _ _ _ _ _ h0 h2 h11 h12 h13 h14
  rw [Cert.KernelIdeal.AttnValue.final]
  rw [show (V1 (F := Ideal) m ρ c main_v32 : S8192x128.Idx → EReal) = Qr m c from Cert.KernelIdeal.HostValue.q_eq m ρ c,
    show (V1 (F := Ideal) m ρ c main_v41 : S8192x128.Idx → EReal) = Kr m c from Cert.KernelIdeal.HostValue.k_eq m ρ c,
    show (V1 (F := Ideal) m ρ c main_v50 : S8192x128.Idx → EReal) = Vr m c from Cert.KernelIdeal.HostValue.v_eq m ρ c]
  funext i
  obtain ⟨e, d, rfl⟩ : ∃ (e : Fin 8192) (d : Fin 128), i = ix2 e d := ⟨i 0, i 1, eq_ix2 i⟩
  rw [Cert.Spec.attnArr_ix2]
  have ht : e.val / 256 < 32 := by have := e.isLt; omega
  have hr : e.val % 256 < 256 := Nat.mod_lt _ (by decide)
  refine (Cert.KernelIdeal.AttnValue.attnArr_apply (F := Ideal) (Qr m c) (Kr m c) (Vr m c) (ix2 e d) ⟨e.val / 256, ht⟩ (ix2 ⟨e.val % 256, hr⟩ d)
      (by show e.val = 256 * (e.val / 256) + e.val % 256; omega) rfl).trans ?_
  refine (Cert.KernelIdeal.AttnValue.attnBlock_apply _ _ _ (fun i => hQ _) hK hV ⟨e.val % 256, hr⟩ d).trans ?_
  unfold Cert.Spec.attnAt
  refine congrArg (fun qr => Cert.Spec.attnRow qr (Kr m c) (Vr m c) d) (funext fun d' => ?_)
  show Qr m c (ix2 ⟨256 * (e.val / 256) + (e.val % 256), _⟩ ⟨d'.val, _⟩) = Qr m c (ix2 e d')
  exact congrArg (Qr m c) (by funext a; match a with | ⟨0, _⟩ => exact Fin.ext (by show 256 * (e.val / 256) + e.val % 256 = e.val; omega) | ⟨1, _⟩ => rfl)

/-- The kernel's node result is the spec's scatter of its edge result by the reference's destination ids. -/
theorem kernel_nodes :
    ((dat1 (F := Ideal) (V3 m ρ) c).arrAt 2 cfg1.N : S4096x128.Idx → EReal)
      = Cert.Spec.scatArr (Dr m c) ((dat0 (F := Ideal) (V1 m ρ) c).arrAt 3 cfg0.N : S8192x128.Idx → EReal) := by
  funext i
  obtain ⟨n, col, rfl⟩ : ∃ (n : Fin 4096) (col : Fin 128), i = ix2 n col := ⟨i 0, i 1, eq_ix2 i⟩
  refine @Eq.trans EReal _ _ _ (Cert.KernelIdeal.ScatValue.scat_array (V3 m ρ) c n col) ?_
  rw [Cert.Spec.scatArr_apply]
  refine Finset.sum_congr rfl fun e _ => ?_
  rw [Cert.KernelIdeal.HostValue.dst_eq m ρ c e]
  exact congrArg (fun x : S8192x128.Idx → EReal => (if Dr m c (ix1 e) = BitVec.ofNat 32 n.val then (1 : EReal) else 0) * x (ix2 e col))
    (V3_edges (F := Ideal) m ρ c)

/-- The kernel's node result as the spec's scatter of the spec's attention. -/
theorem kernel_nodes_spec (hpre : Cert.Pre_KernelIdeal m) :
    ((dat1 (F := Ideal) (V3 m ρ) c).arrAt 2 cfg1.N : S4096x128.Idx → EReal)
      = Cert.Spec.scatArr (Dr m c) (Cert.Spec.attnArr (Qr m c) (Kr m c) (Vr m c)) :=
  (kernel_nodes m ρ c).trans (congrArg (Cert.Spec.scatArr (Dr m c)) (kernel_edges m ρ c hpre))

section Reference

variable (m' : (ℓ : Loc Cert.ReferenceIdeal.nD Cert.ReferenceIdeal.τ Cert.ReferenceIdeal.sig) → Buf (Elt Ideal) ℓ)
  (e0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
  (e1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
  (e2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
  (e3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
  (e4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
  (e5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
  (e6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
  (e7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
  (e8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
  (e9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
  (e10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
  (e11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
  (e12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
  (e13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
  (e14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))

include e0 e1 e2 e3 e4 e5 e6 e7 e8 e9 e10 e11 e12 e13 e14

/-- The reference's edge result, from a memory agreeing with the kernel's on the arguments. -/
theorem ref_edges : Cert.ReferenceIdeal.Value.res_main_v73 (F := Ideal) m' c = Cert.Spec.attnArr (Qr m c) (Kr m c) (Vr m c) := by
  rw [Cert.ReferenceIdeal.Read.val_main_v73_eq, e0, e1, e2, e3, e4, e5, e6, e7, e8, e9, e10, e11, e12, e13, e14]
  exact Cert.ReferenceIdeal.RefValue.edges_eq _ _ _ _ _ _ _ _ _ _ _ _ _ _ _

/-- The reference's node result, likewise. -/
theorem ref_nodes : Cert.ReferenceIdeal.Value.res_main_v76 (F := Ideal) m' c
    = Cert.Spec.scatArr (Dr m c) (Cert.Spec.attnArr (Qr m c) (Kr m c) (Vr m c)) := by
  rw [Cert.ReferenceIdeal.Read.val_main_v76_eq, e0, e1, e2, e3, e4, e5, e6, e7, e8, e9, e10, e11, e12, e13, e14]
  exact (Cert.ReferenceIdeal.RefValue.nodes_eq _ _ _ _ _ _ _ _ _ _ _ _ _ _ _).trans
    (congrArg (Cert.Spec.scatArr _) (Cert.ReferenceIdeal.RefValue.edges_eq _ _ _ _ _ _ _ _ _ _ _ _ _ _ _))

end Reference

end Cert.Proof.Assembly

end
-- ==== Proof.lean ====
/-
  THE CERTIFICATE. A graph-attention layer: node and edge features are projected to query, key and value rows, the
  node rows are gathered along the edges and fused entrywise with the edge rows, full softmax attention runs over the 8192
  edges, and the edge results are scatter-summed to their destination nodes. The kernel program fuses the three node-side
  (and edge-side) projections into one, runs the attention as a Pallas kernel over 32 tiles of 256 query rows with a
  streaming softmax over four chunks of 2048 keys, and scatters by a second Pallas kernel that multiplies a 0/1 matrix
  "edge e goes to node n" with the edge rows, 8 node tiles × 4 edge chunks, accumulating in scratch.

  FRAMES. Both kernel programs (the word-level one and its idealization: the same text, the ideal pass rewrote nothing, so
  `preserves` is `True`) run to the end with their arguments unchanged: @main is a host stretch, the attention region, one
  reshape, the scatter region, each region from its body's run at every grid position (Proof/Kernel…/Run.lean). The
  reference is a host program: its generated run.

  VALUES. At the exact reals both programs end with the same two arrays (Proof/Assembly.lean): the attention of the same
  query, key and value rows — the streaming softmax equals the two-pass one, the scale 1/sqrt(128) moves from the query row
  to the score, both by arithmetic of REAL numbers, which is where the finite-inputs precondition is used — and the
  scatter-sum of it by the same destination ids, an id outside 0 … 4095 contributing nothing on either side.
-/
import proofs.«421498_j43611097924270_2_alg».proof.Defs
import proofs.«421498_j43611097924270_2_alg».proof.Proof.Gen.Kernel
import proofs.«421498_j43611097924270_2_alg».proof.Proof.Gen.KernelIdeal
import proofs.«421498_j43611097924270_2_alg».proof.Proof.Gen.ReferenceIdeal
import proofs.«421498_j43611097924270_2_alg».proof.Proof.Gen.Pre_finite_inputs
import proofs.«421498_j43611097924270_2_alg».proof.Proof.Kernel.Run
import proofs.«421498_j43611097924270_2_alg».proof.Proof.KernelIdeal.Run
import proofs.«421498_j43611097924270_2_alg».proof.Proof.Gen.ReferenceIdeal.Run
import proofs.«421498_j43611097924270_2_alg».proof.Proof.Gen.ReferenceIdeal.Read
import proofs.«421498_j43611097924270_2_alg».proof.Proof.Ref.RefValue
import proofs.«421498_j43611097924270_2_alg».proof.Proof.Assembly
import Idealize.ShloMosaic.Adequacy
import Idealize.ShloMosaic.Init

set_option maxRecDepth 16384

noncomputable section

namespace Cert.Proof

open Idealize.ShloMosaic Idealize.SL.Sem

section Claims

theorem frame_k : Cert.frame_Kernel := fun m ρ _ => Cert.Kernel.Frame.frame (F := Bits) m ρ

theorem frame_ki : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end with the same node and edge results: the kernel's are its two regions' output arrays, the
    reference's its run's two terms, and each pair is one function of the (agreeing) arguments. -/
theorem algebraic : Cert.algebraic_KernelIdeal_ReferenceIdeal := by
  intro m ρ m' ρ' hpre hagree
  refine ⟨fun c => (Cert.KernelIdeal.Frame.dat1 (F := Ideal) (Cert.KernelIdeal.Frame.V3 m ρ) c).arrAt 2 Cert.KernelIdeal.cfg1.N,
    fun c => (Cert.KernelIdeal.Frame.dat0 (F := Ideal) (Cert.KernelIdeal.Frame.V1 m ρ) c).arrAt 3 Cert.KernelIdeal.cfg0.N,
    Cert.KernelIdeal.Frame.run_results (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · -- the node result
    exact (Cert.Proof.Assembly.ref_nodes m c m' (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2).trans (Cert.Proof.Assembly.kernel_nodes_spec m ρ c hpre).symm
  · -- the edge result
    exact (Cert.Proof.Assembly.ref_edges m c m' (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2).trans (Cert.Proof.Assembly.kernel_edges m ρ c hpre).symm

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
